-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x64 : Shape := ⟨2, ![1024, 64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x2048x1024 .f32) (main_arg1 : FVec F S1024x64 .f32) (main_arg2 : FVec F S1024x64 .f32) (main_arg3 : FVec F S1024x64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x2048x1024 : Shape := ⟨3, ![4, 2048, 1024]⟩
abbrev S1024x64 : Shape := ⟨2, ![1024, 64]⟩
abbrev S8192x1024 : Shape := ⟨2, ![8192, 1024]⟩
abbrev S_ : Shape := ⟨0, ![]⟩
abbrev S1024x192 : Shape := ⟨2, ![1024, 192]⟩
abbrev S1024x256 : Shape := ⟨2, ![1024, 256]⟩
abbrev S8192x256 : Shape := ⟨2, ![8192, 256]⟩
abbrev S2048x1024 : Shape := ⟨2, ![2048, 1024]⟩
abbrev S2048x256 : Shape := ⟨2, ![2048, 256]⟩
abbrev S4x2048x256 : Shape := ⟨3, ![4, 2048, 256]⟩
abbrev S4x2048x64 : Shape := ⟨3, ![4, 2048, 64]⟩
abbrev S1x1024x256 : Shape := ⟨3, ![1, 1024, 256]⟩
abbrev S1x1024x64 : Shape := ⟨3, ![1, 1024, 64]⟩
abbrev S1x1024x1 : Shape := ⟨3, ![1, 1024, 1]⟩
abbrev S1x1024x1024 : Shape := ⟨3, ![1, 1024, 1024]⟩
abbrev S1x1024 : Shape := ⟨2, ![1, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8192x1024, .f32⟩
  | .hbm, ⟨5, _⟩ => ⟨S_, .f32⟩
  | .hbm, ⟨6, _⟩ => ⟨S1024x64, .f32⟩
  | .hbm, ⟨7, _⟩ => ⟨S1024x64, .f32⟩
  | .hbm, ⟨8, _⟩ => ⟨S1024x192, .f32⟩
  | .hbm, ⟨9, _⟩ => ⟨S_, .i32⟩
  | .hbm, ⟨10, _⟩ => ⟨S_, .f32⟩
  | .hbm, ⟨11, _⟩ => ⟨S1024x256, .f32⟩
  | .hbm, ⟨12, _⟩ => ⟨S8192x256, .bf16⟩
  | .hbm, ⟨13, _⟩ => ⟨S4x2048x256, .bf16⟩
  | .hbm, ⟨14, _⟩ => ⟨S4x2048x64, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S2048x256, .bf16⟩
  | .local _ .vmem, ⟨4, _⟩ => ⟨S2048x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x64, .f32⟩
  | .local _ .vmem, ⟨10, _⟩ => ⟨S1x1024x64, .f32⟩
  | .local _ .vmem, ⟨11, _⟩ => ⟨S1x1024x1, .f32⟩
  | .local _ .vmem, ⟨12, _⟩ => ⟨S1x1024x1, .f32⟩
  | .local _ .vmem, ⟨13, _⟩ => ⟨S1x1024x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 2, 2], ![false, false, false]⟩

def k1_cond4 (i : grid1.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x1024_S8192x1024 : S4x2048x1024.ShapeCasts S8192x1024
  bcast_S_S1024x64 : S_.BroadcastsInDim S1024x64 (![] : Fin 0 → Fin S1024x64.rank)
  concatenates_S1024x64_S1024x64_S1024x64_S1024x192_d1 : Shape.Concatenates [S1024x64, S1024x64, S1024x64] S1024x192 1
  pads_S1024x192_S1024x256_000_0640 : S1024x192.Pads (![0, 0] : Fin 2 → Nat) ![0, 64] ![0, 0] S1024x256
  h_S_ : 0 < S_.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  shapeCasts_S8192x256_S4x2048x256 : S8192x256.ShapeCasts S4x2048x256
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1x1024x256 : S1x1024x256.ShapeCasts S1x1024x256
  slices_S1x1024x256_o0_0_0_S1x1024x64 : S1x1024x256.Slices ![0, 0, 0] S1x1024x64
  slices_S1x1024x256_o0_0_64_S1x1024x64 : S1x1024x256.Slices ![0, 0, 64] S1x1024x64
  slices_S1x1024x256_o0_0_128_S1x1024x64 : S1x1024x256.Slices ![0, 0, 128] S1x1024x64
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  broadcasts_S1x1024x1_S1x1024x64 : S1x1024x1.Broadcasts S1x1024x64
  iota_S1x1024x1024_d1_w32 : S1x1024x1024.Iotas .tc 32 [1]
  iota_S1x1024x1024_d2_w32 : S1x1024x1024.Iotas .tc 32 [2]
  dot_S2048x1024_S1024x256_S2048x256_1_0_0_1_n_n_wf : DotDims.WF S2048x1024 S1024x256 S2048x256 [1] [0] [0] [1] [] []
  dot_S1x1024x64_S1x1024x64_S1x1024x1024_2_2_1_1_0_0_wf : DotDims.WF S1x1024x64 S1x1024x64 S1x1024x1024 [2] [2] [1] [1] [0] [0]
  dot_S1x1024x1024_S1x1024x64_S1x1024x64_2_1_1_2_0_0_wf : DotDims.WF S1x1024x1024 S1x1024x64 S1x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x2048x256.size a
  hwx1_0 : ∀ i : grid1.Coords, EltTy.bits .bf16 = 32 ∨ (Rect.block (s := S4x2048x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S4x2048x256.size a
  hwx1_1 : ∀ i : grid1.Coords, EltTy.bits .bf16 = 32 ∨ (Rect.block (s := S4x2048x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x2048x64.size a
  hwx1_2 : ∀ i : grid1.Coords, EltTy.bits .f32 = 32 ∨ (Rect.block (s := S4x2048x64) S1x1024x64.size (cc1_transform_2 i) (hinb1_2 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S1x1024x64_S1x1024x64_S1x1024x1024_2_2_1_1_0_0 : DotDims S1x1024x64 S1x1024x64 S1x1024x1024 where
  lhsContracting := [2]
  rhsContracting := [2]
  lhsNonContracting := [1]
  rhsNonContracting := [1]
  lhsBatch := [0]
  rhsBatch := [0]
  wf := dot_S1x1024x64_S1x1024x64_S1x1024x1024_2_2_1_1_0_0_wf
def dot_S1x1024x1024_S1x1024x64_S1x1024x64_2_1_1_2_0_0 : DotDims S1x1024x1024 S1x1024x64 S1x1024x64 where
  lhsContracting := [2]
  rhsContracting := [1]
  lhsNonContracting := [1]
  rhsNonContracting := [2]
  lhsBatch := [0]
  rhsBatch := [0]
  wf := dot_S1x1024x1024_S1x1024x64_S1x1024x64_2_1_1_2_0_0_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x64 : Shape := ⟨2, ![1024, 64]⟩
abbrev S4x2048x64 : Shape := ⟨3, ![4, 2048, 64]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x2048x64, .f32⟩
  | .hbm, ⟨5, _⟩ => ⟨S4x2048x64, .f32⟩
  | .hbm, ⟨6, _⟩ => ⟨S4x2048x64, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S4x2048x2048, .i1⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.IdRegion0.lean ====
/-
  The projection region's proof data and body obligation, at the buffer contents `V` the region is entered from.
  Its grid has four points, one per block of 2048 rows; the body loads the rows' block and the whole weight matrix,
  multiplies them and stores the product as the output block. Nothing is kept between points.
-/
import proofs.«426603_j13365938225281_3_alg».proof.Proof.Gen.KernelIdeal.Launch
import proofs.«426603_j13365938225281_3_alg».proof.Proof.Gen.KernelIdeal.Skeleton
import proofs.«426603_j13365938225281_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the rows' window
    moves with the point and is fetched at each; the weights' window never moves and is fetched once. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

abbrev rX : Rect S2048x1024 := Rect.unit (s := S2048x1024) ![0, 0] S2048x1024.size inb_S2048x1024_S2048x1024_0_0
abbrev rW : Rect S1024x256 := Rect.unit (s := S1024x256) ![0, 0] S1024x256.size inb_S1024x256_S1024x256_0_0
abbrev rO : Rect S2048x256 := Rect.unit (s := S2048x256) ![0, 0] S2048x256.size inb_S2048x256_S2048x256_0_0

/-- The output block after the body: its one store, of the product of the rows' block by the weights. -/
def projOut (x0 : Vec F S2048x1024 .f32) (x1 : Vec F S1024x256 .f32) : Vec F S2048x256 .bf16 :=
  View.canon [⟨rO, k0_pay1 (View.ld x0 rX) (View.ld x1 rW)⟩]

theorem cover_projOut (p0 : Vec F S2048x256 .bf16) (y : S2048x256.Idx) :
    ∃ pc ∈ ([⟨rO, p0⟩] : List (View.Piece (Elt F) S2048x256 .bf16)), y ∈ pc.1.set :=
  View.cover_of_tiled [⟨rO, p0⟩] S2048x256.size (by rfl) y

/-! ## The body's triple -/

set_option maxHeartbeats 1000000 in
theorem sound_proj (c : Dev nD) (E : Set ℕ) (i : grid0.Coords) (arg1 : Memref sig .tc .vmem S2048x1024 .f32) (harg1 : arg1.IsWhole)
    (arg2 : Memref sig .tc .vmem S1024x256 .f32) (harg2 : arg2.IsWhole) (arg3 : Memref sig .tc .vmem S2048x256 .bf16) (harg3 : arg3.IsWhole)
    (x0 : Vec F S2048x1024 .f32) (x1 : Vec F S1024x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_projOut _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => projOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdFlashDefs.lean ====
/-
  The attention kernel's grid is (batch b, query tile qi, key tile ki) with two tiles of 1024 rows each way; a point's
  position is t = 4·b + 2·qi + ki. Per point the body does up to four things, each under a condition on (qi, ki):
  reset the running maximum m, the running denominator l and the running numerator acc (ki = 0); fold in a key tile
  lying wholly below the diagonal (ki < qi); fold in the diagonal tile under the causal mask (ki = qi); write acc / l
  to the output block (ki = 1). Here each of those effects is named as a function of the two input blocks and of
  what m, l and acc held before, and the four combinations the grid meets are listed with where they occur.
-/
import proofs.«426603_j13365938225281_3_alg».proof.Proof.Gen.KernelIdeal.Launch
import proofs.«426603_j13365938225281_3_alg».proof.Proof.Gen.KernelIdeal.Skeleton
import proofs.«426603_j13365938225281_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-! ## The running triple and its updates -/

/-- The running maximum, denominator and numerator of a query tile: one entry per row (per row and head column for
    the numerator). -/
abbrev Mv (F : FTy → Type) := Vec F S1x1024x1 .f32
abbrev Av (F : FTy → Type) := Vec F S1x1024x64 .f32
abbrev Blk (F : FTy → Type) := Vec F S1x1024x256 .bf16

/-- At ki = 0: m = −∞, l = 0, acc = 0. -/
def m0 : Mv F := k1_pay1
def l0 : Mv F := k1_pay2
def a0 : Av F := k1_pay3

/-- A key tile wholly below the diagonal folded in: from the query block `x0`, the key/value block `x1` and the
    triple before. -/
def mF (x0 x1 : Blk F) (m : Mv F) : Mv F := k1_pay5 (k1_pay12 x0 x1 m)
def lF (x0 x1 : Blk F) (m l : Mv F) : Mv F := k1_pay15 x0 x1 m m l
def aF (x0 x1 : Blk F) (m : Mv F) (a : Av F) : Av F := k1_pay4 (k1_pay16 x0 x1 m m a)

/-- The diagonal tile folded in under the causal mask; `q` and `k` are the tile numbers as 32-bit words. -/
def mD (q k : BitVec 32) (x0 x1 : Blk F) (m : Mv F) : Mv F := k1_pay8 (k1_pay20 q k x0 x1 m)
def lD (q k : BitVec 32) (x0 x1 : Blk F) (m l : Mv F) : Mv F := k1_pay6 (k1_pay23 q k x0 x1 m m l)
def aD (q k : BitVec 32) (x0 x1 : Blk F) (m : Mv F) (a : Av F) : Av F :=
  k1_pay7 (k1_pay18 x1) (k1_pay21 q k x0 x1 m m) (k1_pay22 q k x0 x1 m) a

/-- The output block: acc / l, l broadcast along the head axis. -/
def outE (a : Av F) (l : Mv F) : Av F := k1_pay9 a l

/-! ## The four conditions, decided over the grid -/

abbrev qw (i : grid1.Coords) : BitVec 32 := BitVec.ofNat 32 (i 1).val
abbrev kw (i : grid1.Coords) : BitVec 32 := BitVec.ofNat 32 (i 2).val

/-- ki = 0. -/
abbrev cInit (i : grid1.Coords) : Prop := (Scalar.cmpi .ne (Scalar.extui (Scalar.cmpi .eq (kw i) 0#32)) 0#32) = 1#1
/-- ki < qi. -/
abbrev cBelow (i : grid1.Coords) : Prop := (Scalar.cmpi .ne (Scalar.extui (Scalar.cmpi .slt (kw i) (qw i))) 0#32) = 1#1
/-- ki = qi. -/
abbrev cDiag (i : grid1.Coords) : Prop := (Scalar.cmpi .ne (Scalar.extui (Scalar.cmpi .eq (kw i) (qw i))) 0#32) = 1#1
/-- ki = 1, the last key tile. -/
abbrev cLast (i : grid1.Coords) : Prop := k1_cond4 i = 1#1

theorem hInit : ∀ t : Fin cfg1.N, cInit (grid1.coords t) ↔ t.val % 2 = 0 :=
  (by decide +kernel : ∀ t : Fin grid1.N, cInit (grid1.coords t) ↔ t.val % 2 = 0)
theorem hBelow : ∀ t : Fin cfg1.N, cBelow (grid1.coords t) ↔ t.val % 4 = 2 :=
  (by decide +kernel : ∀ t : Fin grid1.N, cBelow (grid1.coords t) ↔ t.val % 4 = 2)
theorem hDiag : ∀ t : Fin cfg1.N, cDiag (grid1.coords t) ↔ (t.val % 4 = 0 ∨ t.val % 4 = 3) :=
  (by decide +kernel : ∀ t : Fin grid1.N, cDiag (grid1.coords t) ↔ (t.val % 4 = 0 ∨ t.val % 4 = 3))
theorem hLast : ∀ t : Fin cfg1.N, cLast (grid1.coords t) ↔ t.val % 2 = 1 :=
  (by decide +kernel : ∀ t : Fin grid1.N, cLast (grid1.coords t) ↔ t.val % 2 = 1)

/-- The output window is idle exactly where ki = 0, and written back exactly where ki = 1. -/
theorem idle_out : ∀ t : Fin cfg1.N, cfg1.idle 2 (grid1.coords t) = true ↔ t.val % 2 = 0 := by decide +kernel
theorem live_in0 : ∀ t : Fin cfg1.N, cfg1.idle 0 (grid1.coords t) = false := by decide +kernel
theorem live_in1 : ∀ t : Fin cfg1.N, cfg1.idle 1 (grid1.coords t) = false := by decide +kernel

end Cert.KernelIdeal.Hand

end
-- ==== Proof.IdFlashRunsInit.lean ====
/-
  The attention body at the two kinds of point with ki = 0, where the running triple is reset and one tile is folded in;
  the output block is not touched there and is handed back as found.
  On the diagonal (qi = ki = 0) the tile is folded in under the causal mask; below it (qi = 1, ki = 0) whole.
-/
import proofs.«426603_j13365938225281_3_alg».proof.Proof.IdFlashDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- Whatever was stored before, once the whole buffer has been stored last, the buffer reads as that last payload. -/
theorem read_writes_cons_whole {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

set_option maxHeartbeats 1000000 in
theorem run_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x64 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x64 .f32) (harg8 : arg8.IsWhole)
    (h1 : cInit i) (h2 : ¬cBelow i) (h3 : cDiag i) (h4 : ¬cLast i)
    (x0 x1 : Blk F) (xo : Av F) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (mD (qw i) (kw i) x0 x1 m0)
            ∗ owns (c : Thread nD τ) arg7 fullShare (lD (qw i) (kw i) x0 x1 m0 l0)
            ∗ owns (c : Thread nD τ) arg8 fullShare (aD (qw i) (kw i) x0 x1 m0 a0)) -∗ K ⟨⟩))
      ⊢ wp frame (wpE (defs₀ (F := F)) Variants.none c none) E (cc1__flash_kernel i arg3 harg3 arg4 harg4 arg5 harg5 arg6 harg6 arg7 harg7 arg8 harg8) K := by
  -- The reset stores (m0, l0, a0); the masked diagonal fold reads them back and stores the new triple over them.
  -- Each of the three buffers is stored whole both times, so it ends holding its second payload.
  have hz256 : (![0, 0, 0] : Fin S1x1024x256.rank → Nat) = fun _ => 0 := by decide
  have hz64 : (![0, 0, 0] : Fin S1x1024x64.rank → Nat) = fun _ => 0 := by decide
  have hz1 : (![0, 0, 0] : Fin S1x1024x1.rank → Nat) = fun _ => 0 := by decide
  simp only [cc1__flash_kernel_eq_skeleton]; unfold cc1__flash_kernel_skel
  unfold owns
  iintro ⟨⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, Hk⟩
  obtain rfl := harg3.eq_unread hf3; obtain rfl := harg4.eq_unread hf4; obtain rfl := harg5.eq_unread hf5
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [read_writes_cons_whole _ _ hz1]
    simp only [View.readAt_eq_ld, harg3.read_unread, harg4.read_unread, View.ld_unit_zero (S := S1x1024x256) hz256,
      View.readCov_unit_zero (S := S1x1024x1) _ hz1, View.readCov_unit_zero (S := S1x1024x64) _ hz64]
    rfl
  isplitl [H7]
  · iexists _; isplitr; swap; · iexact H7
    ipureintro
    sl_unfold_words
    rw [read_writes_cons_whole _ _ hz1]
    simp only [View.readAt_eq_ld, harg3.read_unread, harg4.read_unread, View.ld_unit_zero (S := S1x1024x256) hz256,
      View.readCov_unit_zero (S := S1x1024x1) _ hz1, View.readCov_unit_zero (S := S1x1024x64) _ hz64]
    rfl
  · iexists _; isplitr; swap; · iexact H8
    ipureintro
    sl_unfold_words
    rw [read_writes_cons_whole _ _ hz64]
    simp only [View.readAt_eq_ld, harg3.read_unread, harg4.read_unread, View.ld_unit_zero (S := S1x1024x256) hz256,
      View.readCov_unit_zero (S := S1x1024x1) _ hz1, View.readCov_unit_zero (S := S1x1024x64) _ hz64]
    rfl

set_option maxHeartbeats 1000000 in
theorem run_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x64 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x64 .f32) (harg8 : arg8.IsWhole)
    (h1 : cInit i) (h2 : cBelow i) (h3 : ¬cDiag i) (h4 : ¬cLast i)
    (x0 x1 : Blk F) (xo : Av F) (E : Set ℕ) (K : PUnit → sProp 𝕄) :
    iprop(owns (c : Thread nD τ) arg3 fullShare x0 ∗ owns (c : Thread nD τ) arg4 fullShare x1 ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (mF x0 x1 m0)
            ∗ owns (c : Thread nD τ) arg7 fullShare (lF x0 x1 m0 l0)
            ∗ owns (c : Thread nD τ) arg8 fullShare (aF x0 x1 m0 a0)) -∗ K ⟨⟩))
      ⊢ wp frame (wpE (defs₀ (F := F)) Variants.none c none) E (cc1__flash_kernel i arg3 harg3 arg4 harg4 arg5 harg5 arg6 harg6 arg7 harg7 arg8 harg8) K := by
  -- The reset stores (m0, l0, a0); the unmasked fold of the tile below the diagonal reads them back and stores the
  -- new triple over them. Each of the three buffers is stored whole both times, so it ends holding its second payload.
  have hz256 : (![0, 0, 0] : Fin S1x1024x256.rank → Nat) = fun _ => 0 := by decide
  have hz64 : (![0, 0, 0] : Fin S1x1024x64.rank → Nat) = fun _ => 0 := by decide
  have hz1 : (![0, 0, 0] : Fin S1x1024x1.rank → Nat) = fun _ => 0 := by decide
  simp only [cc1__flash_kernel_eq_skeleton]; unfold cc1__flash_kernel_skel
  unfold owns
  iintro ⟨⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, Hk⟩
  obtain rfl := harg3.eq_unread hf3; obtain rfl := harg4.eq_unread hf4; obtain rfl := harg5.eq_unread hf5
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [read_writes_cons_whole _ _ hz1]
    simp only [View.readAt_eq_ld, harg3.read_unread, harg4.read_unread, View.ld_unit_zero (S := S1x1024x256) hz256,
      View.readCov_unit_zero (S := S1x1024x1) _ hz1, View.readCov_unit_zero (S := S1x1024x64) _ hz64]
    rfl
  isplitl [H7]
  · iexists _; isplitr; swap; · iexact H7
    ipureintro
    sl_unfold_words
    rw [read_writes_cons_whole _ _ hz1]
    simp only [View.readAt_eq_ld, harg3.read_unread, harg4.read_unread, View.ld_unit_zero (S := S1x1024x256) hz256,
      View.readCov_unit_zero (S := S1x1024x1) _ hz1, View.readCov_unit_zero (S := S1x1024x64) _ hz64]
    rfl
  · iexists _; isplitr; swap; · iexact H8
    ipureintro
    sl_unfold_words
    rw [read_writes_cons_whole _ _ hz64]
    simp only [View.readAt_eq_ld, harg3.read_unread, harg4.read_unread, View.ld_unit_zero (S := S1x1024x256) hz256,
      View.readCov_unit_zero (S := S1x1024x1) _ hz1, View.readCov_unit_zero (S := S1x1024x64) _ hz64]
    rfl

end Cert.KernelIdeal.Hand

end
-- ==== Proof.IdFlashRunsLast.lean ====
/-
  The attention body at the two kinds of point with ki = 1, the last key tile, where acc / l is written to the output
  block. Above the diagonal (qi = 0) nothing is folded in and the running triple is what the point before left; on the
  diagonal (qi = 1) the tile is first folded in under the causal mask.
-/
import proofs.«426603_j13365938225281_3_alg».proof.Proof.IdFlashDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem run_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x64 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x64 .f32) (harg8 : arg8.IsWhole)
    (h1 : ¬cInit i) (h2 : ¬cBelow i) (h3 : ¬cDiag i) (h4 : cLast i)
    (x0 x1 : Blk F) (m l : Mv F) (a : Av F) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare m ∗ owns (c : Thread nD τ) arg7 fullShare l ∗ owns (c : Thread nD τ) arg8 fullShare a
        ∗ (iprop(owns (c : Thread nD τ) arg3 fullShare x0 ∗ owns (c : Thread nD τ) arg4 fullShare x1 ∗ owns (c : Thread nD τ) arg5 fullShare (outE a l)
            ∗ owns (c : Thread nD τ) arg6 fullShare m ∗ owns (c : Thread nD τ) arg7 fullShare l ∗ owns (c : Thread nD τ) arg8 fullShare a) -∗ K ⟨⟩))
      ⊢ wp frame (wpE (defs₀ (F := F)) Variants.none c none) E (cc1__flash_kernel i arg3 harg3 arg4 harg4 arg5 harg5 arg6 harg6 arg7 harg7 arg8 harg8) K := by
  -- Of the four conditional parts only the last one runs here. It reads the running numerator and denominator, which
  -- nothing has changed, and stores their quotient over the whole output block; the other five buffers are left as found.
  simp only [cc1__flash_kernel_eq_skeleton]; unfold cc1__flash_kernel_skel
  unfold owns
  iintro ⟨⟨%f3, %hf3, H3⟩, ⟨%f4, %hf4, H4⟩, ⟨%d5, %f5, %hf5, H5⟩, ⟨%f6, %hf6, H6⟩, ⟨%f7, %hf7, H7⟩, ⟨%f8, %hf8, H8⟩, Hk⟩
  obtain rfl := harg3.eq_unread hf3; obtain rfl := harg4.eq_unread hf4
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    rw [View.read_writes_eq_canon _ _ _ (View.cover_of_tiled _ S1x1024x64.size (by rfl))]
    rw [View.canon_unit_zero (S := S1x1024x64) (by decide)]
    have hz64 : (![0, 0, 0] : Fin S1x1024x64.rank → Nat) = fun _ => 0 := by decide
    have hz1 : (![0, 0, 0] : Fin S1x1024x1.rank → Nat) = fun _ => 0 := by decide
    simp only [View.readAt_eq_ld, harg8.read_unread, harg7.read_unread,
      View.ld_unit_zero (S := S1x1024x64) hz64, View.ld_unit_zero (S := S1x1024x1) hz1]
    rfl
  isplitl [H6]
  · iexists _; isplitr; · ipureintro; exact harg6.read_unread _
    iexact H6
  isplitl [H7]
  · iexists _; isplitr; · ipureintro; exact harg7.read_unread _
    iexact H7
  iexists _; isplitr; · ipureintro; exact harg8.read_unread _
  iexact H8

set_option maxHeartbeats 1000000 in
theorem run_D (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x64 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x64 .f32) (harg8 : arg8.IsWhole)
    (h1 : ¬cInit i) (h2 : ¬cBelow i) (h3 : cDiag i) (h4 : cLast i)
    (x0 x1 : Blk F) (m l : Mv F) (a : Av F) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare m ∗ owns (c : Thread nD τ) arg7 fullShare l ∗ owns (c : Thread nD τ) arg8 fullShare a
        ∗ (iprop(owns (c : Thread nD τ) arg3 fullShare x0 ∗ owns (c : Thread nD τ) arg4 fullShare x1 ∗ owns (c : Thread nD τ) arg5 fullShare (outE (aD (qw i) (kw i) x0 x1 m a) (lD (qw i) (kw i) x0 x1 m l))
            ∗ owns (c : Thread nD τ) arg6 fullShare (mD (qw i) (kw i) x0 x1 m)
            ∗ owns (c : Thread nD τ) arg7 fullShare (lD (qw i) (kw i) x0 x1 m l)
            ∗ owns (c : Thread nD τ) arg8 fullShare (aD (qw i) (kw i) x0 x1 m a)) -∗ K ⟨⟩))
      ⊢ wp frame (wpE (defs₀ (F := F)) Variants.none c none) E (cc1__flash_kernel i arg3 harg3 arg4 harg4 arg5 harg5 arg6 harg6 arg7 harg7 arg8 harg8) K := by
  -- Two parts run here. The diagonal part reads the two input blocks and the running triple and overwrites the whole of
  -- the denominator, the numerator and the maximum, in that order, each with its masked update (the numerator's update
  -- still sees the old numerator, the others see the old maximum). The last part then reads the NEW numerator and
  -- denominator back and stores their quotient over the whole output block. Every store covers its buffer, so each
  -- buffer ends holding exactly the value last stored to it.
  simp only [cc1__flash_kernel_eq_skeleton]; unfold cc1__flash_kernel_skel
  unfold owns
  iintro ⟨⟨%f3, %hf3, H3⟩, ⟨%f4, %hf4, H4⟩, ⟨%d5, %f5, %hf5, H5⟩, ⟨%f6, %hf6, H6⟩, ⟨%f7, %hf7, H7⟩, ⟨%f8, %hf8, H8⟩, Hk⟩
  obtain rfl := harg3.eq_unread hf3; obtain rfl := harg4.eq_unread hf4
  obtain rfl := harg6.eq_unread hf6; obtain rfl := harg7.eq_unread hf7; obtain rfl := harg8.eq_unread hf8
  sl_exec (disch := first | exact h1 | exact h2 | exact h3 | exact h4)
  sl_step
  iapply Hk
  have hz256 : (![0, 0, 0] : Fin S1x1024x256.rank → Nat) = fun _ => 0 := by decide
  have hz64 : (![0, 0, 0] : Fin S1x1024x64.rank → Nat) = fun _ => 0 := by decide
  have hz1 : (![0, 0, 0] : Fin S1x1024x1.rank → Nat) = fun _ => 0 := by decide
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    rw [View.read_writes_eq_canon _ _ _ (View.cover_of_tiled _ S1x1024x64.size (by rfl))]
    rw [View.canon_unit_zero (S := S1x1024x64) hz64]
    simp only [View.readAt_eq_ld, harg3.read_unread, harg4.read_unread, harg6.read_unread, harg7.read_unread,
      harg8.read_unread, View.ld_unit_zero (S := S1x1024x256) hz256, View.ld_unit_zero (S := S1x1024x64) hz64,
      View.ld_unit_zero (S := S1x1024x1) hz1, View.readCov_unit_zero (S := S1x1024x64) _ hz64,
      View.readCov_unit_zero (S := S1x1024x1) _ hz1]
    rfl
  isplitl [H6]
  · iexists _; isplitr; swap; · iexact H6
    ipureintro
    sl_unfold_words
    rw [View.read_writes_eq_canon _ _ _ (View.cover_of_tiled _ S1x1024x1.size (by rfl))]
    rw [View.canon_unit_zero (S := S1x1024x1) hz1]
    simp only [View.readAt_eq_ld, harg3.read_unread, harg4.read_unread, harg6.read_unread, harg7.read_unread,
      harg8.read_unread, View.ld_unit_zero (S := S1x1024x256) hz256, View.ld_unit_zero (S := S1x1024x64) hz64,
      View.ld_unit_zero (S := S1x1024x1) hz1, View.readCov_unit_zero (S := S1x1024x64) _ hz64,
      View.readCov_unit_zero (S := S1x1024x1) _ hz1]
    rfl
  isplitl [H7]
  · iexists _; isplitr; swap; · iexact H7
    ipureintro
    sl_unfold_words
    rw [View.read_writes_eq_canon _ _ _ (View.cover_of_tiled _ S1x1024x1.size (by rfl))]
    rw [View.canon_unit_zero (S := S1x1024x1) hz1]
    simp only [View.readAt_eq_ld, harg3.read_unread, harg4.read_unread, harg6.read_unread, harg7.read_unread,
      harg8.read_unread, View.ld_unit_zero (S := S1x1024x256) hz256, View.ld_unit_zero (S := S1x1024x64) hz64,
      View.ld_unit_zero (S := S1x1024x1) hz1, View.readCov_unit_zero (S := S1x1024x64) _ hz64,
      View.readCov_unit_zero (S := S1x1024x1) _ hz1]
    rfl
  iexists _; isplitr; swap; · iexact H8
  ipureintro
  sl_unfold_words
  rw [View.read_writes_eq_canon _ _ _ (View.cover_of_tiled _ S1x1024x64.size (by rfl))]
  rw [View.canon_unit_zero (S := S1x1024x64) hz64]
  simp only [View.readAt_eq_ld, harg3.read_unread, harg4.read_unread, harg6.read_unread, harg7.read_unread,
    harg8.read_unread, View.ld_unit_zero (S := S1x1024x256) hz256, View.ld_unit_zero (S := S1x1024x64) hz64,
    View.ld_unit_zero (S := S1x1024x1) hz1, View.readCov_unit_zero (S := S1x1024x64) _ hz64,
    View.readCov_unit_zero (S := S1x1024x1) _ hz1]
  rfl

end Cert.KernelIdeal.Hand

end
-- ==== Proof.IdFlashDat.lean ====
/-
  The attention region's proof data, at the buffer contents `V` the region is entered from.
  Position t = 4·b + 2·qi + ki. The running triple after point t: at t ≡ 0 (mod 4) the diagonal tile folded into the
  reset state; at t ≡ 1 what t − 1 left; at t ≡ 2 the tile below the diagonal folded into the reset state; at t ≡ 3
  the diagonal tile folded into what t − 1 left. The output block after a point with ki = 1 is acc / l of that triple;
  where ki = 0 the block is not touched. Between points the three scratch buffers hold the triple.
-/
import proofs.«426603_j13365938225281_3_alg».proof.Proof.IdFlashRunsInit
import proofs.«426603_j13365938225281_3_alg».proof.Proof.IdFlashRunsLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' block and the key/value rows' block at a point. -/
abbrev qB (c : Dev nD) (t : Fin cfg1.N) : Blk F := iblk1 V c 0 t
abbrev kB (c : Dev nD) (t : Fin cfg1.N) : Blk F := iblk1 V c 1 t

/-! ## The running triple after each point -/

/-- The diagonal tile at `t` folded into `(m, l, a)`. -/
def stepD (c : Dev nD) (t : Fin cfg1.N) (p : Mv F × Mv F × Av F) : Mv F × Mv F × Av F :=
  (mD (qw (grid1.coords t)) (kw (grid1.coords t)) (qB V c t) (kB V c t) p.1,
   lD (qw (grid1.coords t)) (kw (grid1.coords t)) (qB V c t) (kB V c t) p.1 p.2.1,
   aD (qw (grid1.coords t)) (kw (grid1.coords t)) (qB V c t) (kB V c t) p.1 p.2.2)
/-- The tile below the diagonal at `t` folded into `(m, l, a)`. -/
def stepF (c : Dev nD) (t : Fin cfg1.N) (p : Mv F × Mv F × Av F) : Mv F × Mv F × Av F :=
  (mF (qB V c t) (kB V c t) p.1, lF (qB V c t) (kB V c t) p.1 p.2.1, aF (qB V c t) (kB V c t) p.1 p.2.2)
/-- The reset state. -/
def reset : Mv F × Mv F × Av F := (m0, l0, a0)

def scrAt (c : Dev nD) : (n : ℕ) → n < cfg1.N → Mv F × Mv F × Av F
  | 0, h => stepD V c ⟨0, h⟩ reset
  | n + 1, h =>
    if (n + 1) % 4 = 0 then stepD V c ⟨n + 1, h⟩ reset
    else if (n + 1) % 4 = 1 then scrAt c n (Nat.lt_of_succ_lt h)
    else if (n + 1) % 4 = 2 then stepF V c ⟨n + 1, h⟩ reset
    else stepD V c ⟨n + 1, h⟩ (scrAt c n (Nat.lt_of_succ_lt h))

theorem scrAt_r0 (c : Dev nD) (t : Fin cfg1.N) (h : t.val % 4 = 0) : scrAt V c t.val t.isLt = stepD V c t reset := by
  obtain ⟨n, hn⟩ := t
  cases n with
  | zero => rfl
  | succ n =>
    have h' : (n + 1) % 4 = 0 := h
    show scrAt V c (n + 1) hn = _
    unfold scrAt
    rw [if_pos h']
theorem scrAt_r1 (c : Dev nD) (t : Fin cfg1.N) (h : t.val % 4 = 1) :
    scrAt V c t.val t.isLt = scrAt V c (t.val - 1) (Nat.lt_of_le_of_lt (Nat.sub_le _ _) t.isLt) := by
  obtain ⟨n, hn⟩ := t
  cases n with
  | zero => exact absurd (show 0 % 4 = 1 from h) (by decide)
  | succ n =>
    have h' : (n + 1) % 4 = 1 := h
    show scrAt V c (n + 1) hn = scrAt V c n _
    conv_lhs => unfold scrAt
    rw [if_neg (by omega), if_pos h']
theorem scrAt_r2 (c : Dev nD) (t : Fin cfg1.N) (h : t.val % 4 = 2) : scrAt V c t.val t.isLt = stepF V c t reset := by
  obtain ⟨n, hn⟩ := t
  cases n with
  | zero => exact absurd (show 0 % 4 = 2 from h) (by decide)
  | succ n =>
    have h' : (n + 1) % 4 = 2 := h
    show scrAt V c (n + 1) hn = _
    unfold scrAt
    rw [if_neg (by omega), if_neg (by omega), if_pos h']
theorem scrAt_r3 (c : Dev nD) (t : Fin cfg1.N) (h : t.val % 4 = 3) :
    scrAt V c t.val t.isLt = stepD V c t (scrAt V c (t.val - 1) (Nat.lt_of_le_of_lt (Nat.sub_le _ _) t.isLt)) := by
  obtain ⟨n, hn⟩ := t
  cases n with
  | zero => exact absurd (show 0 % 4 = 3 from h) (by decide)
  | succ n =>
    have h' : (n + 1) % 4 = 3 := h
    show scrAt V c (n + 1) hn = stepD V c ⟨n + 1, hn⟩ (scrAt V c n _)
    conv_lhs => unfold scrAt
    rw [if_neg (by omega), if_neg (by omega), if_neg (by omega)]

/-! ## The invariant between points -/

abbrev scM0 : Memref sig .tc .vmem S1x1024x1 .f32 := Memref.whole cc1_scratch0
abbrev scM1 : Memref sig .tc .vmem S1x1024x1 .f32 := Memref.whole cc1_scratch1
abbrev scM2 : Memref sig .tc .vmem S1x1024x64 .f32 := Memref.whole cc1_scratch2

/-- The scoped buffers of the other region, each whole at some contents, and the generator register at some state: what
    rides through every point untouched. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ r, prngReg c r))

/-- Before the first point the scratch buffers hold anything; after point `n` they hold the triple after `n`. -/
def PhiS1 (c : Dev nD) : (n : ℕ) → n ≤ cfg1.N → sProp 𝕄
  | 0, _ => Pipeline.ΦA spec1 c
  | n + 1, hn => iprop(owns (c : Thread nD τ) scM0 fullShare (scrAt V c n hn).1
      ∗ owns (c : Thread nD τ) scM1 fullShare (scrAt V c n hn).2.1
      ∗ owns (c : Thread nD τ) scM2 fullShare (scrAt V c n hn).2.2
      ∗ rest1 (F := F) c)

/-- What the launch hands the region as one separating conjunction: the other region's scoped buffers, the three
    scratch buffers at some contents, the generator register. -/
theorem PhiA1_eq (c : Dev nD) :
    (Pipeline.ΦA spec1 c : sProp 𝕄)
      = iprop((∃ d, owns (c : Thread nD τ) scM0 fullShare d) ∗ (∃ d, owns (c : Thread nD τ) scM1 fullShare d)
          ∗ (∃ d, owns (c : Thread nD τ) scM2 fullShare d) ∗ rest1 (F := F) c) := by
  unfold Pipeline.ΦA; rw [scopedRest1_eq]; simp only [scM0, scM1, scM2, owns_whole, rest1]
  refine BI.equiv_iff.mp ⟨?_, ?_⟩
  · show (_ : sProp 𝕄) ⊢ _
    iintro ⟨⟨H1, H2, H3, H4, H5, S0, S1, S2⟩, Hg⟩
    isplitl [S0]; · iexact S0
    isplitl [S1]; · iexact S1
    isplitl [S2]; · iexact S2
    isplitl [H1]; · iexact H1
    isplitl [H2]; · iexact H2
    isplitl [H3]; · iexact H3
    isplitl [H4]; · iexact H4
    isplitl [H5]; · iexact H5
    iexact Hg
  · show (_ : sProp 𝕄) ⊢ _
    iintro ⟨S0, S1, S2, H1, H2, H3, H4, H5, Hg⟩
    isplitr [Hg]; swap; · iexact Hg
    isplitl [H1]; · iexact H1
    isplitl [H2]; · iexact H2
    isplitl [H3]; · iexact H3
    isplitl [H4]; · iexact H4
    isplitl [H5]; · iexact H5
    isplitl [S0]; · iexact S0
    isplitl [S1]; · iexact S1
    iexact S2

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outE (scrAt V c t.val t.isLt).2.2 (scrAt V c t.val t.isLt).2.1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = outE (scrAt V c t.val t.isLt).2.2 (scrAt V c t.val t.isLt).2.1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The invariant, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM0 fullShare (scrAt V c n hn).1
      ∗ owns (c : Thread nD τ) scM1 fullShare (scrAt V c n hn).2.1
      ∗ owns (c : Thread nD τ) scM2 fullShare (scrAt V c n hn).2.2
      ∗ rest1 (F := F) c) := rfl

theorem PhiS1_pos (c : Dev nD) (n : ℕ) (h : n ≤ cfg1.N) (hz : n ≠ 0) :
    PhiS1 V c n h = iprop(owns (c : Thread nD τ) scM0 fullShare (scrAt V c (n - 1) (by omega)).1
      ∗ owns (c : Thread nD τ) scM1 fullShare (scrAt V c (n - 1) (by omega)).2.1
      ∗ owns (c : Thread nD τ) scM2 fullShare (scrAt V c (n - 1) (by omega)).2.2
      ∗ rest1 (F := F) c) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- Each window's current staging memref at a point, and that it is a whole buffer. -/
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .f32 := win1_2.stage (cfg1.slots t 2)
abbrev hs1_2 (t : Fin cfg1.N) : (ms1_2 t).IsWhole := hstage1_2 ((cfg1.slots t 2).cast nbuf1_2)

/-- What the body is handed at point `t`: the invariant, what the core owes, and the three windows' buffers, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The body at any point. The inputs' buffers hold their blocks; the position mod 4 says which of the four kinds the
    point is; the invariant hands over the three scratch buffers (at anything before the first point, else at the
    triple the point before left) and takes them back at this point's triple; the output buffer goes back as found
    where ki = 0 and at acc / l where ki = 1; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live_in0 t], after1_0]
  rw [show (dat1 V c).leavesExact 1 t = owns (c : Thread nD τ) (ms1_1 t) fullShare ((dat1 V c).after 1 t) from by
    unfold Dat.leavesExact; rw [live_in1 t], after1_1]
  have hN : t.val < 16 := lt_of_lt_of_eq t.isLt (show cfg1.N = 16 from N_1)
  by_cases hk : t.val % 2 = 0
  · have hidle : cfg1.idle 2 (grid1.coords t) = true := (idle_out t).mpr hk
    have hnofl : (cfg1.win 2).flush t = false :=
      Bool.eq_false_iff.mpr (fun h => by have := (flush1_2 t).mp h; omega)
    rw [Dat.leavesExact_idle (dat1 V c) 2 t hidle hnofl]
    have h1 : cInit (grid1.coords t) := (hInit t).mpr hk
    have h4 : ¬cLast (grid1.coords t) := fun h => by have := (hLast t).mp h; omega
    by_cases hr : t.val % 4 = 0
    · have h2 : ¬cBelow (grid1.coords t) := fun h => by have := (hBelow t).mp h; omega
      have h3 : cDiag (grid1.coords t) := (hDiag t).mpr (Or.inl hr)
      rw [scrAt_r0 V c t hr]
      dsimp only [stepD, reset]
      by_cases hz : t.val = 0
      · rw [PhiS1_castSucc V c t, PhiS1_zero V c _ _ hz, PhiA1_eq]
        iintro ⟨⟨HS0, HS1, HS2, Hr⟩, Ho, ⟨%d0, H0⟩, ⟨%d1, H1⟩, ⟨%d2, H2⟩⟩
        iapply (run_A c (grid1.coords t) (ms1_0 t) (hs1_0 t) (ms1_1 t) (hs1_1 t) (ms1_2 t) (hs1_2 t)
          scM0 (Memref.isWhole_whole _) scM1 (Memref.isWhole_whole _) scM2 (Memref.isWhole_whole _) h1 h2 h3 h4
          (qB V c t) (kB V c t) ((dat1 V c).before 2 t d2 : Av F) Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        iexists d2; iexact H2
      · rw [PhiS1_castSucc V c t, PhiS1_pos V c _ _ hz]
        iintro ⟨⟨HS0, HS1, HS2, Hr⟩, Ho, ⟨%d0, H0⟩, ⟨%d1, H1⟩, ⟨%d2, H2⟩⟩
        iapply (run_A c (grid1.coords t) (ms1_0 t) (hs1_0 t) (ms1_1 t) (hs1_1 t) (ms1_2 t) (hs1_2 t)
          scM0 (Memref.isWhole_whole _) scM1 (Memref.isWhole_whole _) scM2 (Memref.isWhole_whole _) h1 h2 h3 h4
          (qB V c t) (kB V c t) ((dat1 V c).before 2 t d2 : Av F) Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, HS0, HS1, HS2⟩
        isplitl [HS0 HS1 HS2 Hr]
        · isplitl [HS0]; · iexact HS0
          isplitl [HS1]; · iexact HS1
          isplitl [HS2]; · iexact HS2
          iexact Hr
        isplitl [Ho]; · iexact Ho
        isplitl [H0]; · iexact H0
        isplitl [H1]; · iexact H1
        iexists d2; iexact H2
    · have hr2 : t.val % 4 = 2 := by omega
      have h2 : cBelow (grid1.coords t) := (hBelow t).mpr hr2
      have h3 : ¬cDiag (grid1.coords t) := fun h => by have := (hDiag t).mp h; omega
      have hz : t.val ≠ 0 := by omega
      rw [scrAt_r2 V c t hr2]
      dsimp only [stepF, reset]
      rw [PhiS1_castSucc V c t, PhiS1_pos V c _ _ hz]
      iintro ⟨⟨HS0, HS1, HS2, Hr⟩, Ho, ⟨%d0, H0⟩, ⟨%d1, H1⟩, ⟨%d2, H2⟩⟩
      iapply (run_C c (grid1.coords t) (ms1_0 t) (hs1_0 t) (ms1_1 t) (hs1_1 t) (ms1_2 t) (hs1_2 t)
        scM0 (Memref.isWhole_whole _) scM1 (Memref.isWhole_whole _) scM2 (Memref.isWhole_whole _) h1 h2 h3 h4
        (qB V c t) (kB V c t) ((dat1 V c).before 2 t d2 : Av F) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr]
      · isplitl [HS0]; · iexact HS0
        isplitl [HS1]; · iexact HS1
        isplitl [HS2]; · iexact HS2
        iexact Hr
      isplitl [Ho]; · iexact Ho
      isplitl [H0]; · iexact H0
      isplitl [H1]; · iexact H1
      iexists d2; iexact H2
  · have hlive : cfg1.idle 2 (grid1.coords t) = false :=
      Bool.eq_false_iff.mpr (fun h => hk ((idle_out t).mp h))
    rw [show (dat1 V c).leavesExact 2 t = owns (c : Thread nD τ) (ms1_2 t) fullShare ((dat1 V c).after 2 t) from by
      unfold Dat.leavesExact; rw [hlive], after1_2]
    have hz : t.val ≠ 0 := by omega
    rw [PhiS1_castSucc V c t, PhiS1_pos V c _ _ hz]
    have h1 : ¬cInit (grid1.coords t) := fun h => hk ((hInit t).mp h)
    have h2 : ¬cBelow (grid1.coords t) := fun h => by have := (hBelow t).mp h; omega
    have h4 : cLast (grid1.coords t) := (hLast t).mpr (by omega)
    by_cases hr : t.val % 4 = 1
    · have h3 : ¬cDiag (grid1.coords t) := fun h => by have := (hDiag t).mp h; omega
      rw [scrAt_r1 V c t hr]
      iintro ⟨⟨HS0, HS1, HS2, Hr⟩, Ho, ⟨%d0, H0⟩, ⟨%d1, H1⟩, ⟨%d2, H2⟩⟩
      iapply (run_B c (grid1.coords t) (ms1_0 t) (hs1_0 t) (ms1_1 t) (hs1_1 t) (ms1_2 t) (hs1_2 t)
        scM0 (Memref.isWhole_whole _) scM1 (Memref.isWhole_whole _) scM2 (Memref.isWhole_whole _) h1 h2 h3 h4
        (qB V c t) (kB V c t)
        (scrAt V c (t.val - 1) (Nat.lt_of_le_of_lt (Nat.sub_le _ _) t.isLt)).1
        (scrAt V c (t.val - 1) (Nat.lt_of_le_of_lt (Nat.sub_le _ _) t.isLt)).2.1
        (scrAt V c (t.val - 1) (Nat.lt_of_le_of_lt (Nat.sub_le _ _) t.isLt)).2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr]
      · isplitl [HS0]; · iexact HS0
        isplitl [HS1]; · iexact HS1
        isplitl [HS2]; · iexact HS2
        iexact Hr
      isplitl [Ho]; · iexact Ho
      isplitl [H0]; · iexact H0
      isplitl [H1]; · iexact H1
      iexact H2
    · have hr3 : t.val % 4 = 3 := by omega
      have h3 : cDiag (grid1.coords t) := (hDiag t).mpr (Or.inr hr3)
      rw [scrAt_r3 V c t hr3]
      dsimp only [stepD]
      iintro ⟨⟨HS0, HS1, HS2, Hr⟩, Ho, ⟨%d0, H0⟩, ⟨%d1, H1⟩, ⟨%d2, H2⟩⟩
      iapply (run_D c (grid1.coords t) (ms1_0 t) (hs1_0 t) (ms1_1 t) (hs1_1 t) (ms1_2 t) (hs1_2 t)
        scM0 (Memref.isWhole_whole _) scM1 (Memref.isWhole_whole _) scM2 (Memref.isWhole_whole _) h1 h2 h3 h4
        (qB V c t) (kB V c t)
        (scrAt V c (t.val - 1) (Nat.lt_of_le_of_lt (Nat.sub_le _ _) t.isLt)).1
        (scrAt V c (t.val - 1) (Nat.lt_of_le_of_lt (Nat.sub_le _ _) t.isLt)).2.1
        (scrAt V c (t.val - 1) (Nat.lt_of_le_of_lt (Nat.sub_le _ _) t.isLt)).2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr]
      · isplitl [HS0]; · iexact HS0
        isplitl [HS1]; · iexact HS1
        isplitl [HS2]; · iexact HS2
        iexact Hr
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdShared.lean ====
/-
  The attention region reads ONE array through two windows: the query rows' window and the key/value rows' window
  both lie on the projected array. At the region's entry that array's buffer, held whole, is dealt between the two
  windows, half of the share to each; the output array goes to the output window whole. At the exit the halves are put
  together again (an input array is never written, so both halves hold what they held), and the output array holds
  what the write-backs left.
-/
import proofs.«426603_j13365938225281_3_alg».proof.Proof.IdFlashDat
import Idealize.ShloMosaic.Lib.Pipeline.Launch
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The three windows and the two buffers behind them -/

/-- The buffers behind the three windows' arrays are two: the projected array's and the output array's. -/
theorem img1 : (Finset.univ : Finset (Fin 3)).image (Pipeline.arrRef spec1) = {main_v6, main_v7} := by decide

/-- The query rows' window holds the whole projected array at the left half of the share. -/
theorem arr1_0 (c : Dev nD) (X : Buf (Elt F) ((cfg1.win 0).arr.view.loc (c : Thread nD τ))) :
    ((cfg1.win 0).arr.view.loc (c : Thread nD τ) ↦[(cfg1.win 0).arr.view.set]{(dat1 V c).share 0} X : sProp 𝕄)
      = (((c : Thread nD τ).loc main_v6) ↦{fullShare.left} X) := by
  rw [(arr_whole1 0).set_eq_univ]; rfl
/-- The key/value rows' window holds it at the right half. -/
theorem arr1_1 (c : Dev nD) (X : Buf (Elt F) ((cfg1.win 1).arr.view.loc (c : Thread nD τ))) :
    ((cfg1.win 1).arr.view.loc (c : Thread nD τ) ↦[(cfg1.win 1).arr.view.set]{(dat1 V c).share 1} X : sProp 𝕄)
      = (((c : Thread nD τ).loc main_v6) ↦{fullShare.right} X) := by
  rw [(arr_whole1 1).set_eq_univ]; rfl
/-- The output window holds the whole output array at the full share. -/
theorem arr1_2 (c : Dev nD) (X : Buf (Elt F) ((cfg1.win 2).arr.view.loc (c : Thread nD τ))) :
    ((cfg1.win 2).arr.view.loc (c : Thread nD τ) ↦[(cfg1.win 2).arr.view.set]{(dat1 V c).share 2} X : sProp 𝕄)
      = (((c : Thread nD τ).loc main_v7) ↦{fullShare} X) := by
  rw [(arr_whole1 2).set_eq_univ]; rfl

/-- The distinct buffers behind the windows, each whole at the full share, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v6) ↦{fullShare} W main_v6) ∗ (((c : Thread nD τ).loc main_v7) ↦{fullShare} W main_v7)) := by
  unfold Pipeline.arrBufs
  rw [img1, bigSep_insert (by decide : main_v6 ∉ ({main_v7} : Finset (Ref sig .tc))), bigSep_singleton]
  rfl

/-- The three windows' arrays at any contents, one by one. -/
theorem arrays1_eq (c : Dev nD) (X : (w : Fin cfg1.W) → Buf (Elt F) ((cfg1.win w).arr.view.loc (c : Thread nD τ))) :
    ((dat1 V c).arrays X : sProp 𝕄)
      = iprop((((c : Thread nD τ).loc main_v6) ↦{fullShare.left} X 0) ∗ (((c : Thread nD τ).loc main_v6) ↦{fullShare.right} X 1)
          ∗ (((c : Thread nD τ).loc main_v7) ↦{fullShare} X 2)) := by
  unfold Dat.arrays
  rw [bigSep_W1, arr1_0, arr1_1, arr1_2]

/-! ## Entry and exit -/

/-- ENTRY: a core's unscoped buffers at `V` are the attention region's three windows' arrays at the proof data's entry
    contents — the projected array at half the share twice, the output array whole — and the unscoped rest. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [show (unscopedBufs c (V c) : sProp 𝕄) = _ from Pipeline.unscopedBufs_split₀ cfgs 1 winFacts₀1.arr_unscoped c (V c)]
  refine sep_mono ?_ .rfl
  -- at the entry each window's array holds what the buffer behind it holds
  have e0 : (dat1 V c).arrAt 0 0 = V c main_v6 := rfl
  have e1 : (dat1 V c).arrAt 1 0 = V c main_v6 := rfl
  have e2 : (dat1 V c).arrAt 2 0 = V c main_v7 := rfl
  rw [show (Pipeline.arrBufs (cfgs 1).spec c (V c) : sProp 𝕄) = _ from arrBufs1_eq c (V c), arrays1_eq, e0, e1, e2]
  iintro ⟨H6, H7⟩
  -- the projected array's full share is its left half and its right half
  ihave H6 := (pointsTo_share (PosShare.mem_left_op_right fullShare)).1 $$ H6
  icases H6 with ⟨Ha, Hb⟩
  isplitl [Ha]; · iexact Ha
  isplitl [Hb]; · iexact Hb
  iexact H7

/-- EXIT: the three windows' arrays at what the region leaves and the unscoped rest are the core's unscoped buffers at
    `V'`, which is `V` but for the output array, at what the write-backs left. -/
theorem exit1 (c : Dev nD) (V' : (b : Ref sig .tc) → Buf (Elt F) ((c : Thread nD τ).loc b))
    (hout : V' main_v7 = (dat1 V c).arrAt 2 cfg1.N) (hrest : ∀ b : Ref sig .tc, b ≠ main_v7 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [show (unscopedBufs c V' : sProp 𝕄) = _ from Pipeline.unscopedBufs_split₀ cfgs 1 winFacts₀1.arr_unscoped c V']
  refine sep_mono ?_ (Entails.of_eq ?_)
  · -- an input array is never written: both halves of the projected array hold what `V`, hence `V'`, has there
    have e0 : (dat1 V c).arrAt 0 cfg1.N = V' main_v6 := by
      rw [(dat1 V c).arrAt_in 0 rfl cfg1.N, hrest main_v6 (by decide)]; rfl
    have e1 : (dat1 V c).arrAt 1 cfg1.N = V' main_v6 := by
      rw [(dat1 V c).arrAt_in 1 rfl cfg1.N, hrest main_v6 (by decide)]; rfl
    rw [show (Pipeline.arrBufs (cfgs 1).spec c V' : sProp 𝕄) = _ from arrBufs1_eq c V', arrays1_eq, e0, e1, ← hout]
    iintro ⟨Ha, Hb, H7⟩
    -- the two halves make the full share again
    ihave H6 := (pointsTo_share (PosShare.mem_left_op_right fullShare)).2 $$ [Ha Hb]
    · isplitl [Ha]; · iexact Ha
      iexact Hb
    isplitl [H6]; · iexact H6
    iexact H7
  · -- a buffer behind no window is not the output array, so `V'` has there what `V` has
    unfold Pipeline.unscopedRest
    refine bigSep_congr fun b hb => ?_
    have hb7 : b ≠ main_v7 := fun h => (Finset.mem_sdiff.mp hb).2
      (h ▸ (by decide : main_v7 ∈ (Finset.univ : Finset (Fin 3)).image (Pipeline.arrRef spec1)))
    rw [hrest b hb7]

end Cert.KernelIdeal.Hand

end
-- ==== Proof.IdRun.lean ====
/-
  The whole program as five steps — the host operations that reshape the input and build the padded weight matrix,
  the projection region, the reshape of its result, the attention region — each entered from the buffer contents the
  one before left. `W0` … `W5` name those contents; the projection region changes only its output array, the attention
  region only its output array, a host operation only its result. The run ends with every unscoped buffer at `W5`:
  the arguments as launched, the result at what the attention region's write-backs left.
-/
import proofs.«426603_j13365938225281_3_alg».proof.Proof.IdRegion0
import proofs.«426603_j13365938225281_3_alg».proof.Proof.IdFlashDat
import proofs.«426603_j13365938225281_3_alg».proof.Proof.IdShared
import proofs.«426603_j13365938225281_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each step's boundary -/

/-- At launch. -/
abbrev W0 : Dev nD → Valuation τ sig (Elt F) := fun c b => (s₀ m ρ).mem ((c : Dev nD), b)
/-- After the first host operations (the reshape of the input, the scaled and concatenated weights). -/
abbrev W1 : Dev nD → Valuation τ sig (Elt F) := fun c => StableHlo.after hostOps0 (W0 m ρ c)
/-- After the padding of the weights: the projection region's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- At the projection region's exit: its arrays at what the pipeline leaves, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)
/-- After the reshape of the projected array: the attention region's entry. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b
/-- At the attention region's exit: the result array at what the write-backs leave, every other buffer as entered. -/
def W5 (c : Dev nD) : Valuation τ sig (Elt F) :=
  Function.update (W4 m ρ c) (Proc.devRef .tc main_v7) ((dat1 (V4 m ρ) c).arrAt 2 cfg1.N)
abbrev V5 : (c : Dev nD) → (b : Ref sig .tc) → Buf (Elt F) ((c : Thread nD τ).loc b) := fun c b => W5 m ρ c b

theorem W5_result (c : Dev nD) : W5 m ρ c (Proc.devRef .tc main_v7) = (dat1 (V4 m ρ) c).arrAt 2 cfg1.N := by
  unfold W5; exact Function.update_self _ _ _
theorem V5_rest (c : Dev nD) (b : Ref sig .tc) (hb : b ≠ main_v7) : V5 m ρ c b = V4 m ρ c b := by
  show W5 m ρ c (Proc.devRef .tc b) = _
  unfold W5; exact Function.update_of_ne (StableHlo.devRef_ne_of_ne hb) _ _

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by
          unfold W5; exact Function.update_of_ne (StableHlo.devRef_ne_of_ne (by decide)) _ _
    _ = W3 m ρ c (Proc.devRef .tc main_arg0) := StableHlo.after_of_writes_sub hostOps1 _ hostOps1_writes (by decide)
    _ = W2 m ρ c (Proc.devRef .tc main_arg0) := W3_of_ne m ρ c main_arg0 (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by
          unfold W5; exact Function.update_of_ne (StableHlo.devRef_ne_of_ne (by decide)) _ _
    _ = W3 m ρ c (Proc.devRef .tc main_arg1) := StableHlo.after_of_writes_sub hostOps1 _ hostOps1_writes (by decide)
    _ = W2 m ρ c (Proc.devRef .tc main_arg1) := W3_of_ne m ρ c main_arg1 (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by
          unfold W5; exact Function.update_of_ne (StableHlo.devRef_ne_of_ne (by decide)) _ _
    _ = W3 m ρ c (Proc.devRef .tc main_arg2) := StableHlo.after_of_writes_sub hostOps1 _ hostOps1_writes (by decide)
    _ = W2 m ρ c (Proc.devRef .tc main_arg2) := W3_of_ne m ρ c main_arg2 (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by
          unfold W5; exact Function.update_of_ne (StableHlo.devRef_ne_of_ne (by decide)) _ _
    _ = W3 m ρ c (Proc.devRef .tc main_arg3) := StableHlo.after_of_writes_sub hostOps1 _ hostOps1_writes (by decide)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-- After any point the attention region's invariant gives back what the launch handed it: the scratch buffers'
    named contents are forgotten. -/
theorem Phi1_out (c : Dev nD) : (pdats m ρ 1 c).Φ (Fin.last cfg1.N) ⊢ Pipeline.ΦA spec1 c := by
  rw [show (pdats m ρ 1 c).Φ (Fin.last cfg1.N) = PhiS1 (V4 m ρ) c (15 + 1) (by decide) from rfl, PhiA1_eq]
  unfold PhiS1
  iintro ⟨H0, H1, H2, Hr⟩
  isplitl [H0]; · iexists _; iexact H0
  isplitl [H1]; · iexists _; iexact H1
  isplitl [H2]; · iexists _; iexact H2
  iexact Hr

/-! ## The regions as steps -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := entry1 (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_out m ρ c).trans ?_
    unfold Pipeline.ΦA
    iintro ⟨Hr, Hp⟩
    isplitl [Hp]; · iexact Hp
    isplitr; · iempintro
    iexact Hr
  hexit c := by
    have hjoin := exit1 (V4 m ρ) c (V5 m ρ c) (W5_result m ρ c) (fun b hb => V5_rest m ρ c b hb)
    rw [Pipeline.unscopedBufs_held] at hjoin
    iintro ⟨Ha, HO, HY, Hrest⟩
    imodintro
    isplitl [Ha Hrest HY]
    · isplitl [Ha Hrest]
      · iapply hjoin
        isplitl [Ha]
        · iexact Ha
        iexact Hrest
      iexact HY
    unfold Pipeline.Dat.owesAt Pipeline.owesWithin
    icases HO with ⟨%W, -, HO⟩; iexists W; iexact HO

/-! ## The program as its steps, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ) ]
theorem main_run (c : Dev nD) : main (F := F) c = Pipeline.Seg.run (segs m ρ) := (main_chain c).trans (by chain_rfl)

set_option backward.isDefEq.respectTransparency.types false in
/-- Every weakly fair execution from memory `m` with zero counters terminates, nothing faulting, and in every final
    state each unscoped buffer holds `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.IdealWords.lean ====
/-
  Five words read as extended reals: the scale 2⁻⁵ by which the queries' weights (and the reference's scores) are
  multiplied; −∞, the running maximum's start and the reference's mask fill; +∞, which the precondition compares
  absolute values against; the float zero; and the integer zero the weight matrix is padded with, converted to a float.
-/
import Idealize.ShloMosaic.PureOps.Ideal
import Idealize.ShloMosaic.PureOps.Ideal.Laws

noncomputable section

namespace Cert.Attn

open Idealize.ShloMosaic

/-- The word 0x3D000000 is 1/32. -/
theorem scale_word : Ideal.ofBits .f32 0x3D000000#32 = ((1 / 32 : ℝ) : EReal) := by
  simp [Ideal.ofBits, Ideal.ieee, -EReal.coe_mul]; norm_num

/-- The word 0xFF800000 is −∞. -/
theorem neg_inf_word : Ideal.ofBits .f32 0xFF800000#32 = (⊥ : EReal) := by
  simp [Ideal.ofBits, Ideal.ieee]

/-- The word 0x7F800000 is +∞. -/
theorem pos_inf_word : Ideal.ofBits .f32 0x7F800000#32 = (⊤ : EReal) := by
  simp [Ideal.ofBits, Ideal.ieee]

/-- The word 0x00000000 is 0. -/
theorem zero_word : Ideal.ofBits .f32 0x00000000#32 = (0 : EReal) := Ideal.ofBits_zero_f32

/-- The integer 0 converted to a float is 0. -/
theorem pad_word : (FloatOps.sitofp (F := Ideal) .f32 (0#32 : BitVec 32) : EReal) = 0 := by
  show (((0#32 : BitVec 32).toInt : ℝ) : EReal) = 0
  simp

end Cert.Attn

end
-- ==== Proof.IdProjIdx.lean ====
/-
  The projection body's product read at an index: the rows' block times the weight matrix, entry (r, j), is the sum
  over the 1024 embedding columns of x0 r k · x1 k j (the changes of float format are the identity on the extended reals,
  and the product accumulates into zero).
-/
import proofs.«426603_j13365938225281_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL.Sem
open Cert.KernelIdeal Cert.KernelIdeal.Gen
open ValueIdx

/-- The product's operand indices, axis by axis: the left operand is read at (row of the result, contraction index),
    the right at (contraction index, column of the result). -/
theorem lhs_proj_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs_proj_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs_proj_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs_proj_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

theorem k0_pay1_apply (x0 : Vec Ideal S2048x1024 .f32) (x1 : Vec Ideal S1024x256 .f32) (r : Fin 2048) (j : Fin 256) :
    k0_pay1 x0 x1 (ix2 r j) = ∑ k : Fin 1024, x0 (ix2 r k) * x1 (ix2 k j) := by
  have e0 : shapeCast S2048x1024 x0 shapeCasts_S2048x1024_S2048x1024 = x0 := shapeCast_self x0 _
  have e1 : shapeCast S1024x256 x1 shapeCasts_S1024x256_S1024x256 = x1 := shapeCast_self x1 _
  unfold k0_pay1
  rw [e0, e1]
  refine (truncf_apply (ψ := .bf16) _ bitsLt_bf16_f32 (ix2 r j)).trans ?_
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 r j) ((contrEquiv1 dot_S2048x1024_S1024x256_S2048x256_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S2048x1024_S1024x256_S2048x256_1_0_0_1_n_n.rhsIdx (ix2 r j) ((contrEquiv1 dot_S2048x1024_S1024x256_S2048x256_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er]
  rfl

end Cert.KernelIdeal.Hand

end
-- ==== Proof.IdValue0.lean ====
/-
  The projected array the attention region is entered with, read at an index, as a function of the program's arguments.
  The host reshapes x [4, 2048, 1024] to 8192 rows, multiplies Wq by the scale 2⁻⁵, lays Wq·2⁻⁵, Wk, Wv side by side
  and pads the 192 columns to 256 with zeros; the projection region multiplies the rows, 2048 at a time, by that
  matrix (each of its four output blocks is written back once and they tile the array); the host reshapes the 8192
  rows back to [4, 2048]. So the entry at (b, t, j) is Σ_c x b t c · W c j with W the padded matrix.
-/
import proofs.«426603_j13365938225281_3_alg».proof.Proof.IdRun
import proofs.«426603_j13365938225281_3_alg».proof.Proof.IdealWords
import proofs.«426603_j13365938225281_3_alg».proof.Proof.IdProjIdx
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost
import Idealize.ShloMosaic.Lib.IdealHost
import Idealize.ShloMosaic.PureOps.Ideal.Laws

set_option maxRecDepth 16384

noncomputable section

namespace Cert.KernelIdeal.Hand

open Idealize.ShloMosaic Idealize.ShloMosaic.TcCoe
open Idealize.SL.Sem
open Cert.KernelIdeal Cert.KernelIdeal.Gen
open ValueIdx Cert.Attn

variable (m : (ℓ : Loc nD τ sig) → Buf (Elt Ideal) ℓ) (ρ : Dev nD → PrngReg)

/-- The arguments as functions of their indices. -/
abbrev xA (c : Dev nD) : S4x2048x1024.Idx → EReal := m ((c : Thread nD τ).loc main_arg0)
abbrev wkA (c : Dev nD) : S1024x64.Idx → EReal := m ((c : Thread nD τ).loc main_arg1)
abbrev wqA (c : Dev nD) : S1024x64.Idx → EReal := m ((c : Thread nD τ).loc main_arg2)
abbrev wvA (c : Dev nD) : S1024x64.Idx → EReal := m ((c : Thread nD τ).loc main_arg3)

/-- The padded weight matrix: scaled queries' weights, keys' weights, values' weights, zeros. -/
def wcat (c : Dev nD) (k : Fin 1024) (j : Fin 256) : EReal :=
  if h : j.val < 64 then wqA m c (ix2 k (⟨j.val, h⟩ : Fin 64)) * Ideal.ofBits .f32 0x3D000000#32
  else if h2 : j.val < 128 then wkA m c (ix2 k (⟨j.val - 64, by omega⟩ : Fin 64))
  else if h3 : j.val < 192 then wvA m c (ix2 k (⟨j.val - 128, by omega⟩ : Fin 64))
  else 0

/-- The reshaped input and the padded weight matrix as the projection region finds them, the region's result array,
    and the array the attention region is entered with, each as a function of its index. -/
abbrev x2dA (c : Dev nD) : S8192x1024.Idx → EReal := V2 m ρ c main_v0
abbrev wpadA (c : Dev nD) : S1024x256.Idx → EReal := V2 m ρ c main_v4
abbrev projA (c : Dev nD) : S8192x256.Idx → EReal := (dat0 (V2 m ρ) c).arrAt 2 cfg0.N
abbrev qkvIn (c : Dev nD) : S4x2048x256.Idx → EReal := V4 m ρ c main_v6

theorem x2d_apply (c : Dev nD) (b : Fin 4) (t : Fin 2048) (k : Fin 1024) :
    x2dA m ρ c (ix2 (⟨2048 * b.val + t.val, by omega⟩ : Fin 8192) k) = xA m c (ix3 b t k) := by
  -- the reshaped input is the input read at the same row-major position
  have e : (x2dA m ρ c) = (fun i => shapeCast S8192x1024 (xA m c) shapeCasts_S4x2048x1024_S8192x1024 i) := by
    show StableHlo.after hostOps0_1 (StableHlo.after hostOps0 (W0 m ρ c)) (Proc.devRef .tc main_v0) = _
    dsimp only [hostOps0, hostOps0_1]
    after_results
    rfl
  rw [e]
  exact shapeCast_apply (xA m c) shapeCasts_S4x2048x1024_S8192x1024 _ (ix3 b t k) (by
    rw [Shape.rowMajor_val_two, Shape.rowMajor_val_three]
    show (b.val * 2048 + t.val) * 1024 + k.val = (2048 * b.val + t.val) * 1024 + k.val
    omega)

/-- The padded weight matrix as the host operations' composed term. -/
theorem wpad_term (c : Dev nD) : (wpadA m ρ c) =
    pad S1024x256 ![0, 0] ![0, 64] ![0, 0]
      (concatenate S1024x192 1
        [⟨S1024x64, mulf (wqA m c) (broadcastInDim S1024x64 ![] bcast_S_S1024x64 (constant (F := Ideal) S_ .f32 0x3D000000#32))⟩,
         ⟨S1024x64, wkA m c⟩, ⟨S1024x64, wvA m c⟩]
        concatenates_S1024x64_S1024x64_S1024x64_S1024x192_d1)
      (sitofp (F := Ideal) .f32 (constantI S_ 32 0#32)) pads_S1024x192_S1024x256_000_0640 h_S_ := by
  show StableHlo.after hostOps0_1 (StableHlo.after hostOps0 (W0 m ρ c)) (Proc.devRef .tc main_v4) = _
  dsimp only [hostOps0, hostOps0_1]
  after_results
  rfl

/-- The three matrices laid side by side, read at a column of the piece it falls in. -/
theorem cat_apply (A B C : S1024x64.Idx → EReal) (k : Fin 1024) (j : Fin 192) :
    concatenate S1024x192 1 [⟨S1024x64, A⟩, ⟨S1024x64, B⟩, ⟨S1024x64, C⟩]
        concatenates_S1024x64_S1024x64_S1024x64_S1024x192_d1 (ix2 k j)
      = if h : j.val < 64 then A (ix2 k (⟨j.val, h⟩ : Fin 64))
        else if h2 : j.val < 128 then B (ix2 k (⟨j.val - 64, by omega⟩ : Fin 64))
        else C (ix2 k (⟨j.val - 128, by omega⟩ : Fin 64)) := by
  by_cases h : j.val < 64
  · rw [dif_pos h]
    exact concatenate_apply_piece (t := S1024x192) (1 : Fin 2) ([⟨S1024x64, A⟩, ⟨S1024x64, B⟩, ⟨S1024x64, C⟩] : List ((s : Shape) × (s.Idx → EReal)))
      concatenates_S1024x64_S1024x64_S1024x64_S1024x192_d1 (ix2 k j)
      0 (by show 0 < 3; omega) S1024x64 A rfl rfl 0 rfl (ix2 k (⟨j.val, h⟩ : Fin 64))
      (fun b hb => by
        match b, hb with
        | ⟨0, _⟩, _ => rfl
        | ⟨1, _⟩, hb => exact absurd (Fin.ext rfl) hb)
      (by show 0 + j.val = j.val; omega)
  · rw [dif_neg h]
    by_cases h2 : j.val < 128
    · rw [dif_pos h2]
      exact concatenate_apply_piece (t := S1024x192) (1 : Fin 2) ([⟨S1024x64, A⟩, ⟨S1024x64, B⟩, ⟨S1024x64, C⟩] : List ((s : Shape) × (s.Idx → EReal)))
        concatenates_S1024x64_S1024x64_S1024x64_S1024x192_d1 (ix2 k j)
        1 (by show 1 < 3; omega) S1024x64 B rfl rfl 64 rfl (ix2 k (⟨j.val - 64, by omega⟩ : Fin 64))
        (fun b hb => by
          match b, hb with
          | ⟨0, _⟩, _ => rfl
          | ⟨1, _⟩, hb => exact absurd (Fin.ext rfl) hb)
        (by show 64 + (j.val - 64) = j.val; omega)
    · rw [dif_neg h2]
      exact concatenate_apply_piece (t := S1024x192) (1 : Fin 2) ([⟨S1024x64, A⟩, ⟨S1024x64, B⟩, ⟨S1024x64, C⟩] : List ((s : Shape) × (s.Idx → EReal)))
        concatenates_S1024x64_S1024x64_S1024x64_S1024x192_d1 (ix2 k j)
        2 (by show 2 < 3; omega) S1024x64 C rfl rfl 128 rfl (ix2 k (⟨j.val - 128, by omega⟩ : Fin 64))
        (fun b hb => by
          match b, hb with
          | ⟨0, _⟩, _ => rfl
          | ⟨1, _⟩, hb => exact absurd (Fin.ext rfl) hb)
        (by have := j.isLt; show 128 + (j.val - 128) = j.val; omega)

/-- The padded matrix at a column: the scaled queries' weights, the keys' weights, the values' weights, or a zero of the
    padding. -/
theorem wcat_apply (c : Dev nD) (k : Fin 1024) (j : Fin 256) :
    wpadA m ρ c (ix2 k j) = wcat m c k j := by
  rw [wpad_term]
  unfold wcat
  by_cases h192 : j.val < 192
  · refine (pad_apply_of_inside (s := S1024x192) (t := S1024x256) (![0, 0] : Fin 2 → Nat) ![0, 64] ![0, 0] _ _ pads_S1024x192_S1024x256_000_0640 h_S_
      (ix2 k j) (ix2 k (⟨j.val, h192⟩ : Fin 192)) (fun a => by
        match a with
        | ⟨0, _⟩ => show k.val = 0 + k.val * (0 + 1); omega
        | ⟨1, _⟩ => show j.val = 0 + j.val * (0 + 1); omega)).trans ?_
    rw [cat_apply]
    by_cases h : j.val < 64
    · rw [dif_pos h, dif_pos h, mulf_apply, broadcastInDim_scalar_apply, constant_apply]
    · rw [dif_neg h, dif_neg h]
      by_cases h2 : j.val < 128
      · rw [dif_pos h2, dif_pos h2]
      · rw [dif_neg h2, dif_neg h2, dif_pos h192]
  · rw [dif_neg (by omega), dif_neg (by omega), dif_neg h192]
    refine (pad_apply_of_not_inside (s := S1024x192) (t := S1024x256) (![0, 0] : Fin 2 → Nat) ![0, 64] ![0, 0] _ _ pads_S1024x192_S1024x256_000_0640 h_S_
      (ix2 k j) (1 : Fin 2) (fun hin => by
        have h3 := hin.2.2
        change (j.val - 0) / (0 + 1) < 192 at h3
        omega)).trans ?_
    exact pad_word

/-- The product of the reshaped input by the padded weight matrix, entry by entry. -/
def projG (c : Dev nD) : S8192x256.Idx → EReal :=
  fun i => ∑ k : Fin 1024, x2dA m ρ c (ix2 (i 0) k) * wpadA m ρ c (ix2 k (i 1))

theorem zero_offsets : (![0, 0] : Fin 2 → Nat) = fun _ => 0 := funext fun a => by fin_cases a <;> rfl

/-- The printed index maps over the grid: point t takes block row t of the input and of the result, and the whole
    weight matrix. -/
theorem proj_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 4 :=
  (by decide +kernel : ∀ t : Fin grid0.N, _)

/-- The rows' block at point t is rows 2048·t … 2048·t + 2047 of the reshaped input. -/
theorem xblk_apply (c : Dev nD) (t : Fin cfg0.N) (r : Fin 2048) (k : Fin 1024) (R : Fin 8192) (hR : R.val = 2048 * t.val + r.val) :
    (iblk0 (V2 m ρ) c 0 t : Vec Ideal S2048x1024 .f32) (ix2 r k) = x2dA m ρ c (ix2 R k) := by
  obtain ⟨e0, e1, -⟩ := proj_index_maps t
  unfold iblk0
  rw [View.read_apply]
  show V2 m ρ c main_v0 _ = V2 m ρ c main_v0 _
  congr 1
  funext a
  apply Fin.ext
  match a with
  | ⟨0, _⟩ => show win0_0.index t (0 : Fin 2) * 2048 + 1 * r.val = R.val; rw [e0, hR]; omega
  | ⟨1, _⟩ => show win0_0.index t (1 : Fin 2) * 1024 + 1 * k.val = k.val; rw [e1]; omega

/-- The weights' block at every point is the whole padded matrix. -/
theorem wblk_apply (c : Dev nD) (t : Fin cfg0.N) (k : Fin 1024) (j : Fin 256) :
    (iblk0 (V2 m ρ) c 1 t : Vec Ideal S1024x256 .f32) (ix2 k j) = wpadA m ρ c (ix2 k j) := by
  obtain ⟨-, -, e0, e1, -⟩ := proj_index_maps t
  unfold iblk0
  rw [View.read_apply]
  show V2 m ρ c main_v4 _ = V2 m ρ c main_v4 _
  congr 1
  funext a
  apply Fin.ext
  match a with
  | ⟨0, _⟩ => show win0_1.index t (0 : Fin 2) * 1024 + 1 * k.val = k.val; rw [e0]; omega
  | ⟨1, _⟩ => show win0_1.index t (1 : Fin 2) * 256 + 1 * j.val = j.val; rw [e1]; omega

/-- What the body leaves at point t, entry by entry: the product's rows 2048·t … . -/
theorem proj_block_apply (c : Dev nD) (t : Fin cfg0.N) (r : Fin 2048) (j : Fin 256) (R : Fin 8192) (hR : R.val = 2048 * t.val + r.val) :
    k0_pay1 (iblk0 (V2 m ρ) c 0 t : Vec Ideal S2048x1024 .f32) (iblk0 (V2 m ρ) c 1 t : Vec Ideal S1024x256 .f32) (ix2 r j)
      = projG m ρ c (ix2 R j) := by
  refine (k0_pay1_apply (iblk0 (V2 m ρ) c 0 t : Vec Ideal S2048x1024 .f32) (iblk0 (V2 m ρ) c 1 t : Vec Ideal S1024x256 .f32) r j).trans ?_
  unfold projG
  refine Finset.sum_congr rfl fun k _ => ?_
  rw [xblk_apply m ρ c t r k R hR, wblk_apply m ρ c t k j]

/-- What point t writes back is block t of the product. -/
theorem proj_flushed (c : Dev nD) (t : Fin cfg0.N) :
    (dat0 (V2 m ρ) c).flushed 2 t = ((cfg0.win 2).blk t).view.read (Elt Ideal) (projG m ρ c) := by
  show (cfg0.win 2).cut (grid0.coords t) ((dat0 (V2 m ρ) c).after 2 t) = _
  rw [after0_2]
  unfold projOut
  rw [View.canon_unit_zero zero_offsets]
  simp only [View.ld_unit_zero (S := S2048x1024) zero_offsets, View.ld_unit_zero (S := S1024x256) zero_offsets]
  obtain ⟨-, -, -, -, e0, e1, ht⟩ := proj_index_maps t
  funext y
  have h0 : (y 0).val < 2048 := (y 0).isLt
  have h1 : (y 1).val < 256 := (y 1).isLt
  rw [View.read_apply]
  refine (proj_block_apply m ρ c t ⟨(y 0).val, h0⟩ ⟨(y 1).val, h1⟩ ⟨2048 * t.val + (y 0).val, by omega⟩ rfl).trans ?_
  show projG m ρ c _ = projG m ρ c _
  congr 1
  funext a
  apply Fin.ext
  match a with
  | ⟨0, _⟩ => show 2048 * t.val + (y 0).val = win0_2.index t (0 : Fin 2) * 2048 + 1 * (y 0).val; rw [e0]; omega
  | ⟨1, _⟩ => show (y 1).val = win0_2.index t (1 : Fin 2) * 256 + 1 * (y 1).val; rw [e1]; omega

/-- An index of the result array is in point t's block iff its row is among rows 2048·t … 2048·t + 2047. -/
theorem mem_proj_blk (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v5).slice (win0_2.rect t)).set ↔ _
  rw [View.set_slice_whole, Rect.mem_set_unit]
  exact Iff.rfl

/-- The four blocks tile the result array: the block of row R is that of point R / 2048. -/
theorem proj_cover (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 4 := N_0
  refine ⟨⟨(i 0).val / 2048, by rw [hN]; omega⟩, flush0_2 _, ?_⟩
  obtain ⟨-, -, -, -, e0, e1, -⟩ := proj_index_maps ⟨(i 0).val / 2048, by rw [hN]; omega⟩
  rw [mem_proj_blk]
  intro a
  match a with
  | ⟨0, _⟩ =>
    show win0_2.index _ (0 : Fin 2) * 2048 ≤ (i 0).val ∧ (i 0).val < win0_2.index _ (0 : Fin 2) * 2048 + 2048
    rw [e0]; show (i 0).val / 2048 * 2048 ≤ (i 0).val ∧ (i 0).val < (i 0).val / 2048 * 2048 + 2048; omega
  | ⟨1, _⟩ =>
    show win0_2.index _ (1 : Fin 2) * 256 ≤ (i 1).val ∧ (i 1).val < win0_2.index _ (1 : Fin 2) * 256 + 256
    rw [e1]; omega

/-- The projection region's result array is the product. -/
theorem proj_final (c : Dev nD) : projA m ρ c = projG m ρ c :=
  (dat0 (V2 m ρ) c).arrAt_eq_of_cover 2 (projG m ρ c) (fun t _ => proj_flushed m ρ c t) proj_cover

/-- The projection region's result array: each entry a row of its first operand against a column of its second. -/
theorem proj_apply (c : Dev nD) (R : Fin 8192) (j : Fin 256) :
    projA m ρ c (ix2 R j) = ∑ k : Fin 1024, x2dA m ρ c (ix2 R k) * wpadA m ρ c (ix2 k j) := by
  rw [proj_final]; rfl

/-- The array the attention region is entered with. -/
theorem qkv_apply (c : Dev nD) (b : Fin 4) (t : Fin 2048) (j : Fin 256) :
    qkvIn m ρ c (ix3 b t j) = ∑ k : Fin 1024, xA m c (ix3 b t k) * wcat m c k j := by
  -- the host reshapes the region's result array: the same row-major position
  have e : qkvIn m ρ c = (fun i => shapeCast S4x2048x256 (projA m ρ c) shapeCasts_S8192x256_S4x2048x256 i) := by
    show StableHlo.after hostOps1 (W3 m ρ c) (Proc.devRef .tc main_v6) = _
    dsimp only [hostOps1]
    after_results
    rw [show W3 m ρ c (Proc.devRef .tc main_v5) = (dat0 (V2 m ρ) c).arrAt 2 cfg0.N from W3_arr m ρ c 2]
    rfl
  rw [e]
  refine (shapeCast_apply (projA m ρ c) shapeCasts_S8192x256_S4x2048x256 (ix3 b t j)
    (ix2 (⟨2048 * b.val + t.val, by omega⟩ : Fin 8192) j) (by
      rw [Shape.rowMajor_val_two, Shape.rowMajor_val_three]
      show (2048 * b.val + t.val) * 256 + j.val = (b.val * 2048 + t.val) * 256 + j.val
      omega)).trans ?_
  rw [proj_apply]
  refine Finset.sum_congr rfl fun k _ => ?_
  rw [x2d_apply, wcat_apply]

end Cert.KernelIdeal.Hand

end
-- ==== Proof.LibOnlineSoftmax.lean ====
/-
  Causal softmax attention on one query row, two ways, over the extended reals.

  ONLINE (the tiled kernel's way): keys arrive a tile at a time. A running maximum m, a running denominator l and a
  running numerator a (one entry per head column) are kept; a tile with scores s and values v replaces them by
      m' = max m (max_u s u),   l' = e^(m − m')·l + Σ_u e^(s u − m'),   a' h = e^(m − m')·a h + Σ_u e^(s u − m')·v u h,
  starting from m = −∞, l = 0, a = 0, and the row's result is a h / l. A masked key has score −∞, so e^(−∞ − m') = 0.

  DIRECT (the reference's way): with W the masked scores of all keys, M any REAL number (the reference takes the
  row's maximum; only its being real matters, since a common shift cancels), P u = e^(W u − M), Z = Σ_u P u, the
  result is Σ_u (P u / Z)·v u h.

  When every score and value is a real number and each row keeps at least one key, both are the coercion of
      (Σ_{kept u} e^(w u)·v u h) / (Σ_{kept u} e^(w u)),
  because e^(x − μ) = e^x·e^(−μ) and the common factor cancels; the denominator is positive since a key is kept.
-/
import Idealize.ShloMosaic.PureOps.Ideal
import Mathlib.Analysis.SpecialFunctions.Exp
import Mathlib.Algebra.BigOperators.Field
import Mathlib.Data.EReal.Basic

noncomputable section

namespace Cert.Attn

open Idealize.ShloMosaic

/-! ## The online step on one row, on the extended reals -/

/-- The row maximum of a tile's scores, as the fold of `max` from −∞. -/
def rowMax {n : ℕ} (s : Fin n → EReal) : EReal := (Finset.univ : Finset (Fin n)).fold max ⊥ s

def mNew {n : ℕ} (s : Fin n → EReal) (m : EReal) : EReal := max m (rowMax s)
/-- The factor e^(m − m') that rescales what was accumulated before. -/
def alpha {n : ℕ} (s : Fin n → EReal) (m : EReal) : EReal := Ideal.exp (m - mNew s m)
/-- A key's weight e^(s u − m'). -/
def pw {n : ℕ} (s : Fin n → EReal) (m : EReal) (u : Fin n) : EReal := Ideal.exp (s u - mNew s m)
def lNew {n : ℕ} (s : Fin n → EReal) (m l : EReal) : EReal := alpha s m * l + ∑ u, pw s m u
def aNew {n dh : ℕ} (s : Fin n → EReal) (v : Fin n → Fin dh → EReal) (m : EReal) (a : Fin dh → EReal) (h : Fin dh) : EReal :=
  alpha s m * a h + ∑ u, pw s m u * v u h

/-- A row of masked scores: the real score where the key is kept, −∞ where it is masked. -/
def masked {n : ℕ} (keep : Fin n → Bool) (w : Fin n → ℝ) (u : Fin n) : EReal := if keep u then (w u : EReal) else ⊥

/-- The real value both ways compute: the kept keys' e^w-weighted mean of the values. -/
def attnRow {n dh : ℕ} (keep : Fin n → Bool) (w : Fin n → ℝ) (v : Fin n → Fin dh → ℝ) (h : Fin dh) : ℝ :=
  (∑ u, (if keep u then Real.exp (w u) * v u h else 0)) / (∑ u, (if keep u then Real.exp (w u) else 0))

/-! ## Finite sums of reals, and the row maximum, inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A masked score is never +∞. -/
theorem masked_lt_top {n : ℕ} (keep : Fin n → Bool) (w : Fin n → ℝ) (u : Fin n) : masked keep w u < ⊤ := by
  unfold masked
  split_ifs
  · exact EReal.coe_lt_top _
  · exact bot_lt_top

/-- A kept key's masked score is its real score. -/
theorem masked_kept {n : ℕ} (keep : Fin n → Bool) (w : Fin n → ℝ) (u : Fin n) (hu : keep u = true) :
    masked keep w u = (w u : EReal) := by
  unfold masked
  rw [if_pos hu]

/-- The row maximum of masked real scores with a kept key is a real number. -/
theorem rowMax_masked_real {n : ℕ} (keep : Fin n → Bool) (w : Fin n → ℝ) (hk : ∃ u, keep u = true) :
    ∃ μ : ℝ, rowMax (masked keep w) = (μ : EReal) := by
  obtain ⟨u, hu⟩ := hk
  -- below +∞: the start and every term are; above −∞: the kept key's score is
  have htop : rowMax (masked keep w) ≠ ⊤ :=
    ne_of_lt ((Finset.fold_max_lt _).2 ⟨bot_lt_top, fun x _ => masked_lt_top keep w x⟩)
  have hbot : rowMax (masked keep w) ≠ ⊥ :=
    ne_of_gt ((Finset.lt_fold_max _).2 (Or.inr ⟨u, Finset.mem_univ u, by
      rw [masked_kept keep w u hu]; exact EReal.bot_lt_coe _⟩))
  exact ⟨(rowMax (masked keep w)).toReal, (EReal.coe_toReal htop hbot).symm⟩

/-- So is the maximum of it with a real number or with −∞. -/
theorem mNew_masked_real {n : ℕ} (keep : Fin n → Bool) (w : Fin n → ℝ) (hk : ∃ u, keep u = true) (m : EReal) (hm : m ≠ ⊤) :
    ∃ μ : ℝ, mNew (masked keep w) m = (μ : EReal) := by
  obtain ⟨ρ, hρ⟩ := rowMax_masked_real keep w hk
  unfold mNew
  rw [hρ]
  induction m using EReal.rec with
  | bot => exact ⟨ρ, max_eq_right bot_le⟩
  | coe r =>
    rcases le_total (r : EReal) (ρ : EReal) with hle | hle
    · exact ⟨ρ, max_eq_right hle⟩
    · exact ⟨r, max_eq_left hle⟩
  | top => exact absurd rfl hm

/-! ## Weights against a real shift, and the common factor -/

/-- A key's weight against a real shift: e^(w u − μ) when kept, 0 when masked. -/
theorem exp_masked_sub {n : ℕ} (keep : Fin n → Bool) (w : Fin n → ℝ) (μ : ℝ) (u : Fin n) :
    Ideal.exp (masked keep w u - (μ : EReal)) = ((if keep u then Real.exp (w u - μ) else 0 : ℝ) : EReal) := by
  unfold masked
  by_cases hu : keep u = true
  · rw [if_pos hu, if_pos hu, ← EReal.coe_sub, Ideal.exp_coe]
  · rw [if_neg hu, if_neg hu, EReal.bot_sub, Ideal.exp_bot, EReal.coe_zero]

/-- The same weight times a real value. -/
theorem exp_masked_sub_mul {n : ℕ} (keep : Fin n → Bool) (w : Fin n → ℝ) (μ : ℝ) (u : Fin n) (x : ℝ) :
    Ideal.exp (masked keep w u - (μ : EReal)) * (x : EReal)
      = ((if keep u then Real.exp (w u - μ) * x else 0 : ℝ) : EReal) := by
  rw [exp_masked_sub, ← EReal.coe_mul, ite_mul, zero_mul]

/-- e^(w − μ) = e^(−μ)·e^w, summed over the kept keys. -/
theorem shift_sum {n : ℕ} (keep : Fin n → Bool) (w : Fin n → ℝ) (μ : ℝ) :
    ∑ u, (if keep u then Real.exp (w u - μ) else 0) = Real.exp (-μ) * ∑ u, (if keep u then Real.exp (w u) else 0) := by
  rw [Finset.mul_sum]
  refine Finset.sum_congr rfl fun u _ => ?_
  split_ifs
  · rw [sub_eq_add_neg, Real.exp_add, mul_comm]
  · rw [mul_zero]

/-- The same with each kept key's term carrying its value. -/
theorem shift_sum_mul {n dh : ℕ} (keep : Fin n → Bool) (w : Fin n → ℝ) (v : Fin n → Fin dh → ℝ) (μ : ℝ) (h : Fin dh) :
    ∑ u, (if keep u then Real.exp (w u - μ) * v u h else 0)
      = Real.exp (-μ) * ∑ u, (if keep u then Real.exp (w u) * v u h else 0) := by
  rw [Finset.mul_sum]
  refine Finset.sum_congr rfl fun u _ => ?_
  split_ifs
  · rw [sub_eq_add_neg, Real.exp_add]; ring
  · rw [mul_zero]

/-- With a kept key the sum of the weights is positive. -/
theorem kept_sum_pos {n : ℕ} (keep : Fin n → Bool) (w : Fin n → ℝ) (hk : ∃ u, keep u = true) (μ : ℝ) :
    0 < ∑ u, (if keep u then Real.exp (w u - μ) else 0) := by
  obtain ⟨u, hu⟩ := hk
  refine Finset.sum_pos' (fun i _ => ?_) ⟨u, Finset.mem_univ u, ?_⟩
  · split_ifs
    · exact (Real.exp_pos _).le
    · exact le_rfl
  · rw [if_pos hu]; exact Real.exp_pos _

/-! ## One online step when everything in sight is real -/

/-- From −∞ the rescaling factor is e^(−∞) = 0. -/
theorem alpha_bot {n : ℕ} (s : Fin n → EReal) : alpha s ⊥ = ((0 : ℝ) : EReal) := by
  unfold alpha
  rw [EReal.bot_sub, Ideal.exp_bot, EReal.coe_zero]

/-- From a real maximum to a real maximum the rescaling factor is the real e^(μ₁ − μ₂). -/
theorem alpha_real {n : ℕ} (s : Fin n → EReal) (μ1 μ2 : ℝ) (hm : mNew s (μ1 : EReal) = (μ2 : EReal)) :
    alpha s (μ1 : EReal) = ((Real.exp (μ1 - μ2) : ℝ) : EReal) := by
  unfold alpha
  rw [hm, ← EReal.coe_sub, Ideal.exp_coe]

/-- The new denominator, when the new maximum μ, the factor c and the old denominator L are real. -/
theorem lNew_real {n : ℕ} (keep : Fin n → Bool) (w : Fin n → ℝ) (m : EReal) (μ c L : ℝ)
    (hμ : mNew (masked keep w) m = (μ : EReal)) (hc : alpha (masked keep w) m = (c : EReal)) :
    lNew (masked keep w) m (L : EReal)
      = ((c * L + ∑ u, (if keep u then Real.exp (w u - μ) else 0) : ℝ) : EReal) := by
  unfold lNew pw
  rw [hc, hμ]
  simp_rw [exp_masked_sub]
  rw [← coe_sum, ← EReal.coe_mul, ← EReal.coe_add]

/-- The new numerator likewise. -/
theorem aNew_real {n dh : ℕ} (keep : Fin n → Bool) (w : Fin n → ℝ) (v : Fin n → Fin dh → ℝ) (m : EReal) (μ c : ℝ)
    (hμ : mNew (masked keep w) m = (μ : EReal)) (hc : alpha (masked keep w) m = (c : EReal))
    (a : Fin dh → EReal) (h : Fin dh) (A : ℝ) (ha : a h = (A : EReal)) :
    aNew (masked keep w) (fun u h => (v u h : EReal)) m a h
      = ((c * A + ∑ u, (if keep u then Real.exp (w u - μ) * v u h else 0) : ℝ) : EReal) := by
  unfold aNew pw
  rw [hc, hμ, ha]
  simp_rw [exp_masked_sub_mul]
  rw [← coe_sum, ← EReal.coe_mul, ← EReal.coe_add]

/-! ## One tile from the reset state -/

/-- After one tile from (−∞, 0, 0): the denominator and the numerator are the kept keys' sums of e^(w u − μ) and of
    e^(w u − μ)·v u h, μ the (real) new maximum; and the new maximum is that real. -/
theorem first_tile {n dh : ℕ} (keep : Fin n → Bool) (w : Fin n → ℝ) (v : Fin n → Fin dh → ℝ) (hk : ∃ u, keep u = true) :
    ∃ μ : ℝ, mNew (masked keep w) ⊥ = (μ : EReal)
      ∧ lNew (masked keep w) ⊥ 0 = ((∑ u, (if keep u then Real.exp (w u - μ) else 0) : ℝ) : EReal)
      ∧ ∀ h, aNew (masked keep w) (fun u h => (v u h : EReal)) ⊥ (fun _ => 0) h
          = ((∑ u, (if keep u then Real.exp (w u - μ) * v u h else 0) : ℝ) : EReal) := by
  obtain ⟨μ, hμ⟩ := mNew_masked_real keep w hk ⊥ bot_ne_top
  refine ⟨μ, hμ, ?_, fun h => ?_⟩
  · refine (lNew_real keep w ⊥ μ 0 0 hμ (alpha_bot _)).trans ?_
    rw [zero_mul, zero_add]
  · refine (aNew_real keep w v ⊥ μ 0 hμ (alpha_bot _) (fun _ => 0) h 0 rfl).trans ?_
    rw [zero_mul, zero_add]

/-- The row's result after one tile (the query tile on the diagonal with no tile below it). -/
theorem one_tile {n dh : ℕ} (keep : Fin n → Bool) (w : Fin n → ℝ) (v : Fin n → Fin dh → ℝ) (hk : ∃ u, keep u = true) (h : Fin dh) :
    Ideal.div (aNew (masked keep w) (fun u h => (v u h : EReal)) ⊥ (fun _ => 0) h) (lNew (masked keep w) ⊥ 0)
      = (attnRow keep w v h : EReal) := by
  obtain ⟨μ, -, hl, ha⟩ := first_tile keep w v hk
  rw [hl, ha h, Ideal.div_coe (ne_of_gt (kept_sum_pos keep w hk μ)), ← EReal.coe_mul]
  congr 1
  -- the common factor e^(−μ) cancels
  rw [shift_sum_mul, shift_sum, mul_one_div, mul_div_mul_left _ _ (Real.exp_pos _).ne']
  rfl

/-! ## Two tiles: one wholly kept, then one masked -/

/-- The row's result after a first tile with every key kept (scores `w0`, values `v0`) and a second under the mask
    (scores `w1`, values `v1`): the kept keys of both tiles together. -/
theorem two_tiles {n dh : ℕ} (hn : 0 < n) (w0 : Fin n → ℝ) (v0 : Fin n → Fin dh → ℝ)
    (keep : Fin n → Bool) (w1 : Fin n → ℝ) (v1 : Fin n → Fin dh → ℝ) (hk : ∃ u, keep u = true) (h : Fin dh) :
    let s0 : Fin n → EReal := fun u => (w0 u : EReal)
    let m1 := mNew s0 ⊥
    let l1 := lNew s0 ⊥ 0
    let a1 := aNew s0 (fun u h => (v0 u h : EReal)) ⊥ (fun _ => 0)
    Ideal.div (aNew (masked keep w1) (fun u h => (v1 u h : EReal)) m1 a1 h) (lNew (masked keep w1) m1 l1)
      = (((∑ u, Real.exp (w0 u) * v0 u h + ∑ u, (if keep u then Real.exp (w1 u) * v1 u h else 0))
          / (∑ u, Real.exp (w0 u) + ∑ u, (if keep u then Real.exp (w1 u) else 0)) : ℝ) : EReal) := by
  intro s0 m1 l1 a1
  -- the first tile is the masked tile whose mask keeps every key
  have hs0 : s0 = masked (fun _ => true) w0 := by
    funext u
    simp [s0, masked]
  obtain ⟨μ1, hm1, hl1, ha1⟩ := first_tile (fun _ => true) w0 v0 ⟨⟨0, hn⟩, rfl⟩
  rw [← hs0] at hm1 hl1 ha1
  simp only [↓reduceIte] at hl1 ha1
  obtain ⟨μ2, hm2⟩ := mNew_masked_real keep w1 hk (μ1 : EReal) (EReal.coe_ne_top _)
  have hα := alpha_real (masked keep w1) μ1 μ2 hm2
  have hL : lNew (masked keep w1) m1 l1
      = ((Real.exp (μ1 - μ2) * (∑ u, Real.exp (w0 u - μ1))
          + ∑ u, (if keep u then Real.exp (w1 u - μ2) else 0) : ℝ) : EReal) := by
    show lNew (masked keep w1) (mNew s0 ⊥) (lNew s0 ⊥ 0) = _
    rw [hm1, hl1]
    exact lNew_real keep w1 _ μ2 _ _ hm2 hα
  have hA : aNew (masked keep w1) (fun u h => (v1 u h : EReal)) m1 a1 h
      = ((Real.exp (μ1 - μ2) * (∑ u, Real.exp (w0 u - μ1) * v0 u h)
          + ∑ u, (if keep u then Real.exp (w1 u - μ2) * v1 u h else 0) : ℝ) : EReal) := by
    show aNew (masked keep w1) (fun u h => (v1 u h : EReal)) (mNew s0 ⊥) a1 h = _
    rw [hm1]
    exact aNew_real keep w1 v1 _ μ2 _ hm2 hα a1 h _ (ha1 h)
  have hpos : 0 < Real.exp (μ1 - μ2) * (∑ u, Real.exp (w0 u - μ1))
      + ∑ u, (if keep u then Real.exp (w1 u - μ2) else 0) :=
    add_pos_of_nonneg_of_pos
      (mul_nonneg (Real.exp_pos _).le (Finset.sum_nonneg fun u _ => (Real.exp_pos _).le))
      (kept_sum_pos keep w1 hk μ2)
  rw [hL, hA, Ideal.div_coe (ne_of_gt hpos), ← EReal.coe_mul]
  congr 1
  -- e^(μ₁ − μ₂)·e^(−μ₁) = e^(−μ₂), so e^(−μ₂) is a common factor of numerator and denominator
  have he : Real.exp (μ1 - μ2) * Real.exp (-μ1) = Real.exp (-μ2) := by
    rw [← Real.exp_add]
    congr 1
    ring
  have h0 : ∑ u, Real.exp (w0 u - μ1) = Real.exp (-μ1) * ∑ u, Real.exp (w0 u) := by
    rw [Finset.mul_sum]
    refine Finset.sum_congr rfl fun u _ => ?_
    rw [sub_eq_add_neg, Real.exp_add, mul_comm]
  have h0v : ∑ u, Real.exp (w0 u - μ1) * v0 u h = Real.exp (-μ1) * ∑ u, Real.exp (w0 u) * v0 u h := by
    rw [Finset.mul_sum]
    refine Finset.sum_congr rfl fun u _ => ?_
    rw [sub_eq_add_neg, Real.exp_add]
    ring
  rw [h0v, h0, shift_sum_mul keep w1 v1 μ2 h, shift_sum keep w1 μ2, ← mul_assoc, ← mul_assoc, he, ← mul_add,
    ← mul_add, mul_one_div, mul_div_mul_left _ _ (Real.exp_pos _).ne']

/-! ## The direct way -/

/-- The reference's row: weights e^(W u − M) for ANY real shift M, their sum from 0, each weight divided by the sum,
    then the weighted sum of the values. -/
theorem direct_row {n dh : ℕ} (keep : Fin n → Bool) (w : Fin n → ℝ) (v : Fin n → Fin dh → ℝ) (hk : ∃ u, keep u = true)
    (M : ℝ) (h : Fin dh) :
    (∑ u, Ideal.div (Ideal.exp (masked keep w u - (M : EReal))) (0 + ∑ u', Ideal.exp (masked keep w u' - (M : EReal))) * (v u h : EReal))
      = (attnRow keep w v h : EReal) := by
  have hpos := kept_sum_pos keep w hk M
  have hZ : (0 : EReal) + ∑ u', Ideal.exp (masked keep w u' - (M : EReal))
      = ((∑ u, (if keep u then Real.exp (w u - M) else 0) : ℝ) : EReal) := by
    simp_rw [exp_masked_sub]
    rw [zero_add, ← coe_sum]
  rw [hZ]
  simp_rw [Ideal.div_coe (ne_of_gt hpos), exp_masked_sub, ← EReal.coe_mul]
  rw [← coe_sum]
  congr 1
  -- the 1/Z comes out of the sum, then the common factor e^(−M) cancels
  have hterm : ∀ u, (if keep u then Real.exp (w u - M) else 0)
        * (1 / ∑ u', (if keep u' then Real.exp (w u' - M) else 0)) * v u h
      = (if keep u then Real.exp (w u - M) * v u h else 0)
        * (1 / ∑ u', (if keep u' then Real.exp (w u' - M) else 0)) := by
    intro u
    split_ifs <;> ring
  simp_rw [hterm]
  rw [← Finset.sum_mul, shift_sum_mul, shift_sum, mul_one_div, mul_div_mul_left _ _ (Real.exp_pos _).ne']
  rfl

end Cert.Attn

end
-- ==== Proof.IdFlashRows.lean ====
/-
  A block of the projected array, 1024 rows by 256 columns, holds three things side by side: columns 0–63 the scaled
  queries, columns 64–127 the keys, columns 128–191 the values (the rest is padding). Read as extended reals: a query
  row against a key row gives a score, their inner product over the 64 head columns; on the diagonal tile the key u is
  kept for the query r when u ≤ r and otherwise scores −∞.
-/
import proofs.«426603_j13365938225281_3_alg».proof.Proof.IdFlashDefs
import proofs.«426603_j13365938225281_3_alg».proof.Proof.LibOnlineSoftmax
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe
open Idealize.SL.Sem
open Cert.KernelIdeal Cert.KernelIdeal.Gen
open ValueIdx Cert.Attn

/-- The scaled query, the key and the value entries of a block. -/
def qRow (x0 : Blk Ideal) (r : Fin 1024) (d : Fin 64) : EReal := x0 (ix3 (0 : Fin 1) r (⟨d.val, by omega⟩ : Fin 256))
def kRow (x1 : Blk Ideal) (u : Fin 1024) (d : Fin 64) : EReal := x1 (ix3 (0 : Fin 1) u (⟨64 + d.val, by omega⟩ : Fin 256))
def vRow (x1 : Blk Ideal) (u : Fin 1024) (h : Fin 64) : EReal := x1 (ix3 (0 : Fin 1) u (⟨128 + h.val, by omega⟩ : Fin 256))

/-- The scores of query row `r` against the tile's keys; and under the causal mask of a diagonal tile. -/
def sRow (x0 x1 : Blk Ideal) (r u : Fin 1024) : EReal := ∑ d : Fin 64, qRow x0 r d * kRow x1 u d
def sRowM (x0 x1 : Blk Ideal) (r u : Fin 1024) : EReal := if u.val ≤ r.val then sRow x0 x1 r u else ⊥

/-- A running column and a running numerator read at a row. -/
abbrev at1 (m : Mv Ideal) (r : Fin 1024) : EReal := m (ix3 (0 : Fin 1) r (0 : Fin 1))
abbrev at64 (a : Av Ideal) (r : Fin 1024) (h : Fin 64) : EReal := a (ix3 (0 : Fin 1) r h)

end Cert.KernelIdeal.Hand

end
-- ==== Proof.AttnSpec.lean ====
/-
  What causal attention computes, over the reals, and how a row of 2048 keys splits into the two tiles of 1024.

  With x the input [batch, position, embedding] and Wq, Wk, Wv the three weight matrices: q = x·Wq, k = x·Wk, v = x·Wv
  per batch; the score of query position t against key position u is (Σ_h q t h · k u h)/32; key u is kept for query t
  when u ≤ t; the result at (b, t, h) is the kept keys' e^score-weighted mean of v u h.

  The tiled kernel scales Wq by 1/32 before projecting; over the reals that is the same score. A query in the first
  tile (t < 1024) keeps no key of the second tile; a query in the second tile keeps every key of the first.
-/
import proofs.«426603_j13365938225281_3_alg».proof.Proof.LibOnlineSoftmax
import Mathlib.Algebra.BigOperators.Fin

noncomputable section

namespace Cert.Attn

/-- A projection: x·W at (b, t, h). -/
def proj (x : Fin 4 → Fin 2048 → Fin 1024 → ℝ) (w : Fin 1024 → Fin 64 → ℝ) (b : Fin 4) (t : Fin 2048) (h : Fin 64) : ℝ :=
  ∑ c, x b t c * w c h

/-- The score of query position t against key position u, scaled by 1/32. -/
def score (x : Fin 4 → Fin 2048 → Fin 1024 → ℝ) (wq wk : Fin 1024 → Fin 64 → ℝ) (b : Fin 4) (t u : Fin 2048) : ℝ :=
  (∑ h, proj x wq b t h * proj x wk b u h) * (1 / 32)

/-- The causal mask: key u is kept for query t when u ≤ t. -/
def keepC (t u : Fin 2048) : Bool := decide (u.val ≤ t.val)

/-- Causal attention at (b, t, h). -/
def spec (x : Fin 4 → Fin 2048 → Fin 1024 → ℝ) (wk wq wv : Fin 1024 → Fin 64 → ℝ) (b : Fin 4) (t : Fin 2048) (h : Fin 64) : ℝ :=
  attnRow (keepC t) (score x wq wk b t) (fun u h => proj x wv b u h) h

/-- The kernel's score: the query projected through the weights already scaled by 1/32. -/
theorem score_scaled (x : Fin 4 → Fin 2048 → Fin 1024 → ℝ) (wq wk : Fin 1024 → Fin 64 → ℝ) (b : Fin 4) (t u : Fin 2048) :
    (∑ h, proj x (fun c h => wq c h * (1 / 32)) b t h * proj x wk b u h) = score x wq wk b t u := by
  -- the constant 1/32 comes out of the inner sum over the embedding, then out of the sum over the head columns
  have e : ∀ h, (∑ c, x b t c * (wq c h * (1 / 32))) = (∑ c, x b t c * wq c h) * (1 / 32) := by
    intro h
    rw [Finset.sum_mul]
    exact Finset.sum_congr rfl fun c _ => (mul_assoc _ _ _).symm
  simp only [proj, score]
  rw [Finset.sum_mul]
  refine Finset.sum_congr rfl fun h _ => ?_
  rw [e h]
  ring

/-- Position r of the first tile and of the second. -/
abbrev lo (r : Fin 1024) : Fin 2048 := ⟨r.val, by omega⟩
abbrev hi (r : Fin 1024) : Fin 2048 := ⟨1024 + r.val, by omega⟩

/-- A sum over 2048 positions is the sum over the first tile plus the sum over the second. -/
theorem sum_tiles (f : Fin 2048 → ℝ) : ∑ u, f u = ∑ r : Fin 1024, f (lo r) + ∑ r : Fin 1024, f (hi r) := by
  -- 2048 = 1024 + 1024: the positions below 1024 are the first tile, position 1024 + r is the second tile's r
  have h := Fin.sum_univ_add (a := 1024) (b := 1024) (fun i : Fin (1024 + 1024) => f i)
  have e1 : ∀ r : Fin 1024, (Fin.castAdd 1024 r : Fin (1024 + 1024)) = lo r := fun r => Fin.ext rfl
  have e2 : ∀ r : Fin 1024, (Fin.natAdd 1024 r : Fin (1024 + 1024)) = hi r := fun r => Fin.ext rfl
  simp only [e1, e2] at h
  exact h

/-- A query row of the first tile: only the first tile's keys up to the diagonal are kept. -/
theorem attnRow_lo {dh : ℕ} (r : Fin 1024) (w : Fin 2048 → ℝ) (v : Fin 2048 → Fin dh → ℝ) (h : Fin dh) :
    attnRow (keepC (lo r)) w v h
      = attnRow (n := 1024) (fun u => decide (u.val ≤ r.val)) (fun u => w (lo u)) (fun u h => v (lo u) h) h := by
  -- within the first tile the mask is the diagonal test; a key of the second tile lies after every first-tile query
  have k1 : ∀ u : Fin 1024, keepC (lo r) (lo u) = decide (u.val ≤ r.val) := fun u => rfl
  have k2 : ∀ u : Fin 1024, keepC (lo r) (hi u) = false := by
    intro u
    have hr := r.isLt
    simp only [keepC, decide_eq_false_iff_not, not_le]
    omega
  simp only [attnRow]
  rw [sum_tiles, sum_tiles (fun u => if keepC (lo r) u then Real.exp (w u) else 0)]
  simp only [k1, k2, Bool.false_eq_true, if_false, Finset.sum_const_zero, add_zero]

/-- A query row of the second tile: every key of the first tile, and the second tile's keys up to the diagonal. -/
theorem attnRow_hi {dh : ℕ} (r : Fin 1024) (w : Fin 2048 → ℝ) (v : Fin 2048 → Fin dh → ℝ) (h : Fin dh) :
    attnRow (keepC (hi r)) w v h
      = (∑ u : Fin 1024, Real.exp (w (lo u)) * v (lo u) h
            + ∑ u : Fin 1024, (if decide (u.val ≤ r.val) then Real.exp (w (hi u)) * v (hi u) h else 0))
          / (∑ u : Fin 1024, Real.exp (w (lo u))
            + ∑ u : Fin 1024, (if decide (u.val ≤ r.val) then Real.exp (w (hi u)) else 0)) := by
  -- every key of the first tile lies before a second-tile query; within the second tile the mask is the diagonal test
  have k1 : ∀ u : Fin 1024, keepC (hi r) (lo u) = true := by
    intro u
    have hu := u.isLt
    simp only [keepC, decide_eq_true_eq]
    omega
  have k2 : ∀ u : Fin 1024, keepC (hi r) (hi u) = decide (u.val ≤ r.val) := by
    intro u
    simp only [keepC]
    exact decide_eq_decide.mpr Nat.add_le_add_iff_left
  simp only [attnRow]
  rw [sum_tiles, sum_tiles (fun u => if keepC (hi r) u then Real.exp (w u) else 0)]
  simp only [k1, k2, if_true]

end Cert.Attn

end
-- ==== Proof.IdValue1.lean ====
/-
  The attention region's result array, read at an index, at the buffer contents `V` the region is entered from.
  Position t = 4·b + 2·qi + ki. The output block of batch b and query tile qi is written back once, after the point
  (b, qi, 1), and those eight blocks tile the array. What is written is acc / l of the running triple: for qi = 0 the
  diagonal tile folded into the reset state; for qi = 1 the first key tile folded into the reset state and then the
  diagonal tile folded into that. The query rows' block at (b, qi, ·) is rows 1024·qi … of batch b of the projected
  array; the key/value rows' block at (b, qi, ki) is rows 1024·min(ki, qi) … of batch b.
-/
import proofs.«426603_j13365938225281_3_alg».proof.Proof.IdRun
import proofs.«426603_j13365938225281_3_alg».proof.Proof.IdFlashRows
import proofs.«426603_j13365938225281_3_alg».proof.Proof.AttnSpec
import Idealize.ShloMosaic.Lib.Pipeline.Value
import Idealize.ShloMosaic.Lib.ValueLayout

set_option maxRecDepth 16384

noncomputable section

namespace Cert.KernelIdeal.Hand

open Idealize.ShloMosaic Idealize.ShloMosaic.TcCoe
open Idealize.SL.Sem
open Cert.KernelIdeal Cert.KernelIdeal.Gen
open ValueIdx Cert.Attn

variable (V : (c : Dev nD) → (b : Ref sig .tc) → Buf (Elt Ideal) ((c : Thread nD τ).loc b))

/-- The grid point (b, qi, ki). -/
def pt (b : Fin 4) (qi ki : Fin 2) : Fin cfg1.N := ⟨4 * b.val + 2 * qi.val + ki.val, by have := N_1; show _ < grid1.N; omega⟩

/-- The projected array as the region finds it, as a function of its index. -/
abbrev qkvA (c : Dev nD) : S4x2048x256.Idx → EReal := V c main_v6

/-- The printed index maps at the point (b, qi, ki): the query rows' window is at block (b, qi, 0), the key/value
    rows' window at block (b, min(ki, qi), 0). -/
theorem idx_pt0 : ∀ (b : Fin 4) (qi ki : Fin 2), win1_0.index (pt b qi ki) (0 : Fin 3) = b.val
    ∧ win1_0.index (pt b qi ki) (1 : Fin 3) = qi.val ∧ win1_0.index (pt b qi ki) (2 : Fin 3) = 0 := by decide +kernel
theorem idx_pt1 : ∀ (b : Fin 4) (qi ki : Fin 2), win1_1.index (pt b qi ki) (0 : Fin 3) = b.val
    ∧ win1_1.index (pt b qi ki) (1 : Fin 3) = min ki.val qi.val ∧ win1_1.index (pt b qi ki) (2 : Fin 3) = 0 := by decide +kernel

/-- The query rows' block and the key/value rows' block at a point, read at an index. -/
theorem qB_apply (c : Dev nD) (b : Fin 4) (qi ki : Fin 2) (r : Fin 1024) (j : Fin 256) :
    qB V c (pt b qi ki) (ix3 (0 : Fin 1) r j) = qkvA V c (ix3 b (⟨1024 * qi.val + r.val, by omega⟩ : Fin 2048) j) := by
  unfold qB iblk1
  rw [View.read_apply]
  show V c main_v6 (((cfg1.win 0).blk (pt b qi ki)).view.emb (ix3 (0 : Fin 1) r j))
    = V c main_v6 (ix3 b (⟨1024 * qi.val + r.val, by omega⟩ : Fin 2048) j)
  refine congrArg (V c main_v6) ?_
  obtain ⟨e0, e1, e2⟩ := idx_pt0 b qi ki
  -- on each axis the array coordinate is block index × block size + the coordinate inside the block
  funext a; apply Fin.ext
  match a with
  | ⟨0, _⟩ => show win1_0.index (pt b qi ki) (0 : Fin 3) * 1 + 1 * (0 : Fin 1).val = b.val; omega
  | ⟨1, _⟩ => show win1_0.index (pt b qi ki) (1 : Fin 3) * 1024 + 1 * r.val = 1024 * qi.val + r.val; omega
  | ⟨2, _⟩ => show win1_0.index (pt b qi ki) (2 : Fin 3) * 256 + 1 * j.val = j.val; omega
theorem kB_apply (c : Dev nD) (b : Fin 4) (qi ki : Fin 2) (r : Fin 1024) (j : Fin 256) :
    kB V c (pt b qi ki) (ix3 (0 : Fin 1) r j) = qkvA V c (ix3 b (⟨1024 * (min ki.val qi.val) + r.val, by omega⟩ : Fin 2048) j) := by
  unfold kB iblk1
  rw [View.read_apply]
  show V c main_v6 (((cfg1.win 1).blk (pt b qi ki)).view.emb (ix3 (0 : Fin 1) r j))
    = V c main_v6 (ix3 b (⟨1024 * (min ki.val qi.val) + r.val, by omega⟩ : Fin 2048) j)
  refine congrArg (V c main_v6) ?_
  obtain ⟨e0, e1, e2⟩ := idx_pt1 b qi ki
  funext a; apply Fin.ext
  match a with
  | ⟨0, _⟩ => show win1_1.index (pt b qi ki) (0 : Fin 3) * 1 + 1 * (0 : Fin 1).val = b.val; omega
  | ⟨1, _⟩ => show win1_1.index (pt b qi ki) (1 : Fin 3) * 1024 + 1 * r.val = 1024 * (min ki.val qi.val) + r.val; omega
  | ⟨2, _⟩ => show win1_1.index (pt b qi ki) (2 : Fin 3) * 256 + 1 * j.val = j.val; omega

/-- The tile numbers as words at a point on the diagonal. -/
theorem qw_pt (b : Fin 4) (qi ki : Fin 2) : qw (grid1.coords (pt b qi ki)) = BitVec.ofNat 32 qi.val :=
  (by decide +kernel : ∀ (b : Fin 4) (qi ki : Fin 2), qw (grid1.coords (pt b qi ki)) = BitVec.ofNat 32 qi.val) b qi ki
theorem kw_pt (b : Fin 4) (qi ki : Fin 2) : kw (grid1.coords (pt b qi ki)) = BitVec.ofNat 32 ki.val :=
  (by decide +kernel : ∀ (b : Fin 4) (qi ki : Fin 2), kw (grid1.coords (pt b qi ki)) = BitVec.ofNat 32 ki.val) b qi ki

/-- The result array after the region, as a function of its index. -/
abbrev outA (c : Dev nD) : S4x2048x64.Idx → EReal := (dat1 V c).arrAt 2 cfg1.N

/-- The output window at the point (b, qi, ki) is at block (b, qi, 0). -/
theorem idx_pt2 : ∀ (b : Fin 4) (qi ki : Fin 2), win1_2.index (pt b qi ki) (0 : Fin 3) = b.val
    ∧ win1_2.index (pt b qi ki) (1 : Fin 3) = qi.val ∧ win1_2.index (pt b qi ki) (2 : Fin 3) = 0 := by decide +kernel

/-- Two different points that write the output block back write different blocks. -/
theorem idx_ne2 : ∀ t t' : Fin cfg1.N, (cfg1.win 2).flush t = true → (cfg1.win 2).flush t' = true → t ≠ t' → win1_2.index t ≠ win1_2.index t' :=
  (by decide +kernel : ∀ t t' : Fin grid1.N, win1_2.flush t = true → win1_2.flush t' = true → t ≠ t' → win1_2.index t ≠ win1_2.index t')

/-- So the blocks written back are pairwise disjoint: each is written once. -/
theorem disj2 (t t' : Fin cfg1.N) (hf : (cfg1.win 2).flush t = true) (hf' : (cfg1.win 2).flush t' = true) (hne : t ≠ t') :
    Disjoint ((cfg1.win 2).blk t).view.set ((cfg1.win 2).blk t').view.set :=
  Pipeline.Window.disjoint_blk win1_2 (idx_ne2 t t' hf hf' hne)

/-- The running triple after a point depends on the point's position only. -/
theorem scrAt_congr (c : Dev nD) {n n' : ℕ} (e : n = n') (h : n < cfg1.N) (h' : n' < cfg1.N) : scrAt V c n h = scrAt V c n' h' := by
  subst e; rfl

/-- The result array at row 1024·qi + r of batch b: the block written back after the point (b, qi, 1), which is
    acc / l of the running triple after that point, read at row r. -/
theorem out_at (c : Dev nD) (b : Fin 4) (qi : Fin 2) (r : Fin 1024) (h : Fin 64) :
    outA V c (ix3 b (⟨1024 * qi.val + r.val, by omega⟩ : Fin 2048) h)
      = at64 (outE (scrAt V c (pt b qi 1).val (pt b qi 1).isLt).2.2 (scrAt V c (pt b qi 1).val (pt b qi 1).isLt).2.1) r h := by
  have hf : (cfg1.win 2).flush (pt b qi 1) = true := (flush1_2 (pt b qi 1)).mpr (by show (4 * b.val + 2 * qi.val + 1) % 2 = 1; omega)
  have hemb : (ix3 b (⟨1024 * qi.val + r.val, by omega⟩ : Fin 2048) h : S4x2048x64.Idx) = ((cfg1.win 2).blk (pt b qi 1)).view.emb (ix3 (0 : Fin 1) r h) := by
    obtain ⟨e0, e1, e2⟩ := idx_pt2 b qi 1
    funext a; apply Fin.ext
    match a with
    | ⟨0, _⟩ => show b.val = win1_2.index (pt b qi 1) (0 : Fin 3) * 1 + 1 * (0 : Fin 1).val; omega
    | ⟨1, _⟩ => show 1024 * qi.val + r.val = win1_2.index (pt b qi 1) (1 : Fin 3) * 1024 + 1 * r.val; omega
    | ⟨2, _⟩ => show h.val = win1_2.index (pt b qi 1) (2 : Fin 3) * 64 + 1 * h.val; omega
  have key := (dat1 V c).arrAt_emb_eq_flushed 2 (disj2) (pt b qi 1) hf (ix3 (0 : Fin 1) r h)
  rw [hemb]
  refine key.trans ?_
  show (cfg1.win 2).cut (grid1.coords (pt b qi 1)) ((dat1 V c).after 2 (pt b qi 1)) (ix3 (0 : Fin 1) r h) = _
  rw [after1_2]
  rfl

/-- After (b, 0, 1) the triple is what (b, 0, 0) left: the diagonal tile folded into the reset state. -/
theorem scr_lo (c : Dev nD) (b : Fin 4) : scrAt V c (pt b 0 1).val (pt b 0 1).isLt = stepD V c (pt b 0 0) reset := by
  rw [scrAt_r1 V c (pt b 0 1) (by show (4 * b.val + 2 * 0 + 1) % 4 = 1; omega),
    scrAt_congr V c (show (pt b 0 1).val - 1 = (pt b 0 0).val by show 4 * b.val + 2 * 0 + 1 - 1 = 4 * b.val + 2 * 0 + 0; omega) _ (pt b 0 0).isLt,
    scrAt_r0 V c (pt b 0 0) (by show (4 * b.val + 2 * 0 + 0) % 4 = 0; omega)]

/-- After (b, 1, 1) the triple is the diagonal tile folded into what (b, 1, 0) left, the first key tile folded into
    the reset state. -/
theorem scr_hi (c : Dev nD) (b : Fin 4) : scrAt V c (pt b 1 1).val (pt b 1 1).isLt = stepD V c (pt b 1 1) (stepF V c (pt b 1 0) reset) := by
  rw [scrAt_r3 V c (pt b 1 1) (by show (4 * b.val + 2 * 1 + 1) % 4 = 3; omega),
    scrAt_congr V c (show (pt b 1 1).val - 1 = (pt b 1 0).val by show 4 * b.val + 2 * 1 + 1 - 1 = 4 * b.val + 2 * 1 + 0; omega) _ (pt b 1 0).isLt,
    scrAt_r2 V c (pt b 1 0) (by show (4 * b.val + 2 * 1 + 0) % 4 = 2; omega)]

/-- A row of the first query tile: the diagonal tile folded into the reset state, then acc / l. -/
theorem out_apply_lo (c : Dev nD) (b : Fin 4) (r : Fin 1024) (h : Fin 64) :
    outA V c (ix3 b (lo r) h)
      = at64 (outE (stepD V c (pt b 0 0) reset).2.2 (stepD V c (pt b 0 0) reset).2.1) r h := by
  rw [← scr_lo V c b, ← out_at V c b 0 r h]
  refine congrArg (outA V c) ?_
  funext a; apply Fin.ext
  match a with
  | ⟨0, _⟩ => rfl
  | ⟨1, _⟩ => show r.val = 1024 * 0 + r.val; omega
  | ⟨2, _⟩ => rfl

/-- A row of the second query tile: the first key tile folded into the reset state, the diagonal tile folded into
    that, then acc / l. -/
theorem out_apply_hi (c : Dev nD) (b : Fin 4) (r : Fin 1024) (h : Fin 64) :
    outA V c (ix3 b (hi r) h)
      = at64 (outE (stepD V c (pt b 1 1) (stepF V c (pt b 1 0) reset)).2.2
                   (stepD V c (pt b 1 1) (stepF V c (pt b 1 0) reset)).2.1) r h := by
  rw [← scr_hi V c b, ← out_at V c b 1 r h]
  refine congrArg (outA V c) ?_
  funext a; apply Fin.ext
  match a with
  | ⟨0, _⟩ => rfl
  | ⟨1, _⟩ => show 1024 + r.val = 1024 * 1 + r.val; omega
  | ⟨2, _⟩ => rfl

end Cert.KernelIdeal.Hand

end
-- ==== Proof.IdBridgeRows.lean ====
/-
  The rows of the attention region's input blocks, when the program's inputs are real numbers.
  The projected array's columns 0–63 are x·(Wq·2⁻⁵), columns 64–127 x·Wk, columns 128–191 x·Wv, all real. The query
  rows' block at the point (b, qi, ki) is rows 1024·qi … of batch b, the key/value rows' block rows 1024·min(ki, qi) …;
  so a query row against a key row scores the spec's score of those two positions (the scale moved from the weights to
  the score), and a value row is the spec's value projection.
-/
import proofs.«426603_j13365938225281_3_alg».proof.Proof.IdValue0
import proofs.«426603_j13365938225281_3_alg».proof.Proof.IdValue1
import proofs.«426603_j13365938225281_3_alg».proof.Proof.AttnSpec
import proofs.«426603_j13365938225281_3_alg».proof.Proof.IdealWords

set_option maxRecDepth 16384

noncomputable section

namespace Cert.KernelIdeal.Hand

open Idealize.ShloMosaic Idealize.ShloMosaic.TcCoe
open Idealize.SL.Sem
open Cert.KernelIdeal Cert.KernelIdeal.Gen
open ValueIdx Cert.Attn

variable (m : (ℓ : Loc nD τ sig) → Buf (Elt Ideal) ℓ) (ρ : Dev nD → PrngReg) (c : Dev nD)
variable (xr : Fin 4 → Fin 2048 → Fin 1024 → ℝ) (wkr wqr wvr : Fin 1024 → Fin 64 → ℝ)

/-- Position r of tile n. -/
abbrev tpos (n : ℕ) (hn : n < 2) (r : Fin 1024) : Fin 2048 := ⟨1024 * n + r.val, by omega⟩

/-- The padded weight matrix column by column group. -/
theorem wcat_q (k : Fin 1024) (d : Fin 64) :
    wcat m c k (⟨d.val, by omega⟩ : Fin 256) = wqA m c (ix2 k d) * Ideal.ofBits .f32 0x3D000000#32 := by
  have hlt : (⟨d.val, by omega⟩ : Fin 256).val < 64 := d.isLt
  unfold wcat
  exact (dif_pos hlt).trans rfl
theorem wcat_k (k : Fin 1024) (d : Fin 64) :
    wcat m c k (⟨64 + d.val, by omega⟩ : Fin 256) = wkA m c (ix2 k d) := by
  have h1 : ¬(⟨64 + d.val, by omega⟩ : Fin 256).val < 64 := by show ¬(64 + d.val < 64); omega
  have h2 : (⟨64 + d.val, by omega⟩ : Fin 256).val < 128 := by show 64 + d.val < 128; omega
  unfold wcat
  exact (dif_neg h1).trans ((dif_pos h2).trans
    (congrArg (fun z => wkA m c (ix2 k z)) (Fin.ext (by show 64 + d.val - 64 = d.val; omega))))
theorem wcat_v (k : Fin 1024) (d : Fin 64) :
    wcat m c k (⟨128 + d.val, by omega⟩ : Fin 256) = wvA m c (ix2 k d) := by
  have h1 : ¬(⟨128 + d.val, by omega⟩ : Fin 256).val < 64 := by show ¬(128 + d.val < 64); omega
  have h2 : ¬(⟨128 + d.val, by omega⟩ : Fin 256).val < 128 := by show ¬(128 + d.val < 128); omega
  have h3 : (⟨128 + d.val, by omega⟩ : Fin 256).val < 192 := by show 128 + d.val < 192; omega
  unfold wcat
  exact (dif_neg h1).trans ((dif_neg h2).trans ((dif_pos h3).trans
    (congrArg (fun z => wvA m c (ix2 k z)) (Fin.ext (by show 128 + d.val - 128 = d.val; omega)))))

section
variable (h0 : ∀ b t k, xA m c (ix3 b t k) = (xr b t k : EReal)) (h1 : ∀ k h, wkA m c (ix2 k h) = (wkr k h : EReal))
  (h2 : ∀ k h, wqA m c (ix2 k h) = (wqr k h : EReal)) (h3 : ∀ k h, wvA m c (ix2 k h) = (wvr k h : EReal))
include h0 h1 h2 h3

/-- The three column groups of the projected array the attention region is entered with. -/
theorem qkv_q (b : Fin 4) (t : Fin 2048) (d : Fin 64) :
    qkvIn m ρ c (ix3 b t (⟨d.val, by omega⟩ : Fin 256)) = (proj xr (fun k h => wqr k h * (1 / 32)) b t d : EReal) := by
  rw [qkv_apply]
  simp only [wcat_q, h0, h2, scale_word, ← EReal.coe_mul]
  rw [← coe_sum]; rfl
theorem qkv_k (b : Fin 4) (t : Fin 2048) (d : Fin 64) :
    qkvIn m ρ c (ix3 b t (⟨64 + d.val, by omega⟩ : Fin 256)) = (proj xr wkr b t d : EReal) := by
  rw [qkv_apply]
  simp only [wcat_k, h0, h1, ← EReal.coe_mul]
  rw [← coe_sum]; rfl
theorem qkv_v (b : Fin 4) (t : Fin 2048) (d : Fin 64) :
    qkvIn m ρ c (ix3 b t (⟨128 + d.val, by omega⟩ : Fin 256)) = (proj xr wvr b t d : EReal) := by
  rw [qkv_apply]
  simp only [wcat_v, h0, h3, ← EReal.coe_mul]
  rw [← coe_sum]; rfl

/-- The rows of the two blocks at the point (b, qi, ki). -/
theorem qRow_real (b : Fin 4) (qi ki : Fin 2) (r : Fin 1024) (d : Fin 64) :
    qRow (qB (V4 m ρ) c (pt b qi ki)) r d = (proj xr (fun k h => wqr k h * (1 / 32)) b (tpos qi.val qi.isLt r) d : EReal) := by
  unfold qRow
  rw [qB_apply]
  exact qkv_q m ρ c xr wkr wqr wvr h0 h1 h2 h3 b (tpos qi.val qi.isLt r) d
theorem kRow_real (b : Fin 4) (qi ki : Fin 2) (u : Fin 1024) (d : Fin 64) :
    kRow (kB (V4 m ρ) c (pt b qi ki)) u d = (proj xr wkr b (tpos (min ki.val qi.val) (by omega) u) d : EReal) := by
  unfold kRow
  rw [kB_apply]
  exact qkv_k m ρ c xr wkr wqr wvr h0 h1 h2 h3 b (tpos (min ki.val qi.val) (by omega) u) d
theorem vRow_real (b : Fin 4) (qi ki : Fin 2) (u : Fin 1024) (h : Fin 64) :
    vRow (kB (V4 m ρ) c (pt b qi ki)) u h = (proj xr wvr b (tpos (min ki.val qi.val) (by omega) u) h : EReal) := by
  unfold vRow
  rw [kB_apply]
  exact qkv_v m ρ c xr wkr wqr wvr h0 h1 h2 h3 b (tpos (min ki.val qi.val) (by omega) u) h

/-- A query row's score against a key row of the tile: the spec's score of the two positions. -/
theorem sRow_real (b : Fin 4) (qi ki : Fin 2) (r u : Fin 1024) :
    sRow (qB (V4 m ρ) c (pt b qi ki)) (kB (V4 m ρ) c (pt b qi ki)) r u
      = (score xr wqr wkr b (tpos qi.val qi.isLt r) (tpos (min ki.val qi.val) (by omega) u) : EReal) := by
  unfold sRow
  simp only [qRow_real m ρ c xr wkr wqr wvr h0 h1 h2 h3, kRow_real m ρ c xr wkr wqr wvr h0 h1 h2 h3, ← EReal.coe_mul]
  rw [← coe_sum, score_scaled]

end

end Cert.KernelIdeal.Hand

end
-- ==== Proof.IdFlashIdxF.lean ====
/-
  A key tile lying wholly below the diagonal, folded into the running triple, read row by row: the new maximum, the
  new denominator and the new numerator of query row r are the online softmax step on one row, applied to the row's scores against the
  tile's keys and on the tile's values. Also the reset state and the final quotient, read at an index.
-/
import proofs.«426603_j13365938225281_3_alg».proof.Proof.IdFlashRows
import proofs.«426603_j13365938225281_3_alg».proof.Proof.IdealWords
import Idealize.ShloMosaic.Lib.Pipeline.Value
import Idealize.ShloMosaic.Lib.ValueLayout

set_option maxRecDepth 16384

noncomputable section

namespace Cert.KernelIdeal.Hand

open Idealize.ShloMosaic Idealize.ShloMosaic.TcCoe
open Idealize.SL.Sem
open Cert.KernelIdeal Cert.KernelIdeal.Gen
open ValueIdx Cert.Attn

/-! ## Layout operations at a row -/

/-- A column broadcast along the 64 head columns, or along the 1024 key columns, reads the column's entry of the row. -/
theorem bcast64_apply (v : FVec Ideal S1x1024x1 .f32) (r : Fin 1024) (h : Fin 64) :
    broadcastTo S1x1024x64 v broadcasts_S1x1024x1_S1x1024x64 (ix3 (0 : Fin 1) r h) = v (ix3 (0 : Fin 1) r (0 : Fin 1)) :=
  broadcastTo_apply v _ (ix3 (0 : Fin 1) r h) (ix3 (0 : Fin 1) r (0 : Fin 1)) (fun a => by
    match a with
    | ⟨0, _⟩ => rfl
    | ⟨1, _⟩ => rfl
    | ⟨2, _⟩ => rfl)

theorem bcast1024_apply (v : FVec Ideal S1x1024x1 .f32) (r u : Fin 1024) :
    broadcastTo S1x1024x1024 v broadcasts_S1x1024x1_S1x1024x1024 (ix3 (0 : Fin 1) r u) = v (ix3 (0 : Fin 1) r (0 : Fin 1)) :=
  broadcastTo_apply v _ (ix3 (0 : Fin 1) r u) (ix3 (0 : Fin 1) r (0 : Fin 1)) (fun a => by
    match a with
    | ⟨0, _⟩ => rfl
    | ⟨1, _⟩ => rfl
    | ⟨2, _⟩ => rfl)

/-- A per-row value given a trailing unit axis reads the row's value. -/
theorem col_apply (w : FVec Ideal S1x1024 .f32) (r : Fin 1024) :
    shapeCast S1x1024x1 w shapeCasts_S1x1024_S1x1024x1 (ix3 (0 : Fin 1) r (0 : Fin 1)) = w (ix2 (0 : Fin 1) r) :=
  shapeCast_apply w _ (ix3 (0 : Fin 1) r (0 : Fin 1)) (ix2 (0 : Fin 1) r) (by
    rw [Shape.rowMajor_val_two, Shape.rowMajor_val_three]
    show (0 : ℕ) * 1024 + r.val = ((0 : ℕ) * 1024 + r.val) * 1 + 0
    omega)

/-- The three 64-column bands of a block, read at a row. -/
theorem sliceQ_apply (x : FVec Ideal S1x1024x256 .bf16) (r : Fin 1024) (d : Fin 64) :
    extractStridedSlice S1x1024x64 ![0, 0, 0] x slices_S1x1024x256_o0_0_0_S1x1024x64 (ix3 (0 : Fin 1) r d)
      = x (ix3 (0 : Fin 1) r (⟨d.val, by omega⟩ : Fin 256)) :=
  extractStridedSlice_apply _ x _ (ix3 (0 : Fin 1) r d) (ix3 (0 : Fin 1) r (⟨d.val, by omega⟩ : Fin 256)) (fun a => by
    match a with
    | ⟨0, _⟩ => rfl
    | ⟨1, _⟩ => show r.val = 0 + r.val; omega
    | ⟨2, _⟩ => show d.val = 0 + d.val; omega)

theorem sliceK_apply (x : FVec Ideal S1x1024x256 .bf16) (u : Fin 1024) (d : Fin 64) :
    extractStridedSlice S1x1024x64 ![0, 0, 64] x slices_S1x1024x256_o0_0_64_S1x1024x64 (ix3 (0 : Fin 1) u d)
      = x (ix3 (0 : Fin 1) u (⟨64 + d.val, by omega⟩ : Fin 256)) :=
  extractStridedSlice_apply _ x _ (ix3 (0 : Fin 1) u d) (ix3 (0 : Fin 1) u (⟨64 + d.val, by omega⟩ : Fin 256)) (fun a => by
    match a with
    | ⟨0, _⟩ => rfl
    | ⟨1, _⟩ => show u.val = 0 + u.val; omega
    | ⟨2, _⟩ => rfl)

theorem sliceV_apply (x : FVec Ideal S1x1024x256 .bf16) (u : Fin 1024) (h : Fin 64) :
    extractStridedSlice S1x1024x64 ![0, 0, 128] x slices_S1x1024x256_o0_0_128_S1x1024x64 (ix3 (0 : Fin 1) u h)
      = x (ix3 (0 : Fin 1) u (⟨128 + h.val, by omega⟩ : Fin 256)) :=
  extractStridedSlice_apply _ x _ (ix3 (0 : Fin 1) u h) (ix3 (0 : Fin 1) u (⟨128 + h.val, by omega⟩ : Fin 256)) (fun a => by
    match a with
    | ⟨0, _⟩ => rfl
    | ⟨1, _⟩ => show u.val = 0 + u.val; omega
    | ⟨2, _⟩ => rfl)

/-! ## Lane reductions over the key columns of a row -/

/-- The index of the tile above a row, with the key column put back. -/
theorem lift_row (r : Fin 1024) (k : Fin (S1x1024x1024.size 2)) :
    reduces_S1x1024x1024_S1x1024.lift (ix2 (0 : Fin 1) r) k = ix3 (0 : Fin 1) r (⟨k.val, k.isLt⟩ : Fin 1024) :=
  funext fun a => Fin.ext (by match a with | ⟨0, _⟩ => rfl | ⟨1, _⟩ => rfl | ⟨2, _⟩ => rfl)

theorem rowMax_apply (src : FVec Ideal S1x1024x1024 .f32) (r : Fin 1024) :
    multiReduction (F := Ideal) .maximumf [2] S1x1024 src 0xFF800000#32 reduces_S1x1024x1024_S1x1024 (.inl rfl) rfl (ix2 (0 : Fin 1) r)
      = rowMax (fun u : Fin 1024 => src (ix3 (0 : Fin 1) r u)) := by
  refine (Ideal.multiReduction_maximumf_single src 0xFF800000#32 reduces_S1x1024x1024_S1x1024 (.inl rfl) rfl (ix2 (0 : Fin 1) r)).trans ?_
  have hb : (FloatOps.ofBits (F := Ideal) .f32 0xFF800000#32 : EReal) = ⊥ := neg_inf_word
  rw [hb]
  unfold rowMax
  refine congrArg (Finset.fold max ⊥ · Finset.univ) (funext fun k => ?_)
  exact congrArg src (lift_row r k)

theorem rowSum_apply (src : FVec Ideal S1x1024x1024 .f32) (r : Fin 1024) :
    multiReduction (F := Ideal) .add [2] S1x1024 src 0x00000000#32 reduces_S1x1024x1024_S1x1024 (.inl rfl) rfl (ix2 (0 : Fin 1) r)
      = ∑ u : Fin 1024, src (ix3 (0 : Fin 1) r u) := by
  refine (Ideal.multiReduction_add_single src 0x00000000#32 reduces_S1x1024x1024_S1x1024 (.inl rfl) rfl (ix2 (0 : Fin 1) r)).trans ?_
  refine Finset.sum_congr rfl fun k _ => ?_
  exact congrArg src (lift_row r k)

/-! ## The two products read at an index

Both carry a batch axis of extent one in front. The first contracts the 64 head columns of a query band against a
key band; the second contracts the 1024 key columns of a row of weights against a value band. -/

theorem qk_lhs_0 (j : S1x1024x1024.Idx) (q : dot_S1x1024x64_S1x1024x64_S1x1024x1024_2_2_1_1_0_0.contr.Idx) :
    (dot_S1x1024x64_S1x1024x64_S1x1024x1024_2_2_1_1_0_0.lhsIdx j q 0).val = (j 0).val := by
  unfold DotDims.lhsIdx
  rw [dif_pos (show (0 : Fin S1x1024x64.rank) ∈ dot_S1x1024x64_S1x1024x64_S1x1024x1024_2_2_1_1_0_0.lhsBatch by decide)]
  rfl
theorem qk_lhs_1 (j : S1x1024x1024.Idx) (q : dot_S1x1024x64_S1x1024x64_S1x1024x1024_2_2_1_1_0_0.contr.Idx) :
    (dot_S1x1024x64_S1x1024x64_S1x1024x1024_2_2_1_1_0_0.lhsIdx j q 1).val = (j 1).val := by
  unfold DotDims.lhsIdx
  rw [dif_neg (show ¬(1 : Fin S1x1024x64.rank) ∈ dot_S1x1024x64_S1x1024x64_S1x1024x1024_2_2_1_1_0_0.lhsBatch by decide), dif_pos (show (1 : Fin S1x1024x64.rank) ∈ dot_S1x1024x64_S1x1024x64_S1x1024x1024_2_2_1_1_0_0.lhsNonContracting by decide)]
  rfl
theorem qk_lhs_2 (j : S1x1024x1024.Idx) (q : dot_S1x1024x64_S1x1024x64_S1x1024x1024_2_2_1_1_0_0.contr.Idx) :
    (dot_S1x1024x64_S1x1024x64_S1x1024x1024_2_2_1_1_0_0.lhsIdx j q 2).val = (q ⟨0, by decide⟩).val :=
  dot_S1x1024x64_S1x1024x64_S1x1024x1024_2_2_1_1_0_0.lhsIdx_val_of_single rfl j q
theorem qk_rhs_0 (j : S1x1024x1024.Idx) (q : dot_S1x1024x64_S1x1024x64_S1x1024x1024_2_2_1_1_0_0.contr.Idx) :
    (dot_S1x1024x64_S1x1024x64_S1x1024x1024_2_2_1_1_0_0.rhsIdx j q 0).val = (j 0).val := by
  unfold DotDims.rhsIdx
  rw [dif_pos (show (0 : Fin S1x1024x64.rank) ∈ dot_S1x1024x64_S1x1024x64_S1x1024x1024_2_2_1_1_0_0.rhsBatch by decide)]
  rfl
theorem qk_rhs_1 (j : S1x1024x1024.Idx) (q : dot_S1x1024x64_S1x1024x64_S1x1024x1024_2_2_1_1_0_0.contr.Idx) :
    (dot_S1x1024x64_S1x1024x64_S1x1024x1024_2_2_1_1_0_0.rhsIdx j q 1).val = (j 2).val := by
  unfold DotDims.rhsIdx
  rw [dif_neg (show ¬(1 : Fin S1x1024x64.rank) ∈ dot_S1x1024x64_S1x1024x64_S1x1024x1024_2_2_1_1_0_0.rhsBatch by decide), dif_pos (show (1 : Fin S1x1024x64.rank) ∈ dot_S1x1024x64_S1x1024x64_S1x1024x1024_2_2_1_1_0_0.rhsNonContracting by decide)]
  rfl
theorem qk_rhs_2 (j : S1x1024x1024.Idx) (q : dot_S1x1024x64_S1x1024x64_S1x1024x1024_2_2_1_1_0_0.contr.Idx) :
    (dot_S1x1024x64_S1x1024x64_S1x1024x1024_2_2_1_1_0_0.rhsIdx j q 2).val = (q ⟨0, by decide⟩).val :=
  dot_S1x1024x64_S1x1024x64_S1x1024x1024_2_2_1_1_0_0.rhsIdx_val_of_single rfl j q

/-- Row r of the first operand against row u of the second, over the 64 head columns. -/
theorem qk_apply (A B : FVec Ideal S1x1024x64 .bf16) (r u : Fin 1024) :
    matmul dot_S1x1024x64_S1x1024x64_S1x1024x1024_2_2_1_1_0_0 none A B (constant (F := Ideal) S1x1024x1024 .f32 0x00000000#32) (ix3 (0 : Fin 1) r u)
      = ∑ d : Fin 64, A (ix3 (0 : Fin 1) r d) * B (ix3 (0 : Fin 1) u d) := by
  simp only [matmul]
  rw [Ideal.matmul_constant_zero_apply, ← Equiv.sum_comp (contrEquiv1 dot_S1x1024x64_S1x1024x64_S1x1024x1024_2_2_1_1_0_0 64 rfl rfl).symm]
  refine Finset.sum_congr rfl fun k _ => ?_
  have hk := contrEquiv1_symm_val dot_S1x1024x64_S1x1024x64_S1x1024x1024_2_2_1_1_0_0 64 rfl rfl k
  have el : dot_S1x1024x64_S1x1024x64_S1x1024x1024_2_2_1_1_0_0.lhsIdx (ix3 (0 : Fin 1) r u) ((contrEquiv1 dot_S1x1024x64_S1x1024x64_S1x1024x1024_2_2_1_1_0_0 64 rfl rfl).symm k) = ix3 (0 : Fin 1) r k := funext fun a => Fin.ext (by
    match a with
    | ⟨0, _⟩ => exact qk_lhs_0 _ _
    | ⟨1, _⟩ => exact qk_lhs_1 _ _
    | ⟨2, _⟩ => exact (qk_lhs_2 _ _).trans hk)
  have er : dot_S1x1024x64_S1x1024x64_S1x1024x1024_2_2_1_1_0_0.rhsIdx (ix3 (0 : Fin 1) r u) ((contrEquiv1 dot_S1x1024x64_S1x1024x64_S1x1024x1024_2_2_1_1_0_0 64 rfl rfl).symm k) = ix3 (0 : Fin 1) u k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

theorem pv_lhs_0 (j : S1x1024x64.Idx) (q : dot_S1x1024x1024_S1x1024x64_S1x1024x64_2_1_1_2_0_0.contr.Idx) :
    (dot_S1x1024x1024_S1x1024x64_S1x1024x64_2_1_1_2_0_0.lhsIdx j q 0).val = (j 0).val := by
  unfold DotDims.lhsIdx
  rw [dif_pos (show (0 : Fin S1x1024x1024.rank) ∈ dot_S1x1024x1024_S1x1024x64_S1x1024x64_2_1_1_2_0_0.lhsBatch by decide)]
  rfl
theorem pv_lhs_1 (j : S1x1024x64.Idx) (q : dot_S1x1024x1024_S1x1024x64_S1x1024x64_2_1_1_2_0_0.contr.Idx) :
    (dot_S1x1024x1024_S1x1024x64_S1x1024x64_2_1_1_2_0_0.lhsIdx j q 1).val = (j 1).val := by
  unfold DotDims.lhsIdx
  rw [dif_neg (show ¬(1 : Fin S1x1024x1024.rank) ∈ dot_S1x1024x1024_S1x1024x64_S1x1024x64_2_1_1_2_0_0.lhsBatch by decide), dif_pos (show (1 : Fin S1x1024x1024.rank) ∈ dot_S1x1024x1024_S1x1024x64_S1x1024x64_2_1_1_2_0_0.lhsNonContracting by decide)]
  rfl
theorem pv_lhs_2 (j : S1x1024x64.Idx) (q : dot_S1x1024x1024_S1x1024x64_S1x1024x64_2_1_1_2_0_0.contr.Idx) :
    (dot_S1x1024x1024_S1x1024x64_S1x1024x64_2_1_1_2_0_0.lhsIdx j q 2).val = (q ⟨0, by decide⟩).val :=
  dot_S1x1024x1024_S1x1024x64_S1x1024x64_2_1_1_2_0_0.lhsIdx_val_of_single rfl j q
theorem pv_rhs_0 (j : S1x1024x64.Idx) (q : dot_S1x1024x1024_S1x1024x64_S1x1024x64_2_1_1_2_0_0.contr.Idx) :
    (dot_S1x1024x1024_S1x1024x64_S1x1024x64_2_1_1_2_0_0.rhsIdx j q 0).val = (j 0).val := by
  unfold DotDims.rhsIdx
  rw [dif_pos (show (0 : Fin S1x1024x64.rank) ∈ dot_S1x1024x1024_S1x1024x64_S1x1024x64_2_1_1_2_0_0.rhsBatch by decide)]
  rfl
theorem pv_rhs_1 (j : S1x1024x64.Idx) (q : dot_S1x1024x1024_S1x1024x64_S1x1024x64_2_1_1_2_0_0.contr.Idx) :
    (dot_S1x1024x1024_S1x1024x64_S1x1024x64_2_1_1_2_0_0.rhsIdx j q 1).val = (q ⟨0, by decide⟩).val :=
  dot_S1x1024x1024_S1x1024x64_S1x1024x64_2_1_1_2_0_0.rhsIdx_val_of_single rfl j q
theorem pv_rhs_2 (j : S1x1024x64.Idx) (q : dot_S1x1024x1024_S1x1024x64_S1x1024x64_2_1_1_2_0_0.contr.Idx) :
    (dot_S1x1024x1024_S1x1024x64_S1x1024x64_2_1_1_2_0_0.rhsIdx j q 2).val = (j 2).val := by
  unfold DotDims.rhsIdx
  rw [dif_neg (show ¬(2 : Fin S1x1024x64.rank) ∈ dot_S1x1024x1024_S1x1024x64_S1x1024x64_2_1_1_2_0_0.rhsBatch by decide), dif_pos (show (2 : Fin S1x1024x64.rank) ∈ dot_S1x1024x1024_S1x1024x64_S1x1024x64_2_1_1_2_0_0.rhsNonContracting by decide)]
  rfl

/-- Row r of the weights against head column h of the values, over the 1024 key rows. -/
theorem pv_apply (W : FVec Ideal S1x1024x1024 .bf16) (V : FVec Ideal S1x1024x64 .bf16) (r : Fin 1024) (h : Fin 64) :
    matmul dot_S1x1024x1024_S1x1024x64_S1x1024x64_2_1_1_2_0_0 none W V (constant (F := Ideal) S1x1024x64 .f32 0x00000000#32) (ix3 (0 : Fin 1) r h)
      = ∑ u : Fin 1024, W (ix3 (0 : Fin 1) r u) * V (ix3 (0 : Fin 1) u h) := by
  simp only [matmul]
  rw [Ideal.matmul_constant_zero_apply, ← Equiv.sum_comp (contrEquiv1 dot_S1x1024x1024_S1x1024x64_S1x1024x64_2_1_1_2_0_0 1024 rfl rfl).symm]
  refine Finset.sum_congr rfl fun k _ => ?_
  have hk := contrEquiv1_symm_val dot_S1x1024x1024_S1x1024x64_S1x1024x64_2_1_1_2_0_0 1024 rfl rfl k
  have el : dot_S1x1024x1024_S1x1024x64_S1x1024x64_2_1_1_2_0_0.lhsIdx (ix3 (0 : Fin 1) r h) ((contrEquiv1 dot_S1x1024x1024_S1x1024x64_S1x1024x64_2_1_1_2_0_0 1024 rfl rfl).symm k) = ix3 (0 : Fin 1) r k := funext fun a => Fin.ext (by
    match a with
    | ⟨0, _⟩ => exact pv_lhs_0 _ _
    | ⟨1, _⟩ => exact pv_lhs_1 _ _
    | ⟨2, _⟩ => exact (pv_lhs_2 _ _).trans hk)
  have er : dot_S1x1024x1024_S1x1024x64_S1x1024x64_2_1_1_2_0_0.rhsIdx (ix3 (0 : Fin 1) r h) ((contrEquiv1 dot_S1x1024x1024_S1x1024x64_S1x1024x64_2_1_1_2_0_0 1024 rfl rfl).symm k) = ix3 (0 : Fin 1) k h := funext fun a => Fin.ext (by
    match a with
    | ⟨0, _⟩ => exact pv_rhs_0 _ _
    | ⟨1, _⟩ => exact (pv_rhs_1 _ _).trans hk
    | ⟨2, _⟩ => exact pv_rhs_2 _ _)
  rw [el, er]

theorem m0_apply (r : Fin 1024) : at1 (m0 : Mv Ideal) r = ⊥ := by
  simp only [m0, k1_pay1, shapeCast_self, broadcast_apply]
  exact neg_inf_word
theorem l0_apply (r : Fin 1024) : at1 (l0 : Mv Ideal) r = 0 := by
  simp only [l0, k1_pay2, shapeCast_self, broadcast_apply]
  exact Ideal.ofBits_zero_f32
theorem a0_apply (r : Fin 1024) (h : Fin 64) : at64 (a0 : Av Ideal) r h = 0 := by
  simp only [a0, k1_pay3, shapeCast_self, broadcast_apply]
  exact Ideal.ofBits_zero_f32

/-- The scores the body computes for a tile: query row r against key row u. -/
theorem scores_apply (x0 x1 : Blk Ideal) (r u : Fin 1024) :
    k1_pay11 x0 x1 (ix3 (0 : Fin 1) r u) = sRow x0 x1 r u := by
  unfold k1_pay11 k1_pay10
  simp only [shapeCast_self]
  refine (qk_apply _ _ r u).trans ?_
  unfold sRow qRow kRow
  refine Finset.sum_congr rfl fun d _ => ?_
  rw [sliceQ_apply, sliceK_apply]

/-- The new running maximum of a row. -/
theorem newMax_apply (x0 x1 : Blk Ideal) (m : Mv Ideal) (r : Fin 1024) :
    k1_pay12 x0 x1 m (ix3 (0 : Fin 1) r (0 : Fin 1)) = mNew (sRow x0 x1 r) (at1 m r) := by
  unfold k1_pay12
  refine (maximumf_apply m _ _).trans ?_
  unfold mNew
  refine congrArg (max (at1 m r)) ?_
  refine (col_apply _ r).trans ?_
  refine (rowMax_apply _ r).trans ?_
  exact congrArg rowMax (funext fun u => scores_apply x0 x1 r u)

theorem mF_apply (x0 x1 : Blk Ideal) (m : Mv Ideal) (r : Fin 1024) :
    at1 (mF x0 x1 m) r = mNew (sRow x0 x1 r) (at1 m r) := by
  unfold mF k1_pay5
  simp only [shapeCast_self]
  exact newMax_apply x0 x1 m r
/-- The factor by which a row's old sums decay, and the weight of key u in the row. -/
theorem decay_apply (x0 x1 : Blk Ideal) (m m' : Mv Ideal) (r : Fin 1024) :
    k1_pay13 x0 x1 m m' (ix3 (0 : Fin 1) r (0 : Fin 1)) = Ideal.exp (at1 m' r - mNew (sRow x0 x1 r) (at1 m r)) := by
  unfold k1_pay13
  show Ideal.exp (m' (ix3 (0 : Fin 1) r (0 : Fin 1)) - k1_pay12 x0 x1 m (ix3 (0 : Fin 1) r (0 : Fin 1))) = _
  rw [newMax_apply]

theorem alpha_apply (x0 x1 : Blk Ideal) (m : Mv Ideal) (r : Fin 1024) :
    k1_pay13 x0 x1 m m (ix3 (0 : Fin 1) r (0 : Fin 1)) = alpha (sRow x0 x1 r) (at1 m r) :=
  decay_apply x0 x1 m m r

theorem weight_apply (x0 x1 : Blk Ideal) (m : Mv Ideal) (r u : Fin 1024) :
    k1_pay14 x0 x1 m (ix3 (0 : Fin 1) r u) = pw (sRow x0 x1 r) (at1 m r) u := by
  unfold k1_pay14 pw
  show Ideal.exp (k1_pay11 x0 x1 (ix3 (0 : Fin 1) r u)
    - broadcastTo S1x1024x1024 (k1_pay12 x0 x1 m) broadcasts_S1x1024x1_S1x1024x1024 (ix3 (0 : Fin 1) r u)) = _
  rw [scores_apply, bcast1024_apply, newMax_apply]

theorem lF_apply (x0 x1 : Blk Ideal) (m l : Mv Ideal) (r : Fin 1024) :
    at1 (lF x0 x1 m l) r = lNew (sRow x0 x1 r) (at1 m r) (at1 l r) := by
  unfold lF k1_pay15 lNew
  refine (congrFun (shapeCast_self _ _) _).trans ?_
  refine (addf_apply _ _ _).trans ?_
  refine congrArg₂ (· + ·) ?_ ?_
  · exact (mulf_apply _ _ _).trans (congrArg (· * at1 l r) (alpha_apply x0 x1 m r))
  · refine (col_apply _ r).trans ?_
    refine (rowSum_apply _ r).trans ?_
    exact Finset.sum_congr rfl fun u _ => weight_apply x0 x1 m r u
theorem aF_apply (x0 x1 : Blk Ideal) (m : Mv Ideal) (a : Av Ideal) (r : Fin 1024) (h : Fin 64) :
    at64 (aF x0 x1 m a) r h = aNew (sRow x0 x1 r) (vRow x1) (at1 m r) (at64 a r) h := by
  unfold aF k1_pay4 k1_pay16 aNew
  refine (congrFun (shapeCast_self _ _) _).trans ?_
  refine (addf_apply _ _ _).trans ?_
  refine congrArg₂ (· + ·) ?_ ?_
  · refine (mulf_apply _ _ _).trans ?_
    refine congrArg (· * at64 a r h) ?_
    exact (bcast64_apply _ r h).trans (alpha_apply x0 x1 m r)
  · refine (pv_apply _ _ r h).trans ?_
    refine Finset.sum_congr rfl fun u _ => ?_
    refine congrArg₂ (· * ·) ?_ ?_
    · exact (truncf_apply (ψ := .bf16) (k1_pay14 x0 x1 m) bitsLt_bf16_f32 (ix3 (0 : Fin 1) r u)).trans (weight_apply x0 x1 m r u)
    · refine (sliceV_apply _ u h).trans ?_
      unfold k1_pay10 vRow
      rw [shapeCast_self]

/-- The output block: the numerator over the denominator. -/
theorem outE_apply (a : Av Ideal) (l : Mv Ideal) (r : Fin 1024) (h : Fin 64) :
    at64 (outE a l) r h = Ideal.div (at64 a r h) (at1 l r) := by
  simp only [outE, k1_pay9, divf_apply, bcast64_apply]

end Cert.KernelIdeal.Hand

end
-- ==== Proof.IdFlashIdxD.lean ====
/-
  The diagonal tile, folded into the running triple under the causal mask, read row by row. The mask compares the
  global positions: query row r of tile q against key row u of tile k is kept when q·1024 + r ≥ k·1024 + u; on the
  diagonal q = k, so that is u ≤ r. A masked score is the named constant, which is −∞ on the extended reals.
-/
import proofs.«426603_j13365938225281_3_alg».proof.Proof.IdFlashRows
import proofs.«426603_j13365938225281_3_alg».proof.Proof.IdealWords
import Idealize.ShloMosaic.Lib.Pipeline.Value
import Idealize.ShloMosaic.Lib.ValueLayout
import Idealize.ShloMosaic.PureOps.IdealRules
import Idealize.ShloMosaic.Lib.StableHlo.Predicate

set_option maxRecDepth 16384

noncomputable section

namespace Cert.KernelIdeal.Hand

open Idealize.ShloMosaic Idealize.ShloMosaic.TcCoe
open Idealize.SL.Sem
open Cert.KernelIdeal Cert.KernelIdeal.Gen
open ValueIdx Cert.Attn

/-- The fill of a masked score is −∞. -/
theorem neg_big_eq : Named.named (F := Ideal) Cert.KernelIdeal.κ "neg_big" (φ := .f32) 0xFF333332#32 = (⊥ : EReal) :=
  IdealRules.named_const.ideal_named_scalar _ _ _ _ rfl

theorem lhsQK_0 (i : S1x1024x1024.Idx) (q : dot_S1x1024x64_S1x1024x64_S1x1024x1024_2_2_1_1_0_0.contr.Idx) :
    (dot_S1x1024x64_S1x1024x64_S1x1024x1024_2_2_1_1_0_0.lhsIdx i q 0).val = (i 0).val := by
  unfold DotDims.lhsIdx
  rw [dif_pos (show (0 : Fin S1x1024x64.rank) ∈ dot_S1x1024x64_S1x1024x64_S1x1024x1024_2_2_1_1_0_0.lhsBatch by decide)]
  rfl
theorem lhsQK_1 (i : S1x1024x1024.Idx) (q : dot_S1x1024x64_S1x1024x64_S1x1024x1024_2_2_1_1_0_0.contr.Idx) :
    (dot_S1x1024x64_S1x1024x64_S1x1024x1024_2_2_1_1_0_0.lhsIdx i q 1).val = (i 1).val := by
  unfold DotDims.lhsIdx
  rw [dif_neg (show ¬(1 : Fin S1x1024x64.rank) ∈ dot_S1x1024x64_S1x1024x64_S1x1024x1024_2_2_1_1_0_0.lhsBatch by decide), dif_pos (show (1 : Fin S1x1024x64.rank) ∈ dot_S1x1024x64_S1x1024x64_S1x1024x1024_2_2_1_1_0_0.lhsNonContracting by decide)]
  rfl
theorem lhsQK_2 (i : S1x1024x1024.Idx) (q : dot_S1x1024x64_S1x1024x64_S1x1024x1024_2_2_1_1_0_0.contr.Idx) :
    (dot_S1x1024x64_S1x1024x64_S1x1024x1024_2_2_1_1_0_0.lhsIdx i q 2).val = (q ⟨0, by decide⟩).val :=
  dot_S1x1024x64_S1x1024x64_S1x1024x1024_2_2_1_1_0_0.lhsIdx_val_of_single rfl i q
theorem rhsQK_0 (i : S1x1024x1024.Idx) (q : dot_S1x1024x64_S1x1024x64_S1x1024x1024_2_2_1_1_0_0.contr.Idx) :
    (dot_S1x1024x64_S1x1024x64_S1x1024x1024_2_2_1_1_0_0.rhsIdx i q 0).val = (i 0).val := by
  unfold DotDims.rhsIdx
  rw [dif_pos (show (0 : Fin S1x1024x64.rank) ∈ dot_S1x1024x64_S1x1024x64_S1x1024x1024_2_2_1_1_0_0.rhsBatch by decide)]
  rfl
theorem rhsQK_1 (i : S1x1024x1024.Idx) (q : dot_S1x1024x64_S1x1024x64_S1x1024x1024_2_2_1_1_0_0.contr.Idx) :
    (dot_S1x1024x64_S1x1024x64_S1x1024x1024_2_2_1_1_0_0.rhsIdx i q 1).val = (i 2).val := by
  unfold DotDims.rhsIdx
  rw [dif_neg (show ¬(1 : Fin S1x1024x64.rank) ∈ dot_S1x1024x64_S1x1024x64_S1x1024x1024_2_2_1_1_0_0.rhsBatch by decide), dif_pos (show (1 : Fin S1x1024x64.rank) ∈ dot_S1x1024x64_S1x1024x64_S1x1024x1024_2_2_1_1_0_0.rhsNonContracting by decide)]
  rfl
theorem rhsQK_2 (i : S1x1024x1024.Idx) (q : dot_S1x1024x64_S1x1024x64_S1x1024x1024_2_2_1_1_0_0.contr.Idx) :
    (dot_S1x1024x64_S1x1024x64_S1x1024x1024_2_2_1_1_0_0.rhsIdx i q 2).val = (q ⟨0, by decide⟩).val :=
  dot_S1x1024x64_S1x1024x64_S1x1024x1024_2_2_1_1_0_0.rhsIdx_val_of_single rfl i q

/-- The query-times-key product into a zero accumulator, read at (0, r, u): the inner product of row r of the left
    operand and row u of the right one over the 64 contracted columns. -/
theorem matmulQK_apply (a b : FVec Ideal S1x1024x64 .bf16) (r u : Fin 1024) :
    matmul dot_S1x1024x64_S1x1024x64_S1x1024x1024_2_2_1_1_0_0 none a b (constant (F := Ideal) S1x1024x1024 .f32 0x00000000#32) (ix3 (0 : Fin 1) r u)
      = ∑ d : Fin 64, a (ix3 (0 : Fin 1) r d) * b (ix3 (0 : Fin 1) u d) := by
  simp only [matmul]
  rw [Ideal.matmul_constant_zero_apply, ← Equiv.sum_comp (ValueIdx.contrEquiv1 dot_S1x1024x64_S1x1024x64_S1x1024x1024_2_2_1_1_0_0 64 rfl rfl).symm]
  refine Finset.sum_congr rfl fun k _ => ?_
  have hk := ValueIdx.contrEquiv1_symm_val dot_S1x1024x64_S1x1024x64_S1x1024x1024_2_2_1_1_0_0 64 rfl rfl k
  have el : dot_S1x1024x64_S1x1024x64_S1x1024x1024_2_2_1_1_0_0.lhsIdx (ix3 (0 : Fin 1) r u) ((ValueIdx.contrEquiv1 dot_S1x1024x64_S1x1024x64_S1x1024x1024_2_2_1_1_0_0 64 rfl rfl).symm k) = ix3 (0 : Fin 1) r k := funext fun a => Fin.ext (by
    match a with
    | ⟨0, _⟩ => exact lhsQK_0 _ _
    | ⟨1, _⟩ => exact lhsQK_1 _ _
    | ⟨2, _⟩ => exact (lhsQK_2 _ _).trans hk)
  have er : dot_S1x1024x64_S1x1024x64_S1x1024x1024_2_2_1_1_0_0.rhsIdx (ix3 (0 : Fin 1) r u) ((ValueIdx.contrEquiv1 dot_S1x1024x64_S1x1024x64_S1x1024x1024_2_2_1_1_0_0 64 rfl rfl).symm k) = ix3 (0 : Fin 1) u k := funext fun a => Fin.ext (by
    match a with
    | ⟨0, _⟩ => exact rhsQK_0 _ _
    | ⟨1, _⟩ => exact rhsQK_1 _ _
    | ⟨2, _⟩ => exact (rhsQK_2 _ _).trans hk)
  rw [el, er]

/-- The query columns of a block, read at (0, r, d). -/
theorem qSlice_apply (x0 : Blk Ideal) (r : Fin 1024) (d : Fin 64) :
    extractStridedSlice S1x1024x64 ![0, 0, 0] (shapeCast S1x1024x256 x0 shapeCasts_S1x1024x256_S1x1024x256)
      slices_S1x1024x256_o0_0_0_S1x1024x64 (ix3 (0 : Fin 1) r d) = qRow x0 r d := by
  rw [shapeCast_self]
  refine (extractStridedSlice_apply _ _ _ _ (ix3 (0 : Fin 1) r (⟨d.val, by omega⟩ : Fin 256)) fun a => ?_).trans rfl
  match a with
  | ⟨0, _⟩ => rfl
  | ⟨1, _⟩ => show r.val = 0 + r.val; omega
  | ⟨2, _⟩ => show d.val = 0 + d.val; omega

/-- The key columns of a block, read at (0, u, d). -/
theorem kSlice_apply (x1 : Blk Ideal) (u : Fin 1024) (d : Fin 64) :
    extractStridedSlice S1x1024x64 ![0, 0, 64] (k1_pay17 x1) slices_S1x1024x256_o0_0_64_S1x1024x64 (ix3 (0 : Fin 1) u d)
      = kRow x1 u d := by
  unfold k1_pay17
  rw [shapeCast_self]
  refine (extractStridedSlice_apply _ _ _ _ (ix3 (0 : Fin 1) u (⟨64 + d.val, by omega⟩ : Fin 256)) fun a => ?_).trans rfl
  match a with
  | ⟨0, _⟩ => rfl
  | ⟨1, _⟩ => show u.val = 0 + u.val; omega
  | ⟨2, _⟩ => show 64 + d.val = 64 + d.val; rfl

/-- The value columns of a block, read at (0, u, h). -/
theorem vSlice_apply (x1 : Blk Ideal) (u : Fin 1024) (h : Fin 64) :
    k1_pay18 x1 (ix3 (0 : Fin 1) u h) = vRow x1 u h := by
  unfold k1_pay18 k1_pay17
  rw [shapeCast_self]
  refine (extractStridedSlice_apply _ _ _ _ (ix3 (0 : Fin 1) u (⟨128 + h.val, by omega⟩ : Fin 256)) fun a => ?_).trans rfl
  match a with
  | ⟨0, _⟩ => rfl
  | ⟨1, _⟩ => show u.val = 0 + u.val; omega
  | ⟨2, _⟩ => show 128 + h.val = 128 + h.val; rfl

/-- The global position of row r of tile q (q = 0 or 1) as a 32-bit word: r + 1024·q, no wrap. -/
theorem pos_toNat (q : BitVec 32) (hq : q = 0#32 ∨ q = 1#32) (r : Fin 1024) :
    (IntOp.addi (BitVec.ofNat 32 r.val) (Scalar.muli q 1024#32)).toNat = r.val + q.toNat * 1024 := by
  have hr := r.isLt
  rcases hq with rfl | rfl
  · show (BitVec.ofNat 32 r.val + 0#32 * 1024#32).toNat = _
    simp only [BitVec.toNat_add, BitVec.toNat_ofNat, BitVec.toNat_mul]
    omega
  · show (BitVec.ofNat 32 r.val + 1#32 * 1024#32).toNat = _
    simp only [BitVec.toNat_add, BitVec.toNat_ofNat, BitVec.toNat_mul]
    omega

/-- The causal mask of a diagonal tile at (0, r, u): the bit is 1 exactly when u ≤ r. -/
theorem mask_apply (q : BitVec 32) (hq : q = 0#32 ∨ q = 1#32) (r u : Fin 1024) :
    cmpi .sge (addi (iota .tc S1x1024x1024 32 [1] iota_S1x1024x1024_d1_w32) (broadcast S1x1024x1024 (Scalar.muli q 1024#32)))
      (addi (iota .tc S1x1024x1024 32 [2] iota_S1x1024x1024_d2_w32) (broadcast S1x1024x1024 (Scalar.muli q 1024#32)))
      (ix3 (0 : Fin 1) r u) = if u.val ≤ r.val then 1#1 else 0#1 := by
  show IntOp.cmpi .sge
      (IntOp.addi (iota .tc S1x1024x1024 32 [1] iota_S1x1024x1024_d1_w32 (ix3 (0 : Fin 1) r u)) (Scalar.muli q 1024#32))
      (IntOp.addi (iota .tc S1x1024x1024 32 [2] iota_S1x1024x1024_d2_w32 (ix3 (0 : Fin 1) r u)) (Scalar.muli q 1024#32)) = _
  rw [iota_single_apply, iota_single_apply]
  show IntOp.cmpi .sge (IntOp.addi (BitVec.ofNat 32 r.val) (Scalar.muli q 1024#32))
      (IntOp.addi (BitVec.ofNat 32 u.val) (Scalar.muli q 1024#32)) = _
  have hr := pos_toNat q hq r
  have hu := pos_toNat q hq u
  have hqn : q.toNat ≤ 1 := by rcases hq with rfl | rfl <;> decide
  have hrl := r.isLt
  have hul := u.isLt
  have key := StableHlo.Predicate.sge_iff_toNat
    (a := IntOp.addi (BitVec.ofNat 32 r.val) (Scalar.muli q 1024#32))
    (b := IntOp.addi (BitVec.ofNat 32 u.val) (Scalar.muli q 1024#32)) (by rw [hr]; omega) (by rw [hu]; omega)
  rw [hr, hu] at key
  by_cases h : u.val ≤ r.val
  · rw [if_pos h]; exact key.mpr (by omega)
  · rw [if_neg h]; exact eq_zero_of_ne_one fun h1 => h (by have := key.mp h1; omega)

/-- The masked scores the body computes on a diagonal tile (tile number `q` both ways, 0 or 1). -/
theorem scoresM_apply (q : BitVec 32) (hq : q = 0#32 ∨ q = 1#32) (x0 x1 : Blk Ideal) (r u : Fin 1024) :
    k1_pay19 q q x0 x1 (ix3 (0 : Fin 1) r u) = sRowM x0 x1 r u := by
  unfold k1_pay19
  refine (select_apply _ _ _ _).trans ?_
  rw [mask_apply q hq r u, matmulQK_apply, broadcast_apply, neg_big_eq]
  unfold sRowM sRow
  by_cases h : u.val ≤ r.val
  · rw [if_pos h, if_pos h, select_one]
    exact Finset.sum_congr rfl fun d _ => by rw [qSlice_apply, kSlice_apply]
  · rw [if_neg h, if_neg h, select_zero]

/-- A row vector [1, 1024] viewed as a column [1, 1024, 1], read at (0, r, 0). -/
theorem colCast_apply {α : Type} (v : S1x1024.Idx → α) (r : Fin 1024) :
    shapeCast S1x1024x1 v shapeCasts_S1x1024_S1x1024x1 (ix3 (0 : Fin 1) r (0 : Fin 1)) = v (ix2 (0 : Fin 1) r) :=
  shapeCast_apply v _ _ _ (by
    rw [Shape.rowMajor_val_three, Shape.rowMajor_val_two]
    show 0 * 1024 + r.val = (0 * 1024 + r.val) * 1 + 0
    omega)

/-- A column [1, 1024, 1] spread along 1024 lanes, read at (0, r, u). -/
theorem spread1024_apply {α : Type} (v : S1x1024x1.Idx → α) (r u : Fin 1024) :
    broadcastTo S1x1024x1024 v broadcasts_S1x1024x1_S1x1024x1024 (ix3 (0 : Fin 1) r u) = v (ix3 (0 : Fin 1) r (0 : Fin 1)) := by
  refine broadcastTo_apply v _ _ (ix3 (0 : Fin 1) r (0 : Fin 1)) fun a => ?_
  match a with
  | ⟨0, _⟩ => rfl
  | ⟨1, _⟩ => rfl
  | ⟨2, _⟩ => rfl

/-- A column [1, 1024, 1] spread along the 64 head columns, read at (0, r, h). -/
theorem spread64_apply {α : Type} (v : S1x1024x1.Idx → α) (r : Fin 1024) (h : Fin 64) :
    broadcastTo S1x1024x64 v broadcasts_S1x1024x1_S1x1024x64 (ix3 (0 : Fin 1) r h) = v (ix3 (0 : Fin 1) r (0 : Fin 1)) := by
  refine broadcastTo_apply v _ _ (ix3 (0 : Fin 1) r (0 : Fin 1)) fun a => ?_
  match a with
  | ⟨0, _⟩ => rfl
  | ⟨1, _⟩ => rfl
  | ⟨2, _⟩ => rfl

/-- The lane maximum of a [1, 1024, 1024] tile from −∞, read at row r: the fold of max over the row. -/
theorem laneMax_apply (src : FVec Ideal S1x1024x1024 .f32) (r : Fin 1024) :
    multiReduction (F := Ideal) .maximumf [2] S1x1024 src 0xFF800000#32 reduces_S1x1024x1024_S1x1024 (.inl rfl) rfl (ix2 (0 : Fin 1) r)
      = rowMax (fun u : Fin 1024 => src (ix3 (0 : Fin 1) r u)) := by
  refine (Ideal.multiReduction_maximumf_single src 0xFF800000#32 reduces_S1x1024x1024_S1x1024 (.inl rfl) rfl (ix2 (0 : Fin 1) r)).trans ?_
  unfold rowMax
  rw [show (FloatOps.ofBits .f32 0xFF800000#32 : Ideal .f32) = (⊥ : EReal) from neg_inf_word]
  exact congrArg (Finset.univ.fold max ⊥) (funext fun k => congrArg src (funext fun a => Fin.ext (by
    match a with
    | ⟨0, _⟩ => rfl
    | ⟨1, _⟩ => rfl
    | ⟨2, _⟩ => rfl)))

/-- The lane sum of a [1, 1024, 1024] tile from 0, read at row r: the sum over the row. -/
theorem laneSum_apply (src : FVec Ideal S1x1024x1024 .f32) (r : Fin 1024) :
    multiReduction (F := Ideal) .add [2] S1x1024 src 0x00000000#32 reduces_S1x1024x1024_S1x1024 (.inl rfl) rfl (ix2 (0 : Fin 1) r)
      = ∑ u : Fin 1024, src (ix3 (0 : Fin 1) r u) := by
  refine (Ideal.multiReduction_add_single src 0x00000000#32 reduces_S1x1024x1024_S1x1024 (.inl rfl) rfl (ix2 (0 : Fin 1) r)).trans ?_
  exact Finset.sum_congr rfl fun k _ => congrArg src (funext fun a => Fin.ext (by
    match a with
    | ⟨0, _⟩ => rfl
    | ⟨1, _⟩ => rfl
    | ⟨2, _⟩ => rfl))

theorem lhsPV_0 (i : S1x1024x64.Idx) (q : dot_S1x1024x1024_S1x1024x64_S1x1024x64_2_1_1_2_0_0.contr.Idx) :
    (dot_S1x1024x1024_S1x1024x64_S1x1024x64_2_1_1_2_0_0.lhsIdx i q 0).val = (i 0).val := by
  unfold DotDims.lhsIdx
  rw [dif_pos (show (0 : Fin S1x1024x1024.rank) ∈ dot_S1x1024x1024_S1x1024x64_S1x1024x64_2_1_1_2_0_0.lhsBatch by decide)]
  rfl
theorem lhsPV_1 (i : S1x1024x64.Idx) (q : dot_S1x1024x1024_S1x1024x64_S1x1024x64_2_1_1_2_0_0.contr.Idx) :
    (dot_S1x1024x1024_S1x1024x64_S1x1024x64_2_1_1_2_0_0.lhsIdx i q 1).val = (i 1).val := by
  unfold DotDims.lhsIdx
  rw [dif_neg (show ¬(1 : Fin S1x1024x1024.rank) ∈ dot_S1x1024x1024_S1x1024x64_S1x1024x64_2_1_1_2_0_0.lhsBatch by decide), dif_pos (show (1 : Fin S1x1024x1024.rank) ∈ dot_S1x1024x1024_S1x1024x64_S1x1024x64_2_1_1_2_0_0.lhsNonContracting by decide)]
  rfl
theorem lhsPV_2 (i : S1x1024x64.Idx) (q : dot_S1x1024x1024_S1x1024x64_S1x1024x64_2_1_1_2_0_0.contr.Idx) :
    (dot_S1x1024x1024_S1x1024x64_S1x1024x64_2_1_1_2_0_0.lhsIdx i q 2).val = (q ⟨0, by decide⟩).val :=
  dot_S1x1024x1024_S1x1024x64_S1x1024x64_2_1_1_2_0_0.lhsIdx_val_of_single rfl i q
theorem rhsPV_0 (i : S1x1024x64.Idx) (q : dot_S1x1024x1024_S1x1024x64_S1x1024x64_2_1_1_2_0_0.contr.Idx) :
    (dot_S1x1024x1024_S1x1024x64_S1x1024x64_2_1_1_2_0_0.rhsIdx i q 0).val = (i 0).val := by
  unfold DotDims.rhsIdx
  rw [dif_pos (show (0 : Fin S1x1024x64.rank) ∈ dot_S1x1024x1024_S1x1024x64_S1x1024x64_2_1_1_2_0_0.rhsBatch by decide)]
  rfl
theorem rhsPV_1 (i : S1x1024x64.Idx) (q : dot_S1x1024x1024_S1x1024x64_S1x1024x64_2_1_1_2_0_0.contr.Idx) :
    (dot_S1x1024x1024_S1x1024x64_S1x1024x64_2_1_1_2_0_0.rhsIdx i q 1).val = (q ⟨0, by decide⟩).val :=
  dot_S1x1024x1024_S1x1024x64_S1x1024x64_2_1_1_2_0_0.rhsIdx_val_of_single rfl i q
theorem rhsPV_2 (i : S1x1024x64.Idx) (q : dot_S1x1024x1024_S1x1024x64_S1x1024x64_2_1_1_2_0_0.contr.Idx) :
    (dot_S1x1024x1024_S1x1024x64_S1x1024x64_2_1_1_2_0_0.rhsIdx i q 2).val = (i 2).val := by
  unfold DotDims.rhsIdx
  rw [dif_neg (show ¬(2 : Fin S1x1024x64.rank) ∈ dot_S1x1024x1024_S1x1024x64_S1x1024x64_2_1_1_2_0_0.rhsBatch by decide), dif_pos (show (2 : Fin S1x1024x64.rank) ∈ dot_S1x1024x1024_S1x1024x64_S1x1024x64_2_1_1_2_0_0.rhsNonContracting by decide)]
  rfl

/-- The weights-times-values product into a zero accumulator, read at (0, r, h): the sum over the tile's 1024 keys of
    the weight of key u in row r times the value of key u at head column h. -/
theorem matmulPV_apply (a : FVec Ideal S1x1024x1024 .bf16) (b : FVec Ideal S1x1024x64 .bf16) (r : Fin 1024) (h : Fin 64) :
    matmul dot_S1x1024x1024_S1x1024x64_S1x1024x64_2_1_1_2_0_0 none a b (constant (F := Ideal) S1x1024x64 .f32 0x00000000#32) (ix3 (0 : Fin 1) r h)
      = ∑ u : Fin 1024, a (ix3 (0 : Fin 1) r u) * b (ix3 (0 : Fin 1) u h) := by
  simp only [matmul]
  rw [Ideal.matmul_constant_zero_apply, ← Equiv.sum_comp (ValueIdx.contrEquiv1 dot_S1x1024x1024_S1x1024x64_S1x1024x64_2_1_1_2_0_0 1024 rfl rfl).symm]
  refine Finset.sum_congr rfl fun k _ => ?_
  have hk := ValueIdx.contrEquiv1_symm_val dot_S1x1024x1024_S1x1024x64_S1x1024x64_2_1_1_2_0_0 1024 rfl rfl k
  have el : dot_S1x1024x1024_S1x1024x64_S1x1024x64_2_1_1_2_0_0.lhsIdx (ix3 (0 : Fin 1) r h) ((ValueIdx.contrEquiv1 dot_S1x1024x1024_S1x1024x64_S1x1024x64_2_1_1_2_0_0 1024 rfl rfl).symm k) = ix3 (0 : Fin 1) r k := funext fun a => Fin.ext (by
    match a with
    | ⟨0, _⟩ => exact lhsPV_0 _ _
    | ⟨1, _⟩ => exact lhsPV_1 _ _
    | ⟨2, _⟩ => exact (lhsPV_2 _ _).trans hk)
  have er : dot_S1x1024x1024_S1x1024x64_S1x1024x64_2_1_1_2_0_0.rhsIdx (ix3 (0 : Fin 1) r h) ((ValueIdx.contrEquiv1 dot_S1x1024x1024_S1x1024x64_S1x1024x64_2_1_1_2_0_0 1024 rfl rfl).symm k) = ix3 (0 : Fin 1) k h := funext fun a => Fin.ext (by
    match a with
    | ⟨0, _⟩ => exact rhsPV_0 _ _
    | ⟨1, _⟩ => exact (rhsPV_1 _ _).trans hk
    | ⟨2, _⟩ => exact rhsPV_2 _ _)
  rw [el, er]

/-- The running maximum after the diagonal tile, at row r. -/
theorem mStep_apply (q : BitVec 32) (hq : q = 0#32 ∨ q = 1#32) (x0 x1 : Blk Ideal) (m : Mv Ideal) (r : Fin 1024) :
    k1_pay20 q q x0 x1 m (ix3 (0 : Fin 1) r (0 : Fin 1)) = mNew (sRowM x0 x1 r) (at1 m r) := by
  unfold k1_pay20
  refine (maximumf_apply _ _ _).trans ?_
  rw [colCast_apply, laneMax_apply]
  unfold mNew
  exact congrArg (fun s => max (m (ix3 (0 : Fin 1) r (0 : Fin 1))) (rowMax s)) (funext fun u => scoresM_apply q hq x0 x1 r u)

/-- The rescaling factor e^(m − m') at row r. -/
theorem alphaStep_apply (q : BitVec 32) (hq : q = 0#32 ∨ q = 1#32) (x0 x1 : Blk Ideal) (m : Mv Ideal) (r : Fin 1024) :
    k1_pay21 q q x0 x1 m m (ix3 (0 : Fin 1) r (0 : Fin 1)) = alpha (sRowM x0 x1 r) (at1 m r) := by
  unfold k1_pay21
  show Ideal.exp (m (ix3 (0 : Fin 1) r (0 : Fin 1)) - k1_pay20 q q x0 x1 m (ix3 (0 : Fin 1) r (0 : Fin 1))) = _
  rw [mStep_apply q hq]
  rfl

/-- The weight e^(s u − m') of key u in row r. -/
theorem pStep_apply (q : BitVec 32) (hq : q = 0#32 ∨ q = 1#32) (x0 x1 : Blk Ideal) (m : Mv Ideal) (r u : Fin 1024) :
    k1_pay22 q q x0 x1 m (ix3 (0 : Fin 1) r u) = pw (sRowM x0 x1 r) (at1 m r) u := by
  unfold k1_pay22
  show Ideal.exp (k1_pay19 q q x0 x1 (ix3 (0 : Fin 1) r u)
    - broadcastTo S1x1024x1024 (k1_pay20 q q x0 x1 m) broadcasts_S1x1024x1_S1x1024x1024 (ix3 (0 : Fin 1) r u)) = _
  rw [spread1024_apply, scoresM_apply q hq, mStep_apply q hq]
  rfl

theorem mD_apply (q : BitVec 32) (hq : q = 0#32 ∨ q = 1#32) (x0 x1 : Blk Ideal) (m : Mv Ideal) (r : Fin 1024) :
    at1 (mD q q x0 x1 m) r = mNew (sRowM x0 x1 r) (at1 m r) := by
  unfold mD k1_pay8
  rw [shapeCast_self]
  exact mStep_apply q hq x0 x1 m r

theorem lD_apply (q : BitVec 32) (hq : q = 0#32 ∨ q = 1#32) (x0 x1 : Blk Ideal) (m l : Mv Ideal) (r : Fin 1024) :
    at1 (lD q q x0 x1 m l) r = lNew (sRowM x0 x1 r) (at1 m r) (at1 l r) := by
  unfold lD k1_pay6 k1_pay23
  rw [shapeCast_self]
  refine (addf_apply _ _ _).trans ?_
  rw [mulf_apply, alphaStep_apply q hq, colCast_apply, laneSum_apply]
  unfold lNew
  exact congrArg (fun t => alpha (sRowM x0 x1 r) (m (ix3 (0 : Fin 1) r (0 : Fin 1))) * l (ix3 (0 : Fin 1) r (0 : Fin 1)) + t)
    (Finset.sum_congr rfl fun u _ => pStep_apply q hq x0 x1 m r u)

theorem aD_apply (q : BitVec 32) (hq : q = 0#32 ∨ q = 1#32) (x0 x1 : Blk Ideal) (m : Mv Ideal) (a : Av Ideal) (r : Fin 1024) (h : Fin 64) :
    at64 (aD q q x0 x1 m a) r h = aNew (sRowM x0 x1 r) (vRow x1) (at1 m r) (at64 a r) h := by
  unfold aD k1_pay7
  refine (congrFun (shapeCast_self _ _) _).trans ?_
  refine (addf_apply _ _ _).trans ?_
  rw [mulf_apply, spread64_apply, alphaStep_apply q hq, matmulPV_apply]
  unfold aNew
  exact congrArg (fun t => alpha (sRowM x0 x1 r) (m (ix3 (0 : Fin 1) r (0 : Fin 1))) * a (ix3 (0 : Fin 1) r h) + t)
    (Finset.sum_congr rfl fun u _ => by rw [truncf_apply, pStep_apply q hq, vSlice_apply])

end Cert.KernelIdeal.Hand

end
-- ==== Proof.IdBridge.lean ====
/-
  The kernel's result read at an index, when the inputs are real numbers: it is causal attention over the reals.
  The projected array's three column groups are the scaled queries, the keys and the values of x, all real; a query
  row's scores against a tile's keys are the spec's scores (the scale 2⁻⁵ moved from the weights to the scores); on a
  diagonal tile the kept keys are those at or before the query. A row of the first query tile goes through one online
  step from the reset state, a row of the second through two, and the one-tile and two-tile laws of the online step
  give the kept keys' weighted mean, which is the spec's value at that row.
-/
import proofs.«426603_j13365938225281_3_alg».proof.Proof.IdBridgeRows
import proofs.«426603_j13365938225281_3_alg».proof.Proof.IdValue0
import proofs.«426603_j13365938225281_3_alg».proof.Proof.IdValue1
import proofs.«426603_j13365938225281_3_alg».proof.Proof.IdFlashIdxF
import proofs.«426603_j13365938225281_3_alg».proof.Proof.IdFlashIdxD
import proofs.«426603_j13365938225281_3_alg».proof.Proof.AttnSpec
import proofs.«426603_j13365938225281_3_alg».proof.Proof.IdealWords

set_option maxRecDepth 16384

noncomputable section

namespace Cert.KernelIdeal.Hand

open Idealize.ShloMosaic Idealize.ShloMosaic.TcCoe
open Idealize.SL.Sem
open Cert.KernelIdeal Cert.KernelIdeal.Gen
open ValueIdx Cert.Attn

variable (m : (ℓ : Loc nD τ sig) → Buf (Elt Ideal) ℓ) (ρ : Dev nD → PrngReg)

/-- The result array when the program returns, as a function of its index. -/
abbrev resA (c : Dev nD) : S4x2048x64.Idx → EReal := W5 m ρ c (Proc.devRef .tc main_v7)

/-- Tile 0's position r is r; tile 1's is 1024 + r. -/
theorem tpos_lo (n : ℕ) (hn : n < 2) (hz : n = 0) (r : Fin 1024) : tpos n hn r = lo r := by
  subst hz; exact Fin.ext (by show 1024 * 0 + r.val = r.val; omega)
theorem tpos_hi (n : ℕ) (hn : n < 2) (ho : n = 1) (r : Fin 1024) : tpos n hn r = hi r := by
  subst ho; exact Fin.ext (by show 1024 * 1 + r.val = 1024 + r.val; omega)

/-- A row of the first query tile: one online step from the reset state over the diagonal tile, whose kept keys are
    those at or before the query; the one-tile law gives the kept keys' weighted mean. -/
theorem kernel_lo (c : Dev nD) (xr : Fin 4 → Fin 2048 → Fin 1024 → ℝ) (wkr wqr wvr : Fin 1024 → Fin 64 → ℝ)
    (h0 : ∀ b t k, xA m c (ix3 b t k) = (xr b t k : EReal)) (h1 : ∀ k h, wkA m c (ix2 k h) = (wkr k h : EReal))
    (h2 : ∀ k h, wqA m c (ix2 k h) = (wqr k h : EReal)) (h3 : ∀ k h, wvA m c (ix2 k h) = (wvr k h : EReal))
    (b : Fin 4) (r : Fin 1024) (h : Fin 64) :
    outA (V4 m ρ) c (ix3 b (lo r) h) = (spec xr wkr wqr wvr b (lo r) h : EReal) := by
  rw [out_apply_lo, outE_apply]
  dsimp only [stepD, reset]
  have hq0 : qw (grid1.coords (pt b 0 0)) = 0#32 := qw_pt b 0 0
  have hk0 : kw (grid1.coords (pt b 0 0)) = 0#32 := kw_pt b 0 0
  rw [hq0, hk0, aD_apply 0#32 (Or.inl rfl), lD_apply 0#32 (Or.inl rfl), m0_apply, l0_apply,
    show at64 (a0 : Av Ideal) r = fun _ => 0 from funext fun h => a0_apply r h]
  -- the diagonal tile's masked scores and its values, over the reals
  have hs : sRowM (qB (V4 m ρ) c (pt b 0 0)) (kB (V4 m ρ) c (pt b 0 0)) r
      = masked (fun u : Fin 1024 => decide (u.val ≤ r.val)) (fun u => score xr wqr wkr b (lo r) (lo u)) := by
    funext u
    unfold sRowM masked
    rw [sRow_real m ρ c xr wkr wqr wvr h0 h1 h2 h3 b 0 0 r u,
      tpos_lo (0 : Fin 2).val _ rfl r, tpos_lo (min (0 : Fin 2).val (0 : Fin 2).val) _ rfl u]
    by_cases hu : u.val ≤ r.val
    · rw [if_pos hu, if_pos (decide_eq_true hu)]
    · rw [if_neg hu, if_neg (by simpa using hu)]
  have hv : vRow (kB (V4 m ρ) c (pt b 0 0)) = fun u h => ((proj xr wvr b (lo u) h : ℝ) : EReal) := by
    funext u h
    rw [vRow_real m ρ c xr wkr wqr wvr h0 h1 h2 h3 b 0 0 u h, tpos_lo (min (0 : Fin 2).val (0 : Fin 2).val) _ rfl u]
  rw [hs, hv, one_tile _ _ _ ⟨r, decide_eq_true (le_refl _)⟩]
  unfold spec
  rw [attnRow_lo]

/-- A row of the second query tile: the first key tile (every key kept) folded into the reset state, then the diagonal
    tile under its mask; the two-tile law gives the kept keys of both tiles together. -/
theorem kernel_hi (c : Dev nD) (xr : Fin 4 → Fin 2048 → Fin 1024 → ℝ) (wkr wqr wvr : Fin 1024 → Fin 64 → ℝ)
    (h0 : ∀ b t k, xA m c (ix3 b t k) = (xr b t k : EReal)) (h1 : ∀ k h, wkA m c (ix2 k h) = (wkr k h : EReal))
    (h2 : ∀ k h, wqA m c (ix2 k h) = (wqr k h : EReal)) (h3 : ∀ k h, wvA m c (ix2 k h) = (wvr k h : EReal))
    (b : Fin 4) (r : Fin 1024) (h : Fin 64) :
    outA (V4 m ρ) c (ix3 b (hi r) h) = (spec xr wkr wqr wvr b (hi r) h : EReal) := by
  rw [out_apply_hi, outE_apply]
  dsimp only [stepD, stepF, reset]
  have hq1 : qw (grid1.coords (pt b 1 1)) = 1#32 := qw_pt b 1 1
  have hk1 : kw (grid1.coords (pt b 1 1)) = 1#32 := kw_pt b 1 1
  rw [hq1, hk1, aD_apply 1#32 (Or.inr rfl), lD_apply 1#32 (Or.inr rfl), mF_apply, lF_apply, m0_apply, l0_apply,
    show at64 (aF (qB (V4 m ρ) c (pt b 1 0)) (kB (V4 m ρ) c (pt b 1 0)) m0 a0) r
        = aNew (sRow (qB (V4 m ρ) c (pt b 1 0)) (kB (V4 m ρ) c (pt b 1 0)) r) (vRow (kB (V4 m ρ) c (pt b 1 0))) ⊥ (fun _ => 0) from
      funext fun h => by
        rw [aF_apply, m0_apply, show at64 (a0 : Av Ideal) r = fun _ => 0 from funext fun h => a0_apply r h]]
  -- the first key tile's scores and values, and the diagonal tile's, over the reals
  have hs0 : sRow (qB (V4 m ρ) c (pt b 1 0)) (kB (V4 m ρ) c (pt b 1 0)) r
      = fun u : Fin 1024 => ((score xr wqr wkr b (hi r) (lo u) : ℝ) : EReal) := by
    funext u
    rw [sRow_real m ρ c xr wkr wqr wvr h0 h1 h2 h3 b 1 0 r u,
      tpos_hi (1 : Fin 2).val _ rfl r, tpos_lo (min (0 : Fin 2).val (1 : Fin 2).val) _ rfl u]
  have hv0 : vRow (kB (V4 m ρ) c (pt b 1 0)) = fun u h => ((proj xr wvr b (lo u) h : ℝ) : EReal) := by
    funext u h
    rw [vRow_real m ρ c xr wkr wqr wvr h0 h1 h2 h3 b 1 0 u h, tpos_lo (min (0 : Fin 2).val (1 : Fin 2).val) _ rfl u]
  have hs1 : sRowM (qB (V4 m ρ) c (pt b 1 1)) (kB (V4 m ρ) c (pt b 1 1)) r
      = masked (fun u : Fin 1024 => decide (u.val ≤ r.val)) (fun u => score xr wqr wkr b (hi r) (hi u)) := by
    funext u
    unfold sRowM masked
    rw [sRow_real m ρ c xr wkr wqr wvr h0 h1 h2 h3 b 1 1 r u,
      tpos_hi (1 : Fin 2).val _ rfl r, tpos_hi (min (1 : Fin 2).val (1 : Fin 2).val) _ rfl u]
    by_cases hu : u.val ≤ r.val
    · rw [if_pos hu, if_pos (decide_eq_true hu)]
    · rw [if_neg hu, if_neg (by simpa using hu)]
  have hv1 : vRow (kB (V4 m ρ) c (pt b 1 1)) = fun u h => ((proj xr wvr b (hi u) h : ℝ) : EReal) := by
    funext u h
    rw [vRow_real m ρ c xr wkr wqr wvr h0 h1 h2 h3 b 1 1 u h, tpos_hi (min (1 : Fin 2).val (1 : Fin 2).val) _ rfl u]
  rw [hs0, hv0, hs1, hv1]
  refine (two_tiles (by norm_num) (fun u : Fin 1024 => score xr wqr wkr b (hi r) (lo u)) (fun u h => proj xr wvr b (lo u) h)
    (fun u : Fin 1024 => decide (u.val ≤ r.val)) (fun u => score xr wqr wkr b (hi r) (hi u)) (fun u h => proj xr wvr b (hi u) h)
    ⟨r, decide_eq_true (le_refl _)⟩ h).trans ?_
  unfold spec
  rw [attnRow_hi]

/-- The kernel's result at (b, t, h), the inputs being the real arrays `xr`, `wkr`, `wqr`, `wvr` entry by entry. -/
theorem kernel_apply (c : Dev nD) (xr : Fin 4 → Fin 2048 → Fin 1024 → ℝ) (wkr wqr wvr : Fin 1024 → Fin 64 → ℝ)
    (h0 : ∀ b t k, xA m c (ix3 b t k) = (xr b t k : EReal)) (h1 : ∀ k h, wkA m c (ix2 k h) = (wkr k h : EReal))
    (h2 : ∀ k h, wqA m c (ix2 k h) = (wqr k h : EReal)) (h3 : ∀ k h, wvA m c (ix2 k h) = (wvr k h : EReal))
    (b : Fin 4) (t : Fin 2048) (h : Fin 64) :
    resA m ρ c (ix3 b t h) = (spec xr wkr wqr wvr b t h : EReal) := by
  have hres : resA m ρ c (ix3 b t h) = outA (V4 m ρ) c (ix3 b t h) := congrFun (W5_result m ρ c) _
  rw [hres]
  have htl := t.isLt
  by_cases ht : t.val < 1024
  · obtain ⟨r, rfl⟩ : ∃ r : Fin 1024, t = lo r := ⟨⟨t.val, ht⟩, Fin.ext rfl⟩
    exact kernel_lo m ρ c xr wkr wqr wvr h0 h1 h2 h3 b r h
  · obtain ⟨r, rfl⟩ : ∃ r : Fin 1024, t = hi r :=
      ⟨⟨t.val - 1024, by omega⟩, Fin.ext (by show t.val = 1024 + (t.val - 1024); omega)⟩
    exact kernel_hi m ρ c xr wkr wqr wvr h0 h1 h2 h3 b r h

end Cert.KernelIdeal.Hand

end
-- ==== Proof.RefValue.lean ====
/-
  The reference's result read at an index, when the inputs are real numbers: it is causal attention over the reals.
  The reference projects x through the three weight matrices, scores queries against keys and scales by 1/32, puts −∞
  where the key lies after the query, subtracts the row's maximum, exponentiates, divides by the row's sum and takes
  the weighted sum of the values. The row's maximum is a real number (the diagonal key is always kept), and that is all
  that is used of it: a common shift of the scores cancels in the quotient.
-/
import proofs.«426603_j13365938225281_3_alg».proof.Proof.Gen.ReferenceIdeal.Run
import proofs.«426603_j13365938225281_3_alg».proof.Proof.Gen.ReferenceIdeal.Read
import proofs.«426603_j13365938225281_3_alg».proof.Proof.LibOnlineSoftmax
import proofs.«426603_j13365938225281_3_alg».proof.Proof.AttnSpec
import proofs.«426603_j13365938225281_3_alg».proof.Proof.IdealWords
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

set_option maxRecDepth 16384

noncomputable section

namespace Cert.ReferenceIdeal.RefValue

open Idealize.ShloMosaic Idealize.ShloMosaic.TcCoe
open Idealize.SL.Sem
open Cert.ReferenceIdeal Cert.ReferenceIdeal.Gen
open ValueIdx Cert.Attn

/-! ## The projections at an index -/

theorem proj_k (xr : Fin 4 → Fin 2048 → Fin 1024 → ℝ) (wkr : Fin 1024 → Fin 64 → ℝ)
    (x0 : (⟨S4x2048x1024, .f32⟩ : BufTy).Contents (Elt Ideal)) (x1 : (⟨S1024x64, .f32⟩ : BufTy).Contents (Elt Ideal))
    (h0 : ∀ b t c, x0 (ix3 b t c) = (xr b t c : EReal)) (h1 : ∀ c h, x1 (ix2 c h) = (wkr c h : EReal))
    (b : Fin 4) (u : Fin 2048) (k : Fin 64) :
    Read.val_main_v0 (F := Ideal) x0 x1 (ix3 b u k) = (proj xr wkr b u k : EReal) := by
  rw [Read.val_main_v0_apply]
  have el : ∀ c : Fin 1024, Read.lidx_main_v0 (ix3 b u k) c = ix3 b u c := fun c =>
    funext fun a => Fin.ext (by match a with | ⟨0, _⟩ => rfl | ⟨1, _⟩ => rfl | ⟨2, _⟩ => rfl)
  have er : ∀ c : Fin 1024, Read.ridx_main_v0 (ix3 b u k) c = ix2 c k := fun c =>
    funext fun a => Fin.ext (by match a with | ⟨0, _⟩ => rfl | ⟨1, _⟩ => rfl)
  simp only [el, er, h0, h1, ← EReal.coe_mul]
  rw [← coe_sum]; rfl

theorem proj_q (xr : Fin 4 → Fin 2048 → Fin 1024 → ℝ) (wqr : Fin 1024 → Fin 64 → ℝ)
    (x0 : (⟨S4x2048x1024, .f32⟩ : BufTy).Contents (Elt Ideal)) (x2 : (⟨S1024x64, .f32⟩ : BufTy).Contents (Elt Ideal))
    (h0 : ∀ b t c, x0 (ix3 b t c) = (xr b t c : EReal)) (h2 : ∀ c h, x2 (ix2 c h) = (wqr c h : EReal))
    (b : Fin 4) (t : Fin 2048) (k : Fin 64) :
    Read.val_main_v1 (F := Ideal) x0 x2 (ix3 b t k) = (proj xr wqr b t k : EReal) :=
  proj_k xr wqr x0 x2 h0 h2 b t k

theorem proj_v (xr : Fin 4 → Fin 2048 → Fin 1024 → ℝ) (wvr : Fin 1024 → Fin 64 → ℝ)
    (x0 : (⟨S4x2048x1024, .f32⟩ : BufTy).Contents (Elt Ideal)) (x3 : (⟨S1024x64, .f32⟩ : BufTy).Contents (Elt Ideal))
    (h0 : ∀ b t c, x0 (ix3 b t c) = (xr b t c : EReal)) (h3 : ∀ c h, x3 (ix2 c h) = (wvr c h : EReal))
    (b : Fin 4) (u : Fin 2048) (h : Fin 64) :
    Read.val_main_v2 (F := Ideal) x0 x3 (ix3 b u h) = (proj xr wvr b u h : EReal) :=
  proj_k xr wvr x0 x3 h0 h3 b u h

/-! ## The scaled score, the mask, the masked score -/

/-- The scaled score of query t against key u is the real score. -/
theorem scaled_score (xr : Fin 4 → Fin 2048 → Fin 1024 → ℝ) (wkr wqr : Fin 1024 → Fin 64 → ℝ)
    (x0 : (⟨S4x2048x1024, .f32⟩ : BufTy).Contents (Elt Ideal)) (x1 x2 : (⟨S1024x64, .f32⟩ : BufTy).Contents (Elt Ideal))
    (h0 : ∀ b t c, x0 (ix3 b t c) = (xr b t c : EReal)) (h1 : ∀ c h, x1 (ix2 c h) = (wkr c h : EReal))
    (h2 : ∀ c h, x2 (ix2 c h) = (wqr c h : EReal)) (b : Fin 4) (t u : Fin 2048) :
    Read.val_main_v5 (F := Ideal) x0 x1 x2 (ix3 b t u) = (score xr wqr wkr b t u : EReal) := by
  rw [Read.val_main_v5_apply, Read.val_main_v4_apply, Read.val_main_cst_apply, Read.val_main_v3_apply]
  have el : ∀ k : Fin 64, Read.lidx_main_v3 (ix3 b t u) k = ix3 b t k := fun k =>
    funext fun a => Fin.ext (by match a with | ⟨0, _⟩ => rfl | ⟨1, _⟩ => rfl | ⟨2, _⟩ => rfl)
  have er : ∀ k : Fin 64, Read.ridx_main_v3 (ix3 b t u) k = ix3 b u k := fun k =>
    funext fun a => Fin.ext (by match a with | ⟨0, _⟩ => rfl | ⟨1, _⟩ => rfl | ⟨2, _⟩ => rfl)
  simp only [el, er, proj_q xr wqr x0 x2 h0 h2, proj_k xr wkr x0 x1 h0 h1, ← EReal.coe_mul,
    Ideal.mulf_def, Ideal.ofBits_def, scale_word]
  rw [← coe_sum, ← EReal.coe_mul]; rfl

/-- The mask at (t, u): key u is kept for query t when u ≤ t. -/
theorem mask_apply (t u : Fin 2048) :
    Read.val_main_v7 (F := Ideal) (ix2 t u) = if keepC t u then 1#1 else 0#1 := by
  rw [Read.val_main_v7_apply, Read.val_main_call0_v4_apply, Read.val_main_call0_v2_apply, Read.val_main_call0_v0_apply,
    Read.val_main_call0_v1_apply, Read.val_main_call0_c_apply, Read.val_main_call0_v3_apply, Read.val_main_v6_apply,
    Read.val_main_c_apply, Read.val_main_call0_v5_apply, Read.val_main_call0_c_0_apply]
  show Scalar.select (IntOp.cmpi .sge (IntOp.addi (BitVec.ofNat 32 t.val) 0#32) (BitVec.ofNat 32 u.val)) 1#1 0#1 = _
  have ht : (IntOp.addi (BitVec.ofNat 32 t.val) 0#32).toNat = t.val := by
    have := t.isLt
    simp only [IntOp.addi, BitVec.add_zero, BitVec.toNat_ofNat]; omega
  have hu : (BitVec.ofNat 32 u.val).toNat = u.val := by
    have := u.isLt
    simp only [BitVec.toNat_ofNat]; omega
  have hiff := StableHlo.Predicate.sge_iff_toNat (a := IntOp.addi (BitVec.ofNat 32 t.val) 0#32) (b := BitVec.ofNat 32 u.val)
    (by rw [ht]; have := t.isLt; omega) (by rw [hu]; have := u.isLt; omega)
  rw [ht, hu] at hiff
  unfold keepC
  by_cases hle : u.val ≤ t.val
  · rw [hiff.mpr hle, select_one, decide_eq_true hle, if_pos rfl]
  · rw [eq_zero_of_ne_one (fun h => hle (hiff.mp h)), select_zero, decide_eq_false hle, if_neg (by decide)]

/-- The masked score: the real score where the key is kept, −∞ where it is not. -/
theorem masked_score (xr : Fin 4 → Fin 2048 → Fin 1024 → ℝ) (wkr wqr : Fin 1024 → Fin 64 → ℝ)
    (x0 : (⟨S4x2048x1024, .f32⟩ : BufTy).Contents (Elt Ideal)) (x1 x2 : (⟨S1024x64, .f32⟩ : BufTy).Contents (Elt Ideal))
    (h0 : ∀ b t c, x0 (ix3 b t c) = (xr b t c : EReal)) (h1 : ∀ c h, x1 (ix2 c h) = (wkr c h : EReal))
    (h2 : ∀ c h, x2 (ix2 c h) = (wqr c h : EReal)) (b : Fin 4) (t u : Fin 2048) :
    Read.val_main_v8 (F := Ideal) x0 x1 x2 (ix3 b t u) = masked (keepC t) (score xr wqr wkr b t) u := by
  rw [Read.val_main_v8_apply, Read.val_main_call1_v1_apply, Read.val_main_call1_v2_apply, Read.val_main_call1_v0_apply,
    Read.val_main_cst_0_apply, scaled_score xr wkr wqr x0 x1 x2 h0 h1 h2]
  have ei : Read.idx_main_call1_v1 (ix3 b t u) = ix2 t u :=
    funext fun a => Fin.ext (by match a with | ⟨0, _⟩ => rfl | ⟨1, _⟩ => rfl)
  rw [ei, mask_apply, Ideal.ofBits_def, neg_inf_word]
  unfold masked
  by_cases hk : keepC t u = true
  · rw [if_pos hk, if_pos hk, select_one]
  · rw [if_neg hk, if_neg hk, select_zero]

/-! ## The row's maximum -/

/-- A reduced index (b, t) with coordinate k put back on the key axis is (b, t, k). -/
theorem lift_row (hred : S4x2048x2048.Reduces [2] S4x2048) (b : Fin 4) (t : Fin 2048) (k : Fin (S4x2048x2048.size 2)) :
    hred.lift (ix2 b t) k = ix3 b t (⟨k.val, k.isLt⟩ : Fin 2048) := by
  funext c; apply Fin.ext
  match c with | ⟨0, _⟩ => rfl | ⟨1, _⟩ => rfl | ⟨2, _⟩ => rfl

/-- The row's maximum, taken once more against −∞, is a real number: no masked score is +∞, and the diagonal key's
    is real. -/
theorem rowmax_real (xr : Fin 4 → Fin 2048 → Fin 1024 → ℝ) (wkr wqr : Fin 1024 → Fin 64 → ℝ)
    (x0 : (⟨S4x2048x1024, .f32⟩ : BufTy).Contents (Elt Ideal)) (x1 x2 : (⟨S1024x64, .f32⟩ : BufTy).Contents (Elt Ideal))
    (h0 : ∀ b t c, x0 (ix3 b t c) = (xr b t c : EReal)) (h1 : ∀ c h, x1 (ix2 c h) = (wkr c h : EReal))
    (h2 : ∀ c h, x2 (ix2 c h) = (wqr c h : EReal)) (b : Fin 4) (t : Fin 2048) :
    ∃ M : ℝ, Read.val_main_v11 (F := Ideal) x0 x1 x2 (ix2 b t) = (M : EReal) := by
  have hred : S4x2048x2048.Reduces [2] S4x2048 := by decide
  obtain ⟨M, hM⟩ := mNew_masked_real (keepC t) (score xr wqr wkr b t) ⟨t, by simp [keepC]⟩ ⊥ bot_ne_top
  refine ⟨M, ?_⟩
  have hv9 : Read.val_main_v9 (F := Ideal) x0 x1 x2 (ix2 b t) = rowMax (masked (keepC t) (score xr wqr wkr b t)) := by
    unfold Read.val_main_v9
    rw [Host.reduce_eq_fold_single FloatOps.maximumf _ _ reducesTo_S4x2048x2048_S4x2048_d2 hred h_S_]
    rw [Read.val_main_cst_1_apply, Ideal.ofBits_def, neg_inf_word]
    have hg : (Read.val_main_v8 (F := Ideal) x0 x1 x2 ∘ hred.lift (ix2 b t))
        = fun k : Fin 2048 => masked (keepC t) (score xr wqr wkr b t) k :=
      funext fun k => by
        rw [Function.comp_apply, lift_row, masked_score xr wkr wqr x0 x1 x2 h0 h1 h2]
        rfl
    rw [hg]; rfl
  rw [Read.val_main_v11_apply, Read.val_main_v10_apply, Read.val_main_cst_2_apply, Ideal.ofBits_def, neg_inf_word,
    Ideal.maximumf_def, hv9]
  exact hM

/-- The reference's result at (b, t, h), the inputs being the real arrays `xr`, `wkr`, `wqr`, `wvr` entry by entry. -/
theorem ref_apply (xr : Fin 4 → Fin 2048 → Fin 1024 → ℝ) (wkr wqr wvr : Fin 1024 → Fin 64 → ℝ)
    (x0 : (⟨S4x2048x1024, .f32⟩ : BufTy).Contents (Elt Ideal)) (x1 x2 x3 : (⟨S1024x64, .f32⟩ : BufTy).Contents (Elt Ideal))
    (h0 : ∀ b t c, x0 (ix3 b t c) = (xr b t c : EReal)) (h1 : ∀ c h, x1 (ix2 c h) = (wkr c h : EReal))
    (h2 : ∀ c h, x2 (ix2 c h) = (wqr c h : EReal)) (h3 : ∀ c h, x3 (ix2 c h) = (wvr c h : EReal))
    (b : Fin 4) (t : Fin 2048) (h : Fin 64) :
    Read.val_main_v20 (F := Ideal) x0 x1 x2 x3 (ix3 b t h) = (spec xr wkr wqr wvr b t h : EReal) := by
  obtain ⟨M, hM⟩ := rowmax_real xr wkr wqr x0 x1 x2 h0 h1 h2 b t
  -- the weight of key u: e^(masked score − M)
  have e15 : ∀ u : Fin 2048, Read.val_main_v15 (F := Ideal) x0 x1 x2 (ix3 b t u)
      = Ideal.exp (masked (keepC t) (score xr wqr wkr b t) u - (M : EReal)) := fun u => by
    rw [Read.val_main_v15_apply, Read.val_main_v14_apply, Read.val_main_v13_apply, Read.val_main_v12_apply]
    have ei : Read.idx_main_v12 (Read.idx_main_v13 (ix3 b t u)) = ix2 b t :=
      funext fun a => Fin.ext (by match a with | ⟨0, _⟩ => rfl | ⟨1, _⟩ => rfl)
    rw [ei, hM, masked_score xr wkr wqr x0 x1 x2 h0 h1 h2, Ideal.hostUnary_exp_def, Ideal.subf_def]
  -- the row's sum of the weights, from 0
  have e16 : Read.val_main_v16 (F := Ideal) x0 x1 x2 (ix2 b t)
      = 0 + ∑ u : Fin 2048, Ideal.exp (masked (keepC t) (score xr wqr wkr b t) u - (M : EReal)) := by
    rw [Read.val_main_v16_apply, Read.val_main_cst_3_apply, Ideal.ofBits_def, zero_word]
    have ei : ∀ u : Fin 2048, Read.idx_main_v16 (ix2 b t) u = ix3 b t u := fun u =>
      funext fun a => Fin.ext (by match a with | ⟨0, _⟩ => rfl | ⟨1, _⟩ => rfl | ⟨2, _⟩ => rfl)
    simp only [ei, e15]
  -- each weight over the sum
  have e19 : ∀ u : Fin 2048, Read.val_main_v19 (F := Ideal) x0 x1 x2 (ix3 b t u)
      = Ideal.div (Ideal.exp (masked (keepC t) (score xr wqr wkr b t) u - (M : EReal)))
          (0 + ∑ u' : Fin 2048, Ideal.exp (masked (keepC t) (score xr wqr wkr b t) u' - (M : EReal))) := fun u => by
    rw [Read.val_main_v19_apply, Read.val_main_v18_apply, Read.val_main_v17_apply]
    have ei : Read.idx_main_v17 (Read.idx_main_v18 (ix3 b t u)) = ix2 b t :=
      funext fun a => Fin.ext (by match a with | ⟨0, _⟩ => rfl | ⟨1, _⟩ => rfl)
    rw [ei, e15, e16, Ideal.hostDivf_def]
  rw [Read.val_main_v20_apply]
  have el : ∀ u : Fin 2048, Read.lidx_main_v20 (ix3 b t h) u = ix3 b t u := fun u =>
    funext fun a => Fin.ext (by match a with | ⟨0, _⟩ => rfl | ⟨1, _⟩ => rfl | ⟨2, _⟩ => rfl)
  have er : ∀ u : Fin 2048, Read.ridx_main_v20 (ix3 b t h) u = ix3 b u h := fun u =>
    funext fun a => Fin.ext (by match a with | ⟨0, _⟩ => rfl | ⟨1, _⟩ => rfl | ⟨2, _⟩ => rfl)
  simp only [el, er, e19, proj_v xr wvr x0 x3 h0 h3]
  unfold spec
  exact direct_row (keepC t) (score xr wqr wkr b t) (fun u h => proj xr wvr b u h) ⟨t, by simp [keepC]⟩ M h

end Cert.ReferenceIdeal.RefValue

end
-- ==== Proof.Finite.lean ====
/-
  The precondition says of each of the four inputs that every entry's absolute value is below +∞. On the extended reals
  that means every entry is a real number: |x| < +∞ excludes +∞ and −∞.
-/
import proofs.«426603_j13365938225281_3_alg».proof.Pre_finite_inputs
import proofs.«426603_j13365938225281_3_alg».proof.Proof.Gen.Pre_finite_inputs
import proofs.«426603_j13365938225281_3_alg».proof.Proof.IdealWords
import Idealize.ShloMosaic.PureOps.Ideal
import Idealize.ShloMosaic.PureOps.Ideal.Laws
import Idealize.ShloMosaic.Lib.ValueIdx
import Idealize.ShloMosaic.Lib.ReduceAll

set_option maxRecDepth 16384

noncomputable section

namespace Cert.Attn

open Idealize.ShloMosaic

/-- The scalar shape has one index. -/
instance : Subsingleton Cert.Pre_finite_inputs.S_.Idx := ⟨fun a b => funext fun d => d.elim0⟩

/-- The one-bit word of a truth value is 1 only for `true`. -/
theorem bit_true {b : Bool} (h : BitVec.ofBool b = 1#1) : b = true := by
  cases b
  · exact absurd h (by decide)
  · rfl

/-- An extended real x with max x (−x) below +∞ is a real number: x < +∞ excludes +∞, and −x < +∞ excludes −∞. -/
theorem real_of_abs_lt_top (x : EReal) (h : max x (-x) < ⊤) : ∃ r : ℝ, x = (r : EReal) := by
  have h1 : x ≠ ⊤ := ne_of_lt (lt_of_le_of_lt (le_max_left _ _) h)
  have h2 : x ≠ ⊥ := by
    rintro rfl
    rw [EReal.neg_bot] at h
    exact absurd (lt_of_le_of_lt (le_max_right _ _) h) (lt_irrefl _)
  exact ⟨x.toReal, (EReal.coe_toReal h1 h2).symm⟩

/-- One entry: the comparison "|x| below the word 0x7F800000" came out 1, so x is a real number. -/
theorem real_of_entry (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [pos_inf_word] at h'
  exact real_of_abs_lt_top x (of_decide_eq_true (bit_true h'))

/-- One input array of any shape: the conjunction over all entries of that comparison came out 1, so every entry is a
    real number. -/
theorem real_of_all {s : Shape} {axes : List (Fin s.rank)} (dims : Fin Cert.Pre_finite_inputs.S_.rank → Fin s.rank)
    (bc : Cert.Pre_finite_inputs.S_.BroadcastsInDim s dims) (hr : s.ReducesTo axes Cert.Pre_finite_inputs.S_)
    (hu : 0 < Cert.Pre_finite_inputs.S_.numel) (x : FVec Ideal s .f32) (init : IVec Cert.Pre_finite_inputs.S_ 1)
    (e : Host.reduce IntOp.andi
          (cmpf .olt (Host.absf x)
            (broadcastInDim s dims bc (constant (F := Ideal) Cert.Pre_finite_inputs.S_ .f32 0x7F800000#32)))
          init hr hu ValueIdx.ix0 = 1#1)
    (i : s.Idx) : ∃ r : ℝ, x i = (r : EReal) :=
  real_of_entry (x i) (Host.reduce_andi_all _ init hr hu ValueIdx.ix0 e i)

/-- An input array of which the precondition holds has only real entries. -/
theorem real_of_finite [hP : Cert.Pre_finite_inputs.Facts]
    (a0 : FVec Ideal Cert.Pre_finite_inputs.S4x2048x1024 .f32) (a1 a2 a3 : FVec Ideal Cert.Pre_finite_inputs.S1024x64 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  -- the result's one entry is the conjunction of the four arrays' all-entries tests
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all _ _ _ _ a0 _ e0, real_of_all _ _ _ _ a1 _ e1, real_of_all _ _ _ _ a2 _ e2,
    real_of_all _ _ _ _ a3 _ e3⟩

end Cert.Attn

end
-- ==== Proof.lean ====
/-
  The five claims, assembled.

  The three frames: each program runs to the end, faults nowhere and leaves its four inputs as it found them. For the
  two kernel programs that is the run of their five steps read at the arguments' buffers; for the reference it is its
  run of host operations with the result dropped.

  The idealization's one rewrite names the finite fill of masked scores −∞; the named value is what the table says.

  The equivalence: under the precondition every input entry is a real number. Then the kernel's result array and the
  reference's result array are, entry by entry, the coercion of one real number — causal softmax attention of x
  against the three weight matrices — so they are equal as extended reals.
-/
import proofs.«426603_j13365938225281_3_alg».proof.Defs
import proofs.«426603_j13365938225281_3_alg».proof.Proof.Gen.Kernel
import proofs.«426603_j13365938225281_3_alg».proof.Proof.Gen.KernelIdeal
import proofs.«426603_j13365938225281_3_alg».proof.Proof.Gen.ReferenceIdeal
import proofs.«426603_j13365938225281_3_alg».proof.Proof.Gen.Pre_finite_inputs
import proofs.«426603_j13365938225281_3_alg».proof.Proof.Gen.ReferenceIdeal.Run
import proofs.«426603_j13365938225281_3_alg».proof.Proof.Gen.ReferenceIdeal.Read
import proofs.«426603_j13365938225281_3_alg».proof.Proof.BtRun
import proofs.«426603_j13365938225281_3_alg».proof.Proof.IdRun
import proofs.«426603_j13365938225281_3_alg».proof.Proof.IdBridge
import proofs.«426603_j13365938225281_3_alg».proof.Proof.RefValue
import proofs.«426603_j13365938225281_3_alg».proof.Proof.Finite
import Idealize.ShloMosaic.Adequacy
import Idealize.ShloMosaic.Init

noncomputable section

namespace Cert.Proof

open Idealize.ShloMosaic Idealize.ShloMosaic.TcCoe Idealize.SL.Sem
open ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The table gives the masked scores' fill the value −∞. -/
theorem preserves : Cert.preserves_Kernel_KernelIdeal :=
  IdealRules.named_const.statement Cert.KernelIdeal.κ "neg_big" .f32 0xFF333332#32 ⊥ rfl

/-- Both programs end with the same result array. The kernel's is what its run leaves in the result buffer; the
    reference's is its last operation's value; at every index both are the coercion of the same real number. -/
theorem algebraic : Cert.algebraic_KernelIdeal_ReferenceIdeal := by
  intro m ρ m' ρ' hpre hagree
  refine ⟨fun c => Cert.KernelIdeal.Hand.W5 (F := Ideal) m ρ c (Proc.devRef .tc Cert.KernelIdeal.main_v7), ?_, ?_⟩
  · -- the kernel's run: the result buffer at what the run leaves, the arguments as launched
    refine (θ_run Cert.KernelIdeal.defs _ _).mono (fun r h c => ?_) (Cert.KernelIdeal.Hand.run_all (F := Ideal) m ρ)
    exact ⟨h c _ (Cert.KernelIdeal.Hand.mem_uc Cert.KernelIdeal.main_v7 (by decide)),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c)⟩
  · -- the reference's run, its result read at an index against the kernel's
    refine (θ_run Cert.ReferenceIdeal.defs _ _).mono (fun r h c => ⟨(h c).1.trans ?_, (h c).2⟩)
      (Cert.ReferenceIdeal.Value.run (F := Ideal) m' ρ')
    obtain ⟨r0, r1, r2, r3⟩ := Cert.Attn.real_of_finite _ _ _ _ (hpre c)
    choose xr hx using r0
    choose wkr hwk using r1
    choose wqr hwq using r2
    choose wvr hwv using r3
    rw [Cert.ReferenceIdeal.Read.val_main_v20_eq, (hagree c).1, (hagree c).2.1, (hagree c).2.2.1, (hagree c).2.2.2]
    funext i
    obtain ⟨b, t, hh, rfl⟩ : ∃ (b : Fin 4) (t : Fin 2048) (hh : Fin 64), i = ix3 b t hh := ⟨i 0, i 1, i 2, eq_ix3 i⟩
    rw [Cert.ReferenceIdeal.RefValue.ref_apply (fun b t k => xr (ix3 b t k)) (fun k h => wkr (ix2 k h)) (fun k h => wqr (ix2 k h))
      (fun k h => wvr (ix2 k h)) _ _ _ _ (fun b t k => hx _) (fun k h => hwk _) (fun k h => hwq _) (fun k h => hwv _) b t hh]
    exact (Cert.KernelIdeal.Hand.kernel_apply m ρ c (fun b t k => xr (ix3 b t k)) (fun k h => wkr (ix2 k h)) (fun k h => wqr (ix2 k h))
      (fun k h => wvr (ix2 k h)) (fun b t k => hx _) (fun k h => hwk _) (fun k h => hwq _) (fun k h => hwv _) b t hh).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
